-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S800000 : Shape := ⟨1, ![800000]⟩
abbrev S1001x128 : Shape := ⟨2, ![1001, 128]⟩
abbrev S3x128x128 : Shape := ⟨3, ![3, 128, 128]⟩
abbrev S3x128 : Shape := ⟨2, ![3, 128]⟩
abbrev S40x128 : Shape := ⟨2, ![40, 128]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S40x128 : S_.BroadcastsInDim S40x128 (![] : Fin 0 → Fin S40x128.rank)
  reducesTo_S40x128_S_d0_1 : S40x128.ReducesTo [0, 1] S_
  bcast_S_S50000x2 : S_.BroadcastsInDim S50000x2 (![] : Fin 0 → Fin S50000x2.rank)
  reducesTo_S50000x2_S_d0_1 : S50000x2.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg0 : IVec S50000x2 32) (main_arg2 : IVec S800000 32) (main_v33 : IVec S_ 1) : IVec S_ 1 :=
  let main_c_12 : IVec S_ 32 := constantI S_ 32 0#32
  let main_v34 : IVec S50000x2 32 := broadcastInDim S50000x2 ![] bcast_S_S50000x2 main_c_12
  let main_v35 : IVec S50000x2 1 := cmpi .sge main_arg0 main_v34
  let main_c_13 : IVec S_ 1 := constantI S_ 1 1#1
  let main_v36 : IVec S_ 1 := (fun x v => Host.reduce IntOp.andi x v reducesTo_S50000x2_S_d0_1 h_S_) main_v35 main_c_13
  let main_v37 : IVec S_ 1 := andi main_v33 main_v36
  let main_c_14 : IVec S_ 32 := constantI S_ 32 1001#32
  let main_v38 : IVec S50000x2 32 := broadcastInDim S50000x2 ![] bcast_S_S50000x2 main_c_14
  let main_v39 : IVec S50000x2 1 := cmpi .slt main_arg0 main_v38
  let main_c_15 : IVec S_ 1 := constantI S_ 1 1#1
  let main_v40 : IVec S_ 1 := (fun x v => Host.reduce IntOp.andi x v reducesTo_S50000x2_S_d0_1 h_S_) main_v39 main_c_15
  let main_v41 : IVec S_ 1 := andi main_v37 main_v40
  let main_c_16 : IVec S_ 32 := constantI S_ 32 0#32
  let main_v42 : IVec S800000 32 := broadcastInDim S800000 ![] bcast_S_S800000 main_c_16
  let main_v43 : IVec S800000 1 := cmpi .sge main_arg2 main_v42
  let main_c_17 : IVec S_ 1 := constantI S_ 1 1#1
  let main_v44 : IVec S_ 1 := (fun x v => Host.reduce IntOp.andi x v reducesTo_S800000_S_d0 h_S_) main_v43 main_c_17
  let main_v45 : IVec S_ 1 := andi main_v41 main_v44
  main_v45

def fn_part1 {F : FTy → Type} [FloatOps F] (main_arg0 : IVec S50000x2 32) (main_arg2 : IVec S800000 32) (main_arg7 : FVec F S3x128x128 .f32) (main_arg8 : FVec F S3x128 .f32) (main_arg9 : FVec F S40x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg7
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S40x128 .f32 := Host.absf main_arg9
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  fn_part2 (F := F) main_arg0 main_arg2 main_v33

def fn {F : FTy → Type} [FloatOps F] (main_arg0 : IVec S50000x2 32) (main_arg1 : IVec S800000 32) (main_arg2 : IVec S800000 32) (main_arg3 : FVec F S1001x128 .f32) (main_arg4 : FVec F S1001x128 .f32) (main_arg5 : FVec F S3x128x128 .f32) (main_arg6 : FVec F S3x128 .f32) (main_arg7 : FVec F S3x128x128 .f32) (main_arg8 : FVec F S3x128 .f32) (main_arg9 : FVec F S40x128 .f32) : IVec S_ 1 :=
  let main_v0 : FVec F S1001x128 .f32 := Host.absf main_arg3
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_v4 : FVec F S1001x128 .f32 := Host.absf main_arg4
  let main_cst_0 : FVec F S_ .f32 := constant S_ .f32 0x7F800000#32
  let main_v5 : FVec F S1001x128 .f32 := broadcastInDim S1001x128 ![] bcast_S_S1001x128 main_cst_0
  let main_v6 : IVec S1001x128 1 := cmpf .olt main_v4 main_v5
  let main_c_1 : IVec S_ 1 := constantI S_ 1 1#1
  let main_v7 : IVec S_ 1 := (fun x v => Host.reduce IntOp.andi x v reducesTo_S1001x128_S_d0_1 h_S_) main_v6 main_c_1
  let main_v8 : IVec S_ 1 := andi main_v3 main_v7
  let main_v9 : FVec F S3x128x128 .f32 := Host.absf main_arg5
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg2 main_arg7 main_arg8 main_arg9 main_v13 main_v16
-- ==== Kernel.lean ====
abbrev S50000x2 : Shape := ⟨2, ![50000, 2]⟩
abbrev S800000 : Shape := ⟨1, ![800000]⟩
abbrev S1001x128 : Shape := ⟨2, ![1001, 128]⟩
abbrev S3x128x128 : Shape := ⟨3, ![3, 128, 128]⟩
abbrev S3x128 : Shape := ⟨2, ![3, 128]⟩
abbrev S40x128 : Shape := ⟨2, ![40, 128]⟩
abbrev S_ : Shape := ⟨0, ![]⟩
abbrev S1024x128 : Shape := ⟨2, ![1024, 128]⟩
abbrev S3x1x128 : Shape := ⟨3, ![3, 1, 128]⟩
abbrev S128x128 : Shape := ⟨2, ![128, 128]⟩
abbrev S1 : Shape := ⟨1, ![1]⟩
abbrev S50000x128 : Shape := ⟨2, ![50000, 128]⟩
abbrev S800000x1 : Shape := ⟨2, ![800000, 1]⟩
abbrev S800000x128 : Shape := ⟨2, ![800000, 128]⟩
abbrev S1x128x128 : Shape := ⟨3, ![1, 128, 128]⟩
abbrev S1x1x128 : Shape := ⟨3, ![1, 1, 128]⟩
abbrev S1x128 : Shape := ⟨2, ![1, 128]⟩
abbrev S50000x40 : Shape := ⟨2, ![50000, 40]⟩
abbrev S2000x2 : Shape := ⟨2, ![2000, 2]⟩
abbrev S2000x128 : Shape := ⟨2, ![2000, 128]⟩
abbrev S2000x1 : Shape := ⟨2, ![2000, 1]⟩
abbrev S2000x1024 : Shape := ⟨2, ![2000, 1024]⟩

abbrev nBuf : Space → Nat
  | .hbm => 135
  | .vmem => 31
  | .smem => 0
  | _ => 0

abbrev hbmTy0_0 (i : Nat) : BufTy := match i % 128 with
  | 0 => ⟨S50000x2, .i32⟩
  | 1 => ⟨S800000, .i32⟩
  | 2 => ⟨S800000, .i32⟩
  | 3 => ⟨S1001x128, .f32⟩
  | 4 => ⟨S1001x128, .f32⟩
  | 5 => ⟨S3x128x128, .f32⟩
  | 6 => ⟨S3x128, .f32⟩
  | 7 => ⟨S3x128x128, .f32⟩
  | 8 => ⟨S3x128, .f32⟩
  | 9 => ⟨S40x128, .f32⟩
  | 10 => ⟨S_, .i32⟩
  | 11 => ⟨S_, .f32⟩
  | 12 => ⟨S1024x128, .f32⟩
  | 13 => ⟨S1024x128, .bf16⟩
  | 14 => ⟨S_, .i32⟩
  | 15 => ⟨S_, .f32⟩
  | 16 => ⟨S1024x128, .f32⟩
  | 17 => ⟨S1024x128, .bf16⟩
  | 18 => ⟨S3x128x128, .f32⟩
  | 19 => ⟨S3x128x128, .bf16⟩
  | 20 => ⟨S3x128x128, .f32⟩
  | 21 => ⟨S3x128x128, .bf16⟩
  | 22 => ⟨S3x1x128, .f32⟩
  | 23 => ⟨S3x1x128, .f32⟩
  | 24 => ⟨S_, .f32⟩
  | 25 => ⟨S128x128, .f32⟩
  | 26 => ⟨S_, .i32⟩
  | 27 => ⟨S1, .i32⟩
  | 28 => ⟨S128x128, .f32⟩
  | 29 => ⟨S128x128, .f32⟩
  | 30 => ⟨S128x128, .bf16⟩
  | 31 => ⟨S50000x128, .f32⟩
  | 32 => ⟨S800000, .i32⟩
  | 33 => ⟨S800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .i32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S50000x128, .f32⟩
  | 71 => ⟨S1x128x128, .bf16⟩
  | 72 => ⟨S128x128, .bf16⟩
  | 73 => ⟨S1x1x128, .f32⟩
  | 74 => ⟨S1x128, .f32⟩
  | 75 => ⟨S1x128x128, .bf16⟩
  | 76 => ⟨S128x128, .bf16⟩
  | 77 => ⟨S1x1x128, .f32⟩
  | 78 => ⟨S1x128, .f32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S50000x128, .f32⟩
  | 98 => ⟨S1x128x128, .bf16⟩
  | 99 => ⟨S128x128, .bf16⟩
  | 100 => ⟨S1x1x128, .f32⟩
  | 101 => ⟨S1x128, .f32⟩
  | 102 => ⟨S1x128x128, .bf16⟩
  | 103 => ⟨S128x128, .bf16⟩
  | 104 => ⟨S1x1x128, .f32⟩
  | 105 => ⟨S1x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S50000x128, .f32⟩
  | 125 => ⟨S1x128x128, .bf16⟩
  | 126 => ⟨S128x128, .bf16⟩
  | 127 => ⟨S1x1x128, .f32⟩
  | _ => ⟨S50000x2, .i32⟩

abbrev hbmTy0_1 (i : Nat) : BufTy := match i % 128 with
  | 0 => ⟨S1x128, .f32⟩
  | 1 => ⟨S1x128x128, .bf16⟩
  | 2 => ⟨S128x128, .bf16⟩
  | 3 => ⟨S1x1x128, .f32⟩
  | 4 => ⟨S1x128, .f32⟩
  | 5 => ⟨S50000x128, .f32⟩
  | 6 => ⟨S50000x40, .f32⟩
  | _ => ⟨S50000x2, .i32⟩

abbrev hbmTy (i : Nat) : BufTy := match i / 128 with
  | 0 => hbmTy0_0 i
  | 1 => hbmTy0_1 i
  | _ => ⟨S50000x2, .i32⟩

abbrev bufTy : (tb : Table) → Fin (tcTables nBuf tb) → BufTy
  | .hbm, ⟨i, _⟩ => hbmTy i
  | .local _ .vmem, ⟨0, _⟩ => ⟨S2000x2, .i32⟩
  | .local _ .vmem, ⟨1, _⟩ => ⟨S2000x2, .i32⟩
  | .local _ .vmem, ⟨2, _⟩ => ⟨S1024x128, .bf16⟩
  | .local _ .vmem, ⟨3, _⟩ => ⟨S1024x128, .bf16⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S2000x128, .f32⟩
  | .local _ .vmem, ⟨30, _⟩ => ⟨S2000x128, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_call0_v0 : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_call1_v0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_cst : Ref sig .tc := ⟨.hbm, 24, rfl⟩
abbrev main_call0_v10 : Ref sig .tc := ⟨.hbm, 25, rfl⟩
abbrev main_call0_c_1 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_call2_v0 : Ref sig .tc := ⟨.hbm, 32, rfl⟩
abbrev main_call0_call2_v1_0 : Ref sig .tc := ⟨.hbm, 33, rfl⟩
abbrev main_call0_v16 : Ref sig .tc := ⟨.hbm, 34, rfl⟩
abbrev main_call0_c_2 : Ref sig .tc := ⟨.hbm, 35, rfl⟩
abbrev main_call0_v17 : Ref sig .tc := ⟨.hbm, 36, rfl⟩
abbrev main_call0_v18 : Ref sig .tc := ⟨.hbm, 37, rfl⟩
abbrev main_call0_c_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_c_4 : Ref sig .tc := ⟨.hbm, 44, rfl⟩
abbrev main_call0_v24 : Ref sig .tc := ⟨.hbm, 45, rfl⟩
abbrev main_call0_v25 : Ref sig .tc := ⟨.hbm, 46, rfl⟩
abbrev main_call0_c_5 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_c_6 : Ref sig .tc := ⟨.hbm, 53, rfl⟩
abbrev main_call0_v31 : Ref sig .tc := ⟨.hbm, 54, rfl⟩
abbrev main_call0_v32 : Ref sig .tc := ⟨.hbm, 55, rfl⟩
abbrev main_call0_c_7 : Ref sig .tc := ⟨.hbm, 56, rfl⟩
abbrev main_call0_v33 : Ref sig .tc := ⟨.hbm, 57, rfl⟩
abbrev main_call0_v34 : Ref sig .tc := ⟨.hbm, 58, rfl⟩
abbrev main_call0_v35 : Ref sig .tc := ⟨.hbm, 59, rfl⟩
abbrev main_call0_v36 : Ref sig .tc := ⟨.hbm, 60, rfl⟩
abbrev main_call0_v37 : Ref sig .tc := ⟨.hbm, 61, rfl⟩
abbrev main_call0_c_8 : Ref sig .tc := ⟨.hbm, 62, rfl⟩
abbrev main_call0_v38 : Ref sig .tc := ⟨.hbm, 63, rfl⟩
abbrev main_call0_v39 : Ref sig .tc := ⟨.hbm, 64, rfl⟩
abbrev main_call0_c_9 : Ref sig .tc := ⟨.hbm, 65, rfl⟩
abbrev main_call0_v40 : Ref sig .tc := ⟨.hbm, 66, rfl⟩
abbrev main_call0_v41 : Ref sig .tc := ⟨.hbm, 67, rfl⟩
abbrev main_call0_v42 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_v50 : Ref sig .tc := ⟨.hbm, 76, rfl⟩
abbrev main_call0_v51 : Ref sig .tc := ⟨.hbm, 77, rfl⟩
abbrev main_call0_v52 : Ref sig .tc := ⟨.hbm, 78, rfl⟩
abbrev main_call0_v53 : Ref sig .tc := ⟨.hbm, 79, rfl⟩
abbrev main_call0_c_10 : Ref sig .tc := ⟨.hbm, 80, rfl⟩
abbrev main_call0_v54 : Ref sig .tc := ⟨.hbm, 81, rfl⟩
abbrev main_call0_v55 : Ref sig .tc := ⟨.hbm, 82, rfl⟩
abbrev main_call0_c_11 : Ref sig .tc := ⟨.hbm, 83, rfl⟩
abbrev main_call0_v56 : Ref sig .tc := ⟨.hbm, 84, rfl⟩
abbrev main_call0_v57 : Ref sig .tc := ⟨.hbm, 85, rfl⟩
abbrev main_call0_v58 : Ref sig .tc := ⟨.hbm, 86, rfl⟩
abbrev main_call0_v59 : Ref sig .tc := ⟨.hbm, 87, rfl⟩
abbrev main_call0_v60 : Ref sig .tc := ⟨.hbm, 88, rfl⟩
abbrev main_call0_c_12 : Ref sig .tc := ⟨.hbm, 89, rfl⟩
abbrev main_call0_v61 : Ref sig .tc := ⟨.hbm, 90, rfl⟩
abbrev main_call0_v62 : Ref sig .tc := ⟨.hbm, 91, rfl⟩
abbrev main_call0_c_13 : Ref sig .tc := ⟨.hbm, 92, rfl⟩
abbrev main_call0_v63 : Ref sig .tc := ⟨.hbm, 93, rfl⟩
abbrev main_call0_v64 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_call0_v68 : Ref sig .tc := ⟨.hbm, 98, rfl⟩
abbrev main_call0_v69 : Ref sig .tc := ⟨.hbm, 99, rfl⟩
abbrev main_call0_v70 : Ref sig .tc := ⟨.hbm, 100, rfl⟩
abbrev main_call0_v71 : Ref sig .tc := ⟨.hbm, 101, rfl⟩
abbrev main_call0_v72 : Ref sig .tc := ⟨.hbm, 102, rfl⟩
abbrev main_call0_v73 : Ref sig .tc := ⟨.hbm, 103, rfl⟩
abbrev main_call0_v74 : Ref sig .tc := ⟨.hbm, 104, rfl⟩
abbrev main_call0_v75 : Ref sig .tc := ⟨.hbm, 105, rfl⟩
abbrev main_call0_v76 : Ref sig .tc := ⟨.hbm, 106, rfl⟩
abbrev main_call0_c_14 : Ref sig .tc := ⟨.hbm, 107, rfl⟩
abbrev main_call0_v77 : Ref sig .tc := ⟨.hbm, 108, rfl⟩
abbrev main_call0_v78 : Ref sig .tc := ⟨.hbm, 109, rfl⟩
abbrev main_call0_c_15 : Ref sig .tc := ⟨.hbm, 110, rfl⟩
abbrev main_call0_v79 : Ref sig .tc := ⟨.hbm, 111, rfl⟩
abbrev main_call0_v80 : Ref sig .tc := ⟨.hbm, 112, rfl⟩
abbrev main_call0_v81 : Ref sig .tc := ⟨.hbm, 113, rfl⟩
abbrev main_call0_v82 : Ref sig .tc := ⟨.hbm, 114, rfl⟩
abbrev main_call0_v83 : Ref sig .tc := ⟨.hbm, 115, rfl⟩
abbrev main_call0_c_16 : Ref sig .tc := ⟨.hbm, 116, rfl⟩
abbrev main_call0_v84 : Ref sig .tc := ⟨.hbm, 117, rfl⟩
abbrev main_call0_v85 : Ref sig .tc := ⟨.hbm, 118, rfl⟩
abbrev main_call0_c_17 : Ref sig .tc := ⟨.hbm, 119, rfl⟩
abbrev main_call0_v86 : Ref sig .tc := ⟨.hbm, 120, rfl⟩
abbrev main_call0_v87 : Ref sig .tc := ⟨.hbm, 121, rfl⟩
abbrev main_call0_v88 : Ref sig .tc := ⟨.hbm, 122, rfl⟩
abbrev main_call0_v89 : Ref sig .tc := ⟨.hbm, 123, rfl⟩
abbrev main_call0_v90 : Ref sig .tc := ⟨.hbm, 124, rfl⟩
abbrev main_call0_v91 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_v95 : Ref sig .tc := ⟨.hbm, 129, rfl⟩
abbrev main_call0_v96 : Ref sig .tc := ⟨.hbm, 130, rfl⟩
abbrev main_call0_v97 : Ref sig .tc := ⟨.hbm, 131, rfl⟩
abbrev main_call0_v98 : Ref sig .tc := ⟨.hbm, 132, rfl⟩
abbrev main_call0_v99 : Ref sig .tc := ⟨.hbm, 133, rfl⟩
abbrev main_v0 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem6_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  pads_S1001x128_S1024x128_0230_000 : S1001x128.Pads (![0, 0] : Fin 2 → Nat) ![23, 0] ![0, 0] S1024x128
  h_S_ : 0 < S_.numel
  bitsLt_bf16_f32 : FTy.bits .bf16 < FTy.bits .f32
  transposes_S3x128x128_S3x128x128_0_2_1 : S3x128x128.Transposes [0, 2, 1] S3x128x128
  shapeCasts_S3x128_S3x1x128 : S3x128.ShapeCasts S3x1x128
  bcast_S_S128x128 : S_.BroadcastsInDim S128x128 (![] : Fin 0 → Fin S128x128.rank)
  bcast_S_S1 : S_.BroadcastsInDim S1 (![] : Fin 0 → Fin S1.rank)
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  slices_S3x128x128_S1x128x128_1_0_0 : S3x128x128.Slices ![1, 0, 0] S1x128x128
  slices_S3x1x128_S1x1x128_1_0_0 : S3x1x128.Slices ![1, 0, 0] S1x1x128
  slices_S3x128x128_S1x128x128_2_0_0 : S3x128x128.Slices ![2, 0, 0] S1x128x128
  slices_S3x1x128_S1x1x128_2_0_0 : S3x1x128.Slices ![2, 0, 0] S1x1x128
  slices_S50000x128_S50000x40_0_0 : S50000x128.Slices ![0, 0] S50000x40
  inb_S2000x2_S2000x1_0_0 : ∀ a, (![0, 0] : Fin 2 → Nat) a + S2000x1.size a ≤ S2000x2.size a
  h_S2000x1 : 0 < S2000x1.numel
  inb_S2000x2_S2000x1_0_1 : ∀ a, (![0, 1] : Fin 2 → Nat) a + S2000x1.size a ≤ S2000x2.size a
  iota_S2000x1024_d1_w32 : S2000x1024.Iotas .tc 32 [1]
  broadcasts_S2000x1_S2000x1024 : S2000x1.Broadcasts S2000x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S128x128_S1_S40x128_01_n_0_0_wf : ScatterDims.WF S128x128 S1 S40x128 [0, 1] [] [0] 0
  gather_S800000_S800000x1_S800000_n_0_n_n_0_1_1_wf : GatherDims.WF S800000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x1024_S1024x128_S2000x128_1_0_0_1_n_n_wf : DotDims.WF S2000x1024 S1024x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .i32 = 32 ∨ (Rect.block (s := S50000x2) S2000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S128x128_S1_S40x128_01_n_0_0 : ScatterDims S128x128 S1 S40x128 where
  updateWindowDims := [0, 1]
  insertedWindowDims := []
  scatterDimsToOperandDims := [0]
  indexVectorDim := 0
  wf := scatter_S128x128_S1_S40x128_01_n_0_0_wf
def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v46) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v53) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v69) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v73) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v76) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v90) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v92) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v94) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v96) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v98) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v14) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v99) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x2 : Shape := ⟨2, ![50000, 2]⟩
abbrev S800000 : Shape := ⟨1, ![800000]⟩
abbrev S1001x128 : Shape := ⟨2, ![1001, 128]⟩
abbrev S3x128x128 : Shape := ⟨3, ![3, 128, 128]⟩
abbrev S3x128 : Shape := ⟨2, ![3, 128]⟩
abbrev S40x128 : Shape := ⟨2, ![40, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x40 : Shape := ⟨2, ![128, 40]⟩
abbrev S50000x40 : Shape := ⟨2, ![50000, 40]⟩

abbrev nBuf : Space → Nat
  | .hbm => 143
  | .vmem => 0
  | .smem => 0
  | _ => 0

abbrev hbmTy0_0 (i : Nat) : BufTy := match i % 128 with
  | 0 => ⟨S50000x2, .i32⟩
  | 1 => ⟨S800000, .i32⟩
  | 2 => ⟨S800000, .i32⟩
  | 3 => ⟨S1001x128, .f32⟩
  | 4 => ⟨S1001x128, .f32⟩
  | 5 => ⟨S3x128x128, .f32⟩
  | 6 => ⟨S3x128, .f32⟩
  | 7 => ⟨S3x128x128, .f32⟩
  | 8 => ⟨S3x128, .f32⟩
  | 9 => ⟨S40x128, .f32⟩
  | 10 => ⟨S50000x1, .i32⟩
  | 11 => ⟨S50000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x128, .f32⟩
  | 21 => ⟨S50000x1, .i32⟩
  | 22 => ⟨S50000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S1x128x128, .f32⟩
  | 51 => ⟨S128x128, .f32⟩
  | 52 => ⟨S128x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S1x128x128, .f32⟩
  | 63 => ⟨S128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S1x128x128, .f32⟩
  | 86 => ⟨S128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128x128, .f32⟩
  | 98 => ⟨S128x128, .f32⟩
  | 99 => ⟨S128x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x128, .f32⟩
  | 120 => ⟨S1x128x128, .f32⟩
  | 121 => ⟨S128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x2, .i32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S128x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S128x40, .f32⟩
  | 14 => ⟨S50000x40, .f32⟩
  | _ => ⟨S50000x2, .i32⟩

abbrev hbmTy (i : Nat) : BufTy := match i / 128 with
  | 0 => hbmTy0_0 i
  | 1 => hbmTy0_1 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_5 : Ref sig .tc := ⟨.hbm, 71, rfl⟩
abbrev main_v50 : Ref sig .tc := ⟨.hbm, 72, rfl⟩
abbrev main_v51 : Ref sig .tc := ⟨.hbm, 73, rfl⟩
abbrev main_c_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call2_cst : Ref sig .tc := ⟨.hbm, 94, rfl⟩
abbrev main_call2_v0 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_8 : Ref sig .tc := ⟨.hbm, 106, rfl⟩
abbrev main_v80 : Ref sig .tc := ⟨.hbm, 107, rfl⟩
abbrev main_v81 : Ref sig .tc := ⟨.hbm, 108, rfl⟩
abbrev main_c_9 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_10 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_call3_cst : Ref sig .tc := ⟨.hbm, 129, rfl⟩
abbrev main_call3_v0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S40x128_S128x40_1_0 : S40x128.Transposes [1, 0] S128x40
  gather_S1001x128_S50000x1_S50000x128_1_0_n_n_0_1_1128_wf : GatherDims.WF S1001x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S1001x128_S50000x1_S50000x128_1_0_n_n_0_1_1128 : GatherDims S1001x128 S50000x1 S50000x128 where
  offsetDims := [1]
  collapsedSliceDims := [0]
  operandBatchingDims := []
  startIndicesBatchingDims := []
  startIndexMap := [0]
  indexVectorDim := 1
  sliceSizes := ![1, 128]
  wf := gather_S1001x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.PreDecode.lean ====
/-
  What the precondition says about the integer inputs. The printed predicate is a conjunction of "all"-reductions;
  its last three conjuncts say that every feature word is at least 0, every feature word is below 1001, and every
  destination word is at least 0 (signed comparisons). Read element by element.
-/
import proofs.«406987_j38010460569655_3_alg».proof.Pre_finite_inputs
import proofs.«406987_j38010460569655_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Idealize.ShloMosaic Cert.Pre_finite_inputs Cert.Pre_finite_inputs.Facts

variable [Cert.Pre_finite_inputs.Facts]
variable {F : FTy → Type} [FloatOps F]

private instance subsingletonScalarIdx : Subsingleton S_.Idx := ⟨fun a b => funext fun d => d.elim0⟩

/-- A signed comparison "word ≥ 0" that is 1 says the word, read signed, is nonnegative. -/
private theorem sge_zero {x : BitVec 32} (hx : IntOp.cmpi .sge x 0#32 = 1#1) : 0 ≤ x.toInt := by
  have := IntOp.cmpi_sge.1 hx
  simpa using this

/-- A signed comparison "word < 1001" that is 1 says the word, read signed, is below 1001. -/
private theorem slt_1001 {x : BitVec 32} (hx : IntOp.cmpi .slt x 1001#32 = 1#1) : x.toInt < 1001 := by
  have := IntOp.cmpi_slt.1 hx
  have e : (1001#32).toInt = 1001 := by decide
  rwa [e] at this

/-- Under the precondition every feature word is a table row number (0 ≤ word < 1001, as a signed integer) and no
    destination word is negative. -/
theorem ranges (a0 : IVec S50000x2 32) (a1 a2 : IVec S800000 32) (a3 a4 : FVec F S1001x128 .f32)
    (a5 : FVec F S3x128x128 .f32) (a6 : FVec F S3x128 .f32) (a7 : FVec F S3x128x128 .f32) (a8 : FVec F S3x128 .f32)
    (a9 : FVec F S40x128 .f32)
    (h : fn (F := F) a0 a1 a2 a3 a4 a5 a6 a7 a8 a9 = fun _ => 1#1) :
    (∀ i : S50000x2.Idx, 0 ≤ (a0 i).toInt ∧ (a0 i).toInt < 1001) ∧ (∀ e : S800000.Idx, 0 ≤ (a2 e).toInt) := by
  have h0 := congrFun h ValueIdx.ix0
  dsimp only [fn, fn_part1, fn_part2] at h0
  -- the result is ((X ∧ A) ∧ B) ∧ C at the one index
  obtain ⟨h1, hC⟩ := IntOp.andi_eq_one.1 h0
  obtain ⟨h2, hB⟩ := IntOp.andi_eq_one.1 h1
  obtain ⟨-, hA⟩ := IntOp.andi_eq_one.1 h2
  refine ⟨fun i => ⟨?_, ?_⟩, fun e => ?_⟩
  · have := Host.reduce_andi_all _ _ _ _ _ hA i
    exact sge_zero this
  · have := Host.reduce_andi_all _ _ _ _ _ hB i
    exact slt_1001 this
  · have := Host.reduce_andi_all _ _ _ _ _ hC e
    exact sge_zero this

end Cert.Pre_finite_inputs.Decode

end
-- ==== Proof.AggPerm.lean ====
/-
  The neighbour aggregation, the two ways the programs spell it, and that they agree.
  The kernel sorts the edges by destination once (a stable sort of the destination words carrying the
  positions 0 … E-1 along), reads source and destination words through the sorted positions, and adds each
  edge's source row onto the destination row of the node features themselves. The reference adds the same
  rows, edges in their given order, onto zeros and then adds the node features. Over the extended reals
  addition is commutative and associative, the sorted positions are a rearrangement of the edges, and a
  non-negative destination word is left alone by the wrap-around of negative indices: so the two are equal.
-/
import proofs.«406987_j38010460569655_3_alg».proof.KernelIdeal
import Idealize.ShloMosaic.PureOps.Ideal
import Idealize.ShloMosaic.PureOps.Ideal.Laws
import Idealize.ShloMosaic.Lib.ValueIdx
import Idealize.ShloMosaic.Lib.SortFacts
import Idealize.ShloMosaic.Lib.StableHlo.Predicate

noncomputable section

namespace Cert.KernelIdeal.Agg

open Idealize.ShloMosaic Cert.KernelIdeal Cert.KernelIdeal.Facts₀ Cert.KernelIdeal.Facts

variable [Cert.KernelIdeal.Facts]

/-- An index vector as jnp makes it from a word per edge: a negative word wrapped around by `n`, then one
    column. -/
def wrapIdx (n : BitVec 32) (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- The positions of the edges in the order of their destination words (a stable sort carries them along). -/
def sortedPos (dst : IVec S800000 32) : IVec S800000 32 :=
  (Host.sort2 S800000 0 comparator_i32_i32_d0 dst (iotaInDim S800000 32 0)).2

/-- A word per edge read through the sorted positions. -/
def sortedBy (dst x : IVec S800000 32) : IVec S800000 32 :=
  Host.gather gather_S800000_S800000x1_S800000_n_0_n_n_0_1_1 x (wrapIdx 800000#32 (sortedPos dst))

variable {F : FTy → Type} [FloatOps F]

/-- The kernel's form: the edges' source rows added onto the node features, edges in sorted order. -/
def aggK (h : FVec F S50000x128 .f32) (src dst : IVec S800000 32) : FVec F S50000x128 .f32 :=
  Host.scatterAdd scatter_S50000x128_S800000x1_S800000x128_1_0_0_1 h (wrapIdx 50000#32 (sortedBy dst dst))
    (Host.gather gather_S50000x128_S800000x1_S800000x128_1_0_n_n_0_1_1128 h (wrapIdx 50000#32 (sortedBy dst src)))

/-- The reference's form: the source rows added onto zeros, edges in their given order and the destination
    words as given, then the node features added. -/
def aggR (hb : S_.BroadcastsInDim S50000x128 (![] : Fin 0 → Fin S50000x128.rank)) (h : FVec F S50000x128 .f32)
    (src dst : IVec S800000 32) : FVec F S50000x128 .f32 :=
  addf h (Host.scatterAdd scatter_S50000x128_S800000x1_S800000x128_1_0_0_1
    (broadcastInDim S50000x128 ![] hb (constant S_ .f32 0x00000000#32))
    (broadcastInDim S800000x1 ![0] bcast_S800000_S800000x1_0 dst)
    (Host.gather gather_S50000x128_S800000x1_S800000x128_1_0_n_n_0_1_1128 h (wrapIdx 50000#32 src)))

section Lemmas
open Idealize.ShloMosaic.ValueIdx Idealize.ShloMosaic.StableHlo.Predicate

/-- The wrap-around of one word: a negative word has `n` added. -/
def wrapW (n w : BitVec 32) : BitVec 32 := if w.slt 0#32 = true then w + n else w

theorem ix2_zero_eq_ixP {n : Nat} (e : Fin n) : ix2 e (0 : Fin 1) = ixP e := by
  funext a; match a with | ⟨0, _⟩ => rfl | ⟨1, _⟩ => rfl

theorem ofFin_eq_ix1 {n : Nat} (e : Fin n) : Shape.Idx.ofFin e = ix1 e := by
  funext a; match a with | ⟨0, _⟩ => rfl

/-- The index vector's row `e` is the wrapped word of edge `e`. -/
theorem wrapIdx_apply (n : BitVec 32) (x : IVec S800000 32) (e : Fin 800000) :
    wrapIdx n x (ix2 e 0) = wrapW n (x (ix1 e)) := by
  unfold wrapIdx
  rw [ix2_zero_eq_ixP, bcast_col1, ofFin_eq_ix1]
  show Scalar.select (IntOp.cmpi .slt (x (ix1 e)) 0#32) (x (ix1 e) + n) (x (ix1 e)) = _
  unfold wrapW Scalar.select IntOp.cmpi
  cases h : (x (ix1 e)).slt 0#32 <;> simp

/-- A non-negative word is left alone by the wrap. -/
theorem wrapW_of_nonneg (n w : BitVec 32) (h : 0 ≤ w.toInt) : wrapW n w = w := by
  unfold wrapW
  rw [if_neg]
  rw [BitVec.slt, decide_eq_true_eq]
  have : (0#32).toInt = 0 := by decide
  omega

/-- On a rank-1 shape the second output of a two-operand sort along axis 0 reads its operand through ONE
    self-map of the positions. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- Carrying the positions along: the second output of the sort of a table with `iota` is, at position `e`, the
    word of the position the sort puts there. -/
theorem sort2_iota_rank1 {n : Nat} {α : Type} (cmp : α × BitVec 32 → α × BitVec 32 → BitVec 1)
    (x : (⟨1, ![n]⟩ : Shape).Idx → α) (e : Fin n) :
    (Host.sort2 ⟨1, ![n]⟩ 0 cmp x (iotaInDim ⟨1, ![n]⟩ 32 0)).2 (ix1 e)
      = BitVec.ofNat 32 (sortedFrom (fun k k' => cmp
          (x (Shape.Idx.ofFin k), iotaInDim ⟨1, ![n]⟩ 32 0 (Shape.Idx.ofFin k))
          (x (Shape.Idx.ofFin k'), iotaInDim ⟨1, ![n]⟩ 32 0 (Shape.Idx.ofFin k')) == 1#1) e).val := by
  rw [sort2_snd_rank1]
  rfl

/-- The rearrangement of the edges that the stable sort by destination word makes: position `e` of the sorted
    order holds edge `sortPerm dst e`. -/
def sortPerm (dst : IVec S800000 32) : Fin 800000 → Fin 800000 :=
  sortedFrom (fun k k' => comparator_i32_i32_d0
    (dst (Shape.Idx.ofFin k), iotaInDim S800000 32 0 (Shape.Idx.ofFin k))
    (dst (Shape.Idx.ofFin k'), iotaInDim S800000 32 0 (Shape.Idx.ofFin k')) == 1#1)

theorem sortPerm_bijective (dst : IVec S800000 32) : Function.Bijective (sortPerm dst) :=
  ⟨sortedFrom_injective _, sortedFrom_surjective _⟩

/-- The sorted positions are the rearrangement, as words. -/
theorem sortedPos_apply (dst : IVec S800000 32) (e : Fin 800000) :
    sortedPos dst (ix1 e) = BitVec.ofNat 32 (sortPerm dst e).val :=
  sort2_iota_rank1 comparator_i32_i32_d0 dst e

/-- A position below the number of edges, as a word, is non-negative and is itself as a natural. -/
theorem toInt_pos_word (k : Fin 800000) : (BitVec.ofNat 32 k.val).toInt = (k.val : Int) :=
  toInt_ofNat_small k.val (by have := k.isLt; omega)

/-- A word per edge read through the sorted positions is that word at the rearranged edge. -/
theorem sortedBy_apply (dst x : IVec S800000 32) (e : Fin 800000) :
    sortedBy dst x (ix1 e) = x (ix1 (sortPerm dst e)) := by
  unfold sortedBy
  rw [← ofFin_eq_ix1 e, gather_take gather_S800000_S800000x1_S800000_n_0_n_n_0_1_1 rfl rfl rfl rfl x _ e (by omega)]
  rw [ofFin_eq_ix1]
  refine congrArg x (congrArg ix1 (Fin.ext ?_))
  show min (wrapIdx 800000#32 (sortedPos dst) (ixP e)).toInt.toNat (800000 - 1) = (sortPerm dst e).val
  rw [← ix2_zero_eq_ixP e, wrapIdx_apply, sortedPos_apply]
  generalize sortPerm dst e = k
  rw [wrapW_of_nonneg _ _ (by rw [toInt_pos_word]; omega), toInt_pos_word]
  have := k.isLt
  omega

/-! ### The scatter's result index and the gather's operand index, for these dimension numbers

Both read the index vector only at the row of the update (result) index, and the update (result) index
otherwise only through its column. -/

theorem scat_start0 (j : S800000x128.Idx) (idx : IVec S800000x1 32) :
    scatter_S50000x128_S800000x1_S800000x128_1_0_0_1.start j idx 0 = (idx (ix2 (j 0) 0)).toInt := by
  unfold ScatterDims.start
  rw [dif_pos (show (0 : Fin S50000x128.rank) ∈ scatter_S50000x128_S800000x1_S800000x128_1_0_0_1.scatterDimsToOperandDims
    from List.mem_singleton.mpr rfl)]
  refine congrArg (fun k => (idx k).toInt) (funext fun b => Fin.ext ?_)
  match b with
  | ⟨0, _⟩ => rfl
  | ⟨1, _⟩ => rfl

theorem scat_start1 (j : S800000x128.Idx) (idx : IVec S800000x1 32) :
    scatter_S50000x128_S800000x1_S800000x128_1_0_0_1.start j idx 1 = 0 := by
  unfold ScatterDims.start
  have hm : ¬ (1 : Fin S50000x128.rank) ∈ scatter_S50000x128_S800000x1_S800000x128_1_0_0_1.scatterDimsToOperandDims :=
    (by decide : ¬ (1 : Fin 2) ∈ ([0] : List (Fin 2)))
  rw [dif_neg hm]

theorem scat_window0 (j : S800000x128.Idx) :
    scatter_S50000x128_S800000x1_S800000x128_1_0_0_1.window j 0 = 0 := by
  unfold ScatterDims.window
  have hm : ¬ (0 : Fin S50000x128.rank) ∈ scatter_S50000x128_S800000x1_S800000x128_1_0_0_1.sKept :=
    (by decide : ¬ (0 : Fin 2) ∈ Shape.kept S50000x128 ([0] : List (Fin 2)))
  rw [dif_neg hm]

theorem scat_window1 (j : S800000x128.Idx) :
    scatter_S50000x128_S800000x1_S800000x128_1_0_0_1.window j 1 = (j 1).val := by
  unfold ScatterDims.window
  have hm : (1 : Fin S50000x128.rank) ∈ scatter_S50000x128_S800000x1_S800000x128_1_0_0_1.sKept :=
    (by decide : (1 : Fin 2) ∈ Shape.kept S50000x128 ([0] : List (Fin 2)))
  rw [dif_pos hm]
  rfl

/-- The scatter's result index of an update depends on the index vector only through its entry at the update's
    row, and on the update's index otherwise only through its column. -/
theorem scat_resultIdx_congr (j j' : S800000x128.Idx) (idx idx' : IVec S800000x1 32)
    (h0 : idx (ix2 (j 0) 0) = idx' (ix2 (j' 0) 0)) (h1 : j 1 = j' 1) :
    scatter_S50000x128_S800000x1_S800000x128_1_0_0_1.resultIdx? j idx = scatter_S50000x128_S800000x1_S800000x128_1_0_0_1.resultIdx? j' idx' := by
  have hs0 : scatter_S50000x128_S800000x1_S800000x128_1_0_0_1.start j idx 0 = scatter_S50000x128_S800000x1_S800000x128_1_0_0_1.start j' idx' 0 :=
    (scat_start0 j idx).trans ((congrArg BitVec.toInt h0).trans (scat_start0 j' idx').symm)
  have hs1 : scatter_S50000x128_S800000x1_S800000x128_1_0_0_1.start j idx 1 = scatter_S50000x128_S800000x1_S800000x128_1_0_0_1.start j' idx' 1 :=
    (scat_start1 j idx).trans (scat_start1 j' idx').symm
  have hw0 : scatter_S50000x128_S800000x1_S800000x128_1_0_0_1.window j 0 = scatter_S50000x128_S800000x1_S800000x128_1_0_0_1.window j' 0 :=
    (scat_window0 j).trans (scat_window0 j').symm
  have hw1 : scatter_S50000x128_S800000x1_S800000x128_1_0_0_1.window j 1 = scatter_S50000x128_S800000x1_S800000x128_1_0_0_1.window j' 1 :=
    (scat_window1 j).trans ((congrArg Fin.val h1).trans (scat_window1 j').symm)
  have hs : scatter_S50000x128_S800000x1_S800000x128_1_0_0_1.start j idx = scatter_S50000x128_S800000x1_S800000x128_1_0_0_1.start j' idx' := by
    funext a
    match a with
    | ⟨0, _⟩ => exact hs0
    | ⟨1, _⟩ => exact hs1
  have hw : scatter_S50000x128_S800000x1_S800000x128_1_0_0_1.window j = scatter_S50000x128_S800000x1_S800000x128_1_0_0_1.window j' := by
    funext a
    match a with
    | ⟨0, _⟩ => exact hw0
    | ⟨1, _⟩ => exact hw1
  unfold ScatterDims.resultIdx?
  simp only [hs, hw]

theorem gath_start0 (j : S800000x128.Idx) (idx : IVec S800000x1 32) :
    gather_S50000x128_S800000x1_S800000x128_1_0_n_n_0_1_1128.start j idx 0
      = min (idx (ix2 (j 0) 0)).toInt.toNat (S50000x128.size 0 - gather_S50000x128_S800000x1_S800000x128_1_0_n_n_0_1_1128.sliceSizes 0) := by
  unfold GatherDims.start
  have hm : (0 : Fin S50000x128.rank) ∈ gather_S50000x128_S800000x1_S800000x128_1_0_n_n_0_1_1128.startIndexMap := List.mem_singleton.mpr rfl
  rw [dif_pos hm]
  refine congrArg (fun k => min (idx k).toInt.toNat _) (funext fun b => Fin.ext ?_)
  match b with
  | ⟨0, _⟩ => rfl
  | ⟨1, _⟩ => rfl

theorem gath_start1 (j : S800000x128.Idx) (idx : IVec S800000x1 32) :
    gather_S50000x128_S800000x1_S800000x128_1_0_n_n_0_1_1128.start j idx 1 = 0 := by
  unfold GatherDims.start
  have hm : ¬ (1 : Fin S50000x128.rank) ∈ gather_S50000x128_S800000x1_S800000x128_1_0_n_n_0_1_1128.startIndexMap :=
    (by decide : ¬ (1 : Fin 2) ∈ ([0] : List (Fin 2)))
  rw [dif_neg hm]

theorem gath_off0 (j : S800000x128.Idx) : gather_S50000x128_S800000x1_S800000x128_1_0_n_n_0_1_1128.offCoord j 0 = 0 := by
  unfold GatherDims.offCoord
  have hm : ¬ (0 : Fin S50000x128.rank) ∈ gather_S50000x128_S800000x1_S800000x128_1_0_n_n_0_1_1128.sKept :=
    (by decide : ¬ (0 : Fin 2) ∈ Shape.kept S50000x128 (([0] : List (Fin 2)) ++ []))
  rw [dif_neg hm]

theorem gath_off1 (j : S800000x128.Idx) : gather_S50000x128_S800000x1_S800000x128_1_0_n_n_0_1_1128.offCoord j 1 = (j 1).val := by
  unfold GatherDims.offCoord
  have hm : (1 : Fin S50000x128.rank) ∈ gather_S50000x128_S800000x1_S800000x128_1_0_n_n_0_1_1128.sKept :=
    (by decide : (1 : Fin 2) ∈ Shape.kept S50000x128 (([0] : List (Fin 2)) ++ []))
  rw [dif_pos hm]
  rfl

/-- The gather's operand index of a result element depends on the index vector only through its entry at the
    element's row, and on the element's index otherwise only through its column. -/
theorem gath_operandIdx_congr (j j' : S800000x128.Idx) (idx idx' : IVec S800000x1 32)
    (h0 : idx (ix2 (j 0) 0) = idx' (ix2 (j' 0) 0)) (h1 : j 1 = j' 1) :
    gather_S50000x128_S800000x1_S800000x128_1_0_n_n_0_1_1128.operandIdx j idx = gather_S50000x128_S800000x1_S800000x128_1_0_n_n_0_1_1128.operandIdx j' idx' := by
  have hb : ∀ (i : S800000x128.Idx) (a : Fin S50000x128.rank), gather_S50000x128_S800000x1_S800000x128_1_0_n_n_0_1_1128.batchCoord i a = 0 :=
    fun i a => GatherDims.batchCoord_eq_zero _ i a List.not_mem_nil
  have e0 : gather_S50000x128_S800000x1_S800000x128_1_0_n_n_0_1_1128.start j idx 0 + gather_S50000x128_S800000x1_S800000x128_1_0_n_n_0_1_1128.batchCoord j 0 + gather_S50000x128_S800000x1_S800000x128_1_0_n_n_0_1_1128.offCoord j 0
      = gather_S50000x128_S800000x1_S800000x128_1_0_n_n_0_1_1128.start j' idx' 0 + gather_S50000x128_S800000x1_S800000x128_1_0_n_n_0_1_1128.batchCoord j' 0 + gather_S50000x128_S800000x1_S800000x128_1_0_n_n_0_1_1128.offCoord j' 0 := by
    rw [gath_start0, gath_start0, h0, hb, hb, gath_off0, gath_off0]
  have e1 : gather_S50000x128_S800000x1_S800000x128_1_0_n_n_0_1_1128.start j idx 1 + gather_S50000x128_S800000x1_S800000x128_1_0_n_n_0_1_1128.batchCoord j 1 + gather_S50000x128_S800000x1_S800000x128_1_0_n_n_0_1_1128.offCoord j 1
      = gather_S50000x128_S800000x1_S800000x128_1_0_n_n_0_1_1128.start j' idx' 1 + gather_S50000x128_S800000x1_S800000x128_1_0_n_n_0_1_1128.batchCoord j' 1 + gather_S50000x128_S800000x1_S800000x128_1_0_n_n_0_1_1128.offCoord j' 1 := by
    rw [gath_start1, gath_start1, hb, hb, gath_off1, gath_off1, h1]
  funext a
  refine Fin.ext ?_
  match a with
  | ⟨0, _⟩ => exact e0
  | ⟨1, _⟩ => exact e1

/-! ### The two index vectors and the two update arrays, row by row -/

/-- The kernel's destination index vector at row `e`: the destination word of the rearranged edge (it is not
    negative, so the wrap leaves it alone). -/
theorem dstK_row (dst : IVec S800000 32) (hdst : ∀ e : S800000.Idx, 0 ≤ (dst e).toInt) (e : Fin 800000) :
    wrapIdx 50000#32 (sortedBy dst dst) (ix2 e 0) = dst (ix1 (sortPerm dst e)) := by
  rw [wrapIdx_apply, sortedBy_apply, wrapW_of_nonneg _ _ (hdst _)]

/-- The reference's destination index vector at row `e`: the destination word of edge `e`. -/
theorem dstR_row (dst : IVec S800000 32) (e : Fin 800000) :
    broadcastInDim S800000x1 ![0] bcast_S800000_S800000x1_0 dst (ix2 e 0) = dst (ix1 e) := by
  rw [ix2_zero_eq_ixP e, bcast_col1, ofFin_eq_ix1]

/-- The kernel's source index vector at row `e` is the reference's at the rearranged edge. -/
theorem srcK_row (dst src : IVec S800000 32) (e : Fin 800000) :
    wrapIdx 50000#32 (sortedBy dst src) (ix2 e 0) = wrapIdx 50000#32 src (ix2 (sortPerm dst e) 0) := by
  rw [wrapIdx_apply, wrapIdx_apply, sortedBy_apply]

/-- The rearrangement on the updates' indices: row `e` goes to row `sortPerm dst e`, the column stays. -/
def rowPerm (dst : IVec S800000 32) (j : S800000x128.Idx) : S800000x128.Idx := ix2 (sortPerm dst (j 0)) (j 1)

theorem rowPerm_bijective (dst : IVec S800000 32) : Function.Bijective (rowPerm dst) := by
  constructor
  · intro j j' hjj
    have h0 : sortPerm dst (j 0) = sortPerm dst (j' 0) := congrFun hjj 0
    have h1 : j 1 = j' 1 := congrFun hjj 1
    rw [eq_ix2 j, eq_ix2 j', (sortPerm_bijective dst).1 h0, h1]
  · intro j
    obtain ⟨e, he⟩ := (sortPerm_bijective dst).2 (j 0)
    refine ⟨ix2 e (j 1), ?_⟩
    show ix2 (sortPerm dst e) (j 1) = j
    rw [he]
    exact (eq_ix2 j).symm

/-! ### The accumulating scatter over the extended reals, for any dimension numbers -/

/-- Re-indexing the updates by a bijection that respects where each update lands and what it carries leaves the
    accumulating scatter alone: addition over the extended reals is commutative and associative. -/
theorem hostScatterAdd_reindex {s si su : Shape} (d : ScatterDims s si su) {w : Nat} (x : s.Idx → EReal)
    (idx idx' : IVec si w) (upd upd' : su.Idx → EReal) (T : su.Idx → su.Idx) (hT : Function.Bijective T)
    (hP : ∀ j, d.resultIdx? j idx = d.resultIdx? (T j) idx') (hU : ∀ j, upd j = upd' (T j)) :
    Ideal.hostScatterAdd d x idx upd = Ideal.hostScatterAdd d x idx' upd' := by
  funext i
  unfold Ideal.hostScatterAdd
  refine congrArg (fun t => x i + t) ?_
  refine Finset.sum_equiv (Equiv.ofBijective T hT) (fun j => ?_) (fun j _ => ?_)
  · simp only [Finset.mem_filter, Finset.mem_univ, true_and, Equiv.ofBijective_apply, hP j]
  · simp only [Equiv.ofBijective_apply]
    exact hU j

/-- Scattering onto zeros and then adding the operand is scattering onto the operand. -/
theorem addf_scatterAdd_zeros {s si su : Shape} (d : ScatterDims s si su) {w : Nat} (x z : FVec Ideal s .f32)
    (hz : ∀ i, z i = 0) (idx : IVec si w) (upd : FVec Ideal su .f32) :
    addf x (Host.scatterAdd d z idx upd) = Host.scatterAdd d x idx upd := by
  funext i
  show x i + Ideal.hostScatterAdd d z idx upd i = Ideal.hostScatterAdd d x idx upd i
  unfold Ideal.hostScatterAdd
  rw [hz i, zero_add]

end Lemmas

/-- With no negative destination word the two forms are the same array, whatever the features hold. -/
theorem agg_perm (hb : S_.BroadcastsInDim S50000x128 (![] : Fin 0 → Fin S50000x128.rank))
    (h : FVec Ideal S50000x128 .f32) (src dst : IVec S800000 32) (hdst : ∀ e : S800000.Idx, 0 ≤ (dst e).toInt) :
    aggK (F := Ideal) h src dst = aggR (F := Ideal) hb h src dst := by
  unfold aggK aggR
  -- the reference scatters onto zeros and then adds the features: that is scattering onto the features
  rw [addf_scatterAdd_zeros _ h (broadcastInDim S50000x128 ![] hb (constant (F := Ideal) S_ .f32 0x00000000#32))
    (fun _ => Ideal.ofBits_zero_f32)]
  -- re-index the updates by the rearrangement of the rows
  refine hostScatterAdd_reindex _ h _ _ _ _ (rowPerm dst) (rowPerm_bijective dst) (fun j => ?_) (fun j => ?_)
  · exact scat_resultIdx_congr j (rowPerm dst j) _ _
      ((dstK_row dst hdst (j 0)).trans (dstR_row dst (sortPerm dst (j 0))).symm) rfl
  · exact congrArg h (gath_operandIdx_congr j (rowPerm dst j) _ _ (srcK_row dst src (j 0)) rfl)

end Cert.KernelIdeal.Agg

end
-- ==== Proof.AggRef.lean ====
/-
  The reference program's aggregation stages are the aggregation in the reference's form, of the stage that feeds
  them and the two edge arguments. The reference's shape and index records are the kernel's, spelt in its own
  namespace; its three aggregation stages differ only in the names of their constants.
-/
import proofs.«406987_j38010460569655_3_alg».proof.Proof.Gen.ReferenceIdeal.Read
import proofs.«406987_j38010460569655_3_alg».proof.Proof.AggPerm

noncomputable section

namespace Cert.AggRef

open Idealize.ShloMosaic Cert.ReferenceIdeal.Read

variable [Cert.KernelIdeal.Facts] [Cert.ReferenceIdeal.Facts]

/-- a scalar broadcasts to the node-feature shape (the reference states it; the shapes are the kernel's) -/
theorem hb : Cert.KernelIdeal.S_.BroadcastsInDim Cert.KernelIdeal.S50000x128 (![] : Fin 0 → Fin Cert.KernelIdeal.S50000x128.rank) :=
  Cert.ReferenceIdeal.Facts₀.bcast_S_S50000x128

/-- the first layer's aggregation stage -/
theorem agg0 (x0 : IVec Cert.ReferenceIdeal.S50000x2 32) (x1 x2 : IVec Cert.ReferenceIdeal.S800000 32)
    (x3 x4 : FVec Ideal Cert.ReferenceIdeal.S1001x128 .f32) :
    val_main_v30 (F := Ideal) x0 x1 x2 x3 x4
      = Cert.KernelIdeal.Agg.aggR (F := Ideal) hb (val_main_v19 (F := Ideal) x0 x3 x4) x1 x2 := by
  unfold val_main_v30 val_main_v29 val_main_v26 val_main_v27 val_main_v28 val_main_v25 val_main_v24 val_main_v23
    val_main_v22 val_main_v21 val_main_v20 val_main_c_3 val_main_c_4 val_main_cst
  unfold Cert.KernelIdeal.Agg.aggR Cert.KernelIdeal.Agg.wrapIdx
  rfl

/-- the second layer's -/
theorem agg1 (x0 : IVec Cert.ReferenceIdeal.S50000x2 32) (x1 x2 : IVec Cert.ReferenceIdeal.S800000 32)
    (x3 x4 : FVec Ideal Cert.ReferenceIdeal.S1001x128 .f32) (x5 : FVec Ideal Cert.ReferenceIdeal.S3x128x128 .f32)
    (x6 : FVec Ideal Cert.ReferenceIdeal.S3x128 .f32) (x7 : FVec Ideal Cert.ReferenceIdeal.S3x128x128 .f32)
    (x8 : FVec Ideal Cert.ReferenceIdeal.S3x128 .f32) :
    val_main_v60 (F := Ideal) x0 x1 x2 x3 x4 x5 x6 x7 x8
      = Cert.KernelIdeal.Agg.aggR (F := Ideal) hb (val_main_v49 (F := Ideal) x0 x1 x2 x3 x4 x5 x6 x7 x8) x1 x2 := by
  unfold val_main_v60 val_main_v59 val_main_v56 val_main_v57 val_main_v58 val_main_v55 val_main_v54 val_main_v53
    val_main_v52 val_main_v51 val_main_v50 val_main_c_5 val_main_c_6 val_main_cst_7
  unfold Cert.KernelIdeal.Agg.aggR Cert.KernelIdeal.Agg.wrapIdx
  rfl

/-- the third layer's -/
theorem agg2 (x0 : IVec Cert.ReferenceIdeal.S50000x2 32) (x1 x2 : IVec Cert.ReferenceIdeal.S800000 32)
    (x3 x4 : FVec Ideal Cert.ReferenceIdeal.S1001x128 .f32) (x5 : FVec Ideal Cert.ReferenceIdeal.S3x128x128 .f32)
    (x6 : FVec Ideal Cert.ReferenceIdeal.S3x128 .f32) (x7 : FVec Ideal Cert.ReferenceIdeal.S3x128x128 .f32)
    (x8 : FVec Ideal Cert.ReferenceIdeal.S3x128 .f32) :
    val_main_v90 (F := Ideal) x0 x1 x2 x3 x4 x5 x6 x7 x8
      = Cert.KernelIdeal.Agg.aggR (F := Ideal) hb (val_main_v79 (F := Ideal) x0 x1 x2 x3 x4 x5 x6 x7 x8) x1 x2 := by
  unfold val_main_v90 val_main_v89 val_main_v86 val_main_v87 val_main_v88 val_main_v85 val_main_v84 val_main_v83
    val_main_v82 val_main_v81 val_main_v80 val_main_c_8 val_main_c_9 val_main_cst_10
  unfold Cert.KernelIdeal.Agg.aggR Cert.KernelIdeal.Agg.wrapIdx
  rfl

end Cert.AggRef

end
-- ==== Proof.Spec.lean ====
/-
  The mathematics both programs compute, written once, index by index, over the argument arrays:
  the embedding layer (two table rows summed, then relu), one dense two-layer block of a message-passing
  layer (z ↦ relu(z·W1ᵀ + b1)·W2ᵀ + b2, the weights of layer l), and the final projection (h ↦ h·Wcᵀ).
  The neighbour aggregation is not restated here: the two programs are compared on it directly.
  Extended reals throughout; a sum over a hidden axis is a finite sum over Fin 128.
-/
import Idealize.ShloMosaic.Lib.ValueIdx
import Idealize.ShloMosaic.PureOps.Ideal

noncomputable section

namespace Cert.Gin

open Idealize.ShloMosaic Idealize.ShloMosaic.ValueIdx

/-- node features, hidden width 128 -/
abbrev SNode : Shape := ⟨2, ![50000, 128]⟩
/-- the two categorical features of every node -/
abbrev SFeat : Shape := ⟨2, ![50000, 2]⟩
/-- an embedding table -/
abbrev STab : Shape := ⟨2, ![1001, 128]⟩
/-- the three layers' square weights, [layer, out, in] -/
abbrev SW : Shape := ⟨3, ![3, 128, 128]⟩
/-- the three layers' biases -/
abbrev SB : Shape := ⟨2, ![3, 128]⟩
/-- the classifier's weights, [out, in] -/
abbrev SCls : Shape := ⟨2, ![40, 128]⟩
/-- the result -/
abbrev SOut : Shape := ⟨2, ![50000, 40]⟩

/-- The table row a feature word names: its value as a natural number when that is a row, else (never met
    under the precondition) the last row. -/
def row (b : BitVec 32) : Fin 1001 := ⟨min b.toNat 1000, by omega⟩

theorem row_of_lt {b : BitVec 32} (h : b.toNat < 1001) : (row b).val = b.toNat := by
  unfold row; simp only; omega

/-- Embedding: node r gets relu(key[f(r,0)] + val[f(r,1)]). -/
def embed (feats : SFeat.Idx → BitVec 32) (key val : STab.Idx → EReal) : SNode.Idx → EReal :=
  fun i => max (key (ix2 (row (feats (ix2 ⟨(i 0).val, (i 0).isLt⟩ (0 : Fin 2)))) ⟨(i 1).val, (i 1).isLt⟩)
      + val (ix2 (row (feats (ix2 ⟨(i 0).val, (i 0).isLt⟩ (1 : Fin 2)))) ⟨(i 1).val, (i 1).isLt⟩)) 0

/-- The hidden activation of layer l's block at node r, unit k: relu(∑ⱼ z[r,j]·W1[l,k,j] + b1[l,k]). -/
def hidden (z : SNode.Idx → EReal) (W1 : SW.Idx → EReal) (b1 : SB.Idx → EReal) (l : Fin 3) (r : Fin 50000) (k : Fin 128) : EReal :=
  max ((∑ j : Fin 128, z (ix2 r j) * W1 (ix3 l k j)) + b1 (ix2 l k)) 0

/-- Layer l's dense block: out[r,c] = ∑ₖ hidden[r,k]·W2[l,c,k] + b2[l,c]. -/
def mlp (z : SNode.Idx → EReal) (W1 : SW.Idx → EReal) (b1 : SB.Idx → EReal) (W2 : SW.Idx → EReal) (b2 : SB.Idx → EReal)
    (l : Fin 3) : SNode.Idx → EReal :=
  fun i => (∑ k : Fin 128, hidden z W1 b1 l ⟨(i 0).val, (i 0).isLt⟩ k * W2 (ix3 l ⟨(i 1).val, (i 1).isLt⟩ k))
    + b2 (ix2 l ⟨(i 1).val, (i 1).isLt⟩)

/-- The projection: out[r,o] = ∑ₖ h[r,k]·Wc[o,k]. -/
def proj (h : SNode.Idx → EReal) (Wc : SCls.Idx → EReal) : SOut.Idx → EReal :=
  fun i => ∑ k : Fin 128, h (ix2 ⟨(i 0).val, (i 0).isLt⟩ k) * Wc (ix2 ⟨(i 1).val, (i 1).isLt⟩ k)

end Cert.Gin

end
-- ==== Proof.RefSpec.lean ====
/-
  The reference program's dense stages are the specification's functions. Each layer's dense block, read from the stage that feeds it, is the specification's block with
  that layer's weights (the reference multiplies by the transposed weight slice and adds the bias slice broadcast
  along the nodes); its last stage is the projection by the transposed classifier weights.
-/
import proofs.«406987_j38010460569655_3_alg».proof.Proof.Gen.ReferenceIdeal.Read
import proofs.«406987_j38010460569655_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefSpec

open Idealize.ShloMosaic Idealize.ShloMosaic.ValueIdx Cert.ReferenceIdeal Cert.ReferenceIdeal.Read Cert.Gin

variable [Cert.ReferenceIdeal.Facts]

/-- The first layer's first weight as the reference multiplies by it: the layer's slice, transposed. -/
private theorem w1_0 (x5 : FVec Ideal S3x128x128 .f32) (k c : Fin 128) :
    val_main_v33 (F := Ideal) x5 (ix2 k c) = x5 (ix3 (0 : Fin 3) c k) := by
  rw [val_main_v33_apply, val_main_v32_apply, val_main_v31_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The first layer's first bias as the reference adds it: the layer's slice, the same along the nodes. -/
private theorem b1_0 (x6 : FVec Ideal S3x128 .f32) (r : Fin 50000) (c : Fin 128) :
    val_main_v38 (F := Ideal) x6 (ix2 r c) = x6 (ix2 (0 : Fin 3) c) := by
  rw [val_main_v38_apply, val_main_v37_apply, val_main_v36_apply, val_main_v35_apply]
  congr 1
  funext a; refine Fin.ext ?_
  match a with
  | ⟨0, _⟩ => rfl
  | ⟨1, _⟩ => show c.val % 128 = c.val; omega

/-- The first layer's second weight as the reference multiplies by it: the layer's slice, transposed. -/
private theorem w2_0 (x7 : FVec Ideal S3x128x128 .f32) (k c : Fin 128) :
    val_main_v43 (F := Ideal) x7 (ix2 k c) = x7 (ix3 (0 : Fin 3) c k) := by
  rw [val_main_v43_apply, val_main_v42_apply, val_main_v41_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The first layer's second bias as the reference adds it: the layer's slice, the same along the nodes. -/
private theorem b2_0 (x8 : FVec Ideal S3x128 .f32) (r : Fin 50000) (c : Fin 128) :
    val_main_v48 (F := Ideal) x8 (ix2 r c) = x8 (ix2 (0 : Fin 3) c) := by
  rw [val_main_v48_apply, val_main_v47_apply, val_main_v46_apply, val_main_v45_apply]
  congr 1
  funext a; refine Fin.ext ?_
  match a with
  | ⟨0, _⟩ => rfl
  | ⟨1, _⟩ => show c.val % 128 = c.val; omega

/-- The first layer's hidden activation, over the stage that feeds the block: the relu of the feeding row times the
    first weight's row plus the first bias. -/
private theorem hidden_0 (x0 : IVec S50000x2 32) (x1 x2 : IVec S800000 32) (x3 x4 : FVec Ideal S1001x128 .f32)
    (x5 : FVec Ideal S3x128x128 .f32) (x6 : FVec Ideal S3x128 .f32)
    (r : Fin 50000) (k : Fin 128) :
    val_main_v40 (F := Ideal) x0 x1 x2 x3 x4 x5 x6 (ix2 r k)
      = hidden (val_main_v30 (F := Ideal) x0 x1 x2 x3 x4) x5 x6 0 r k := by
  rw [val_main_v40_apply, val_main_v39_apply, val_main_v34_apply, b1_0, val_main_call1_v0_apply, val_main_call1_cst_apply,
    Ideal.maximumf_def, Ideal.addf_def, Ideal.ofBits_def, Ideal.ofBits_zero_f32]
  unfold Cert.Gin.hidden
  generalize val_main_v30 (F := Ideal) x0 x1 x2 x3 x4 = z
  refine congrArg (fun t => max (t + x6 (ix2 (0 : Fin 3) k)) 0) ?_
  refine Finset.sum_congr rfl fun j _ => ?_
  rw [show lidx_main_v34 (ix2 r k) j = ix2 r j from funext fun a => Fin.ext (by match a with | ⟨0, _⟩ => rfl | ⟨1, _⟩ => rfl),
    show ridx_main_v34 (ix2 r k) j = ix2 j k from funext fun a => Fin.ext (by match a with | ⟨0, _⟩ => rfl | ⟨1, _⟩ => rfl), w1_0]

/-- The first layer's dense block, over the stage that feeds it. -/
theorem mlp0_eq (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32) :
    val_main_v49 (F := Ideal) x0 x1 x2 x3 x4 x5 x6 x7 x8 = mlp (val_main_v30 (F := Ideal) x0 x1 x2 x3 x4) x5 x6 x7 x8 0 := by
  funext i
  obtain ⟨r, c, rfl⟩ : ∃ (r : Fin 50000) (c : Fin 128), i = ix2 r c := ⟨i 0, i 1, eq_ix2 i⟩
  rw [val_main_v49_apply, val_main_v44_apply, b2_0, Ideal.addf_def]
  unfold Cert.Gin.mlp
  refine congrArg (fun t => t + x8 (ix2 (0 : Fin 3) c)) ?_
  refine Finset.sum_congr rfl fun k _ => ?_
  rw [show lidx_main_v44 (ix2 r c) k = ix2 r k from funext fun a => Fin.ext (by match a with | ⟨0, _⟩ => rfl | ⟨1, _⟩ => rfl),
    show ridx_main_v44 (ix2 r c) k = ix2 k c from funext fun a => Fin.ext (by match a with | ⟨0, _⟩ => rfl | ⟨1, _⟩ => rfl), w2_0, hidden_0]

/-- The second layer's first weight as the reference multiplies by it: the layer's slice, transposed. -/
private theorem w1_1 (x5 : FVec Ideal S3x128x128 .f32) (k c : Fin 128) :
    val_main_v63 (F := Ideal) x5 (ix2 k c) = x5 (ix3 (1 : Fin 3) c k) := by
  rw [val_main_v63_apply, val_main_v62_apply, val_main_v61_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The second layer's first bias as the reference adds it: the layer's slice, the same along the nodes. -/
private theorem b1_1 (x6 : FVec Ideal S3x128 .f32) (r : Fin 50000) (c : Fin 128) :
    val_main_v68 (F := Ideal) x6 (ix2 r c) = x6 (ix2 (1 : Fin 3) c) := by
  rw [val_main_v68_apply, val_main_v67_apply, val_main_v66_apply, val_main_v65_apply]
  congr 1
  funext a; refine Fin.ext ?_
  match a with
  | ⟨0, _⟩ => rfl
  | ⟨1, _⟩ => show c.val % 128 = c.val; omega

/-- The second layer's second weight as the reference multiplies by it: the layer's slice, transposed. -/
private theorem w2_1 (x7 : FVec Ideal S3x128x128 .f32) (k c : Fin 128) :
    val_main_v73 (F := Ideal) x7 (ix2 k c) = x7 (ix3 (1 : Fin 3) c k) := by
  rw [val_main_v73_apply, val_main_v72_apply, val_main_v71_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The second layer's second bias as the reference adds it: the layer's slice, the same along the nodes. -/
private theorem b2_1 (x8 : FVec Ideal S3x128 .f32) (r : Fin 50000) (c : Fin 128) :
    val_main_v78 (F := Ideal) x8 (ix2 r c) = x8 (ix2 (1 : Fin 3) c) := by
  rw [val_main_v78_apply, val_main_v77_apply, val_main_v76_apply, val_main_v75_apply]
  congr 1
  funext a; refine Fin.ext ?_
  match a with
  | ⟨0, _⟩ => rfl
  | ⟨1, _⟩ => show c.val % 128 = c.val; omega

/-- The second layer's hidden activation, over the stage that feeds the block: the relu of the feeding row times the
    first weight's row plus the first bias. -/
private theorem hidden_1 (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32)
    (r : Fin 50000) (k : Fin 128) :
    val_main_v70 (F := Ideal) x0 x1 x2 x3 x4 x5 x6 x7 x8 (ix2 r k)
      = hidden (val_main_v60 (F := Ideal) x0 x1 x2 x3 x4 x5 x6 x7 x8) x5 x6 1 r k := by
  rw [val_main_v70_apply, val_main_v69_apply, val_main_v64_apply, b1_1, val_main_call2_v0_apply, val_main_call2_cst_apply,
    Ideal.maximumf_def, Ideal.addf_def, Ideal.ofBits_def, Ideal.ofBits_zero_f32]
  unfold Cert.Gin.hidden
  generalize val_main_v60 (F := Ideal) x0 x1 x2 x3 x4 x5 x6 x7 x8 = z
  refine congrArg (fun t => max (t + x6 (ix2 (1 : Fin 3) k)) 0) ?_
  refine Finset.sum_congr rfl fun j _ => ?_
  rw [show lidx_main_v64 (ix2 r k) j = ix2 r j from funext fun a => Fin.ext (by match a with | ⟨0, _⟩ => rfl | ⟨1, _⟩ => rfl),
    show ridx_main_v64 (ix2 r k) j = ix2 j k from funext fun a => Fin.ext (by match a with | ⟨0, _⟩ => rfl | ⟨1, _⟩ => rfl), w1_1]

/-- The second layer's. -/
theorem mlp1_eq (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32) :
    val_main_v79 (F := Ideal) x0 x1 x2 x3 x4 x5 x6 x7 x8 = mlp (val_main_v60 (F := Ideal) x0 x1 x2 x3 x4 x5 x6 x7 x8) x5 x6 x7 x8 1 := by
  funext i
  obtain ⟨r, c, rfl⟩ : ∃ (r : Fin 50000) (c : Fin 128), i = ix2 r c := ⟨i 0, i 1, eq_ix2 i⟩
  rw [val_main_v79_apply, val_main_v74_apply, b2_1, Ideal.addf_def]
  unfold Cert.Gin.mlp
  refine congrArg (fun t => t + x8 (ix2 (1 : Fin 3) c)) ?_
  refine Finset.sum_congr rfl fun k _ => ?_
  rw [show lidx_main_v74 (ix2 r c) k = ix2 r k from funext fun a => Fin.ext (by match a with | ⟨0, _⟩ => rfl | ⟨1, _⟩ => rfl),
    show ridx_main_v74 (ix2 r c) k = ix2 k c from funext fun a => Fin.ext (by match a with | ⟨0, _⟩ => rfl | ⟨1, _⟩ => rfl), w2_1, hidden_1]

/-- The third layer's first weight as the reference multiplies by it: the layer's slice, transposed. -/
private theorem w1_2 (x5 : FVec Ideal S3x128x128 .f32) (k c : Fin 128) :
    val_main_v93 (F := Ideal) x5 (ix2 k c) = x5 (ix3 (2 : Fin 3) c k) := by
  rw [val_main_v93_apply, val_main_v92_apply, val_main_v91_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The third layer's first bias as the reference adds it: the layer's slice, the same along the nodes. -/
private theorem b1_2 (x6 : FVec Ideal S3x128 .f32) (r : Fin 50000) (c : Fin 128) :
    val_main_v98 (F := Ideal) x6 (ix2 r c) = x6 (ix2 (2 : Fin 3) c) := by
  rw [val_main_v98_apply, val_main_v97_apply, val_main_v96_apply, val_main_v95_apply]
  congr 1
  funext a; refine Fin.ext ?_
  match a with
  | ⟨0, _⟩ => rfl
  | ⟨1, _⟩ => show c.val % 128 = c.val; omega

/-- The third layer's second weight as the reference multiplies by it: the layer's slice, transposed. -/
private theorem w2_2 (x7 : FVec Ideal S3x128x128 .f32) (k c : Fin 128) :
    val_main_v103 (F := Ideal) x7 (ix2 k c) = x7 (ix3 (2 : Fin 3) c k) := by
  rw [val_main_v103_apply, val_main_v102_apply, val_main_v101_apply]
  congr 1
  funext a; refine Fin.ext ?_
  match a with
  | ⟨0, _⟩ => rfl
  | ⟨1, _⟩ => show (c.val * 128 + k.val) / 128 % 128 = c.val; omega
  | ⟨2, _⟩ => show (c.val * 128 + k.val) % 128 = k.val; omega

/-- The third layer's second bias as the reference adds it: the layer's slice, the same along the nodes. -/
private theorem b2_2 (x8 : FVec Ideal S3x128 .f32) (r : Fin 50000) (c : Fin 128) :
    val_main_v108 (F := Ideal) x8 (ix2 r c) = x8 (ix2 (2 : Fin 3) c) := by
  rw [val_main_v108_apply, val_main_v107_apply, val_main_v106_apply, val_main_v105_apply]
  congr 1
  funext a; refine Fin.ext ?_
  match a with
  | ⟨0, _⟩ => rfl
  | ⟨1, _⟩ => show c.val % 128 = c.val; omega

/-- The third layer's hidden activation, over the stage that feeds the block: the relu of the feeding row times the
    first weight's row plus the first bias. -/
private theorem hidden_2 (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32)
    (r : Fin 50000) (k : Fin 128) :
    val_main_v100 (F := Ideal) x0 x1 x2 x3 x4 x5 x6 x7 x8 (ix2 r k)
      = hidden (val_main_v90 (F := Ideal) x0 x1 x2 x3 x4 x5 x6 x7 x8) x5 x6 2 r k := by
  rw [val_main_v100_apply, val_main_v99_apply, val_main_v94_apply, b1_2, val_main_call3_v0_apply, val_main_call3_cst_apply,
    Ideal.maximumf_def, Ideal.addf_def, Ideal.ofBits_def, Ideal.ofBits_zero_f32]
  unfold Cert.Gin.hidden
  generalize val_main_v90 (F := Ideal) x0 x1 x2 x3 x4 x5 x6 x7 x8 = z
  refine congrArg (fun t => max (t + x6 (ix2 (2 : Fin 3) k)) 0) ?_
  refine Finset.sum_congr rfl fun j _ => ?_
  rw [show lidx_main_v94 (ix2 r k) j = ix2 r j from funext fun a => Fin.ext (by match a with | ⟨0, _⟩ => rfl | ⟨1, _⟩ => rfl),
    show ridx_main_v94 (ix2 r k) j = ix2 j k from funext fun a => Fin.ext (by match a with | ⟨0, _⟩ => rfl | ⟨1, _⟩ => rfl), w1_2]

/-- The third layer's. -/
theorem mlp2_eq (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32) :
    val_main_v109 (F := Ideal) x0 x1 x2 x3 x4 x5 x6 x7 x8 = mlp (val_main_v90 (F := Ideal) x0 x1 x2 x3 x4 x5 x6 x7 x8) x5 x6 x7 x8 2 := by
  funext i
  obtain ⟨r, c, rfl⟩ : ∃ (r : Fin 50000) (c : Fin 128), i = ix2 r c := ⟨i 0, i 1, eq_ix2 i⟩
  rw [val_main_v109_apply, val_main_v104_apply, b2_2, Ideal.addf_def]
  unfold Cert.Gin.mlp
  refine congrArg (fun t => t + x8 (ix2 (2 : Fin 3) c)) ?_
  refine Finset.sum_congr rfl fun k _ => ?_
  rw [show lidx_main_v104 (ix2 r c) k = ix2 r k from funext fun a => Fin.ext (by match a with | ⟨0, _⟩ => rfl | ⟨1, _⟩ => rfl),
    show ridx_main_v104 (ix2 r c) k = ix2 k c from funext fun a => Fin.ext (by match a with | ⟨0, _⟩ => rfl | ⟨1, _⟩ => rfl), w2_2, hidden_2]

/-- The classifier's weights as the reference multiplies by them: transposed. -/
private theorem wc (x9 : FVec Ideal S40x128 .f32) (k : Fin 128) (o : Fin 40) :
    val_main_v110 (F := Ideal) x9 (ix2 k o) = x9 (ix2 o k) := by
  rw [val_main_v110_apply]
  congr 1
  funext a; refine Fin.ext ?_
  match a with
  | ⟨0, _⟩ => rfl
  | ⟨1, _⟩ => rfl

/-- The last stage is the projection of the third layer's output. -/
theorem proj_eq (x0 : IVec S50000x2 32) (x1 x2 : IVec S800000 32) (x3 x4 : FVec Ideal S1001x128 .f32)
    (x5 : FVec Ideal S3x128x128 .f32) (x6 : FVec Ideal S3x128 .f32) (x7 : FVec Ideal S3x128x128 .f32) (x8 : FVec Ideal S3x128 .f32)
    (x9 : FVec Ideal S40x128 .f32) :
    val_main_v111 (F := Ideal) x0 x1 x2 x3 x4 x5 x6 x7 x8 x9 = proj (val_main_v109 (F := Ideal) x0 x1 x2 x3 x4 x5 x6 x7 x8) x9 := by
  funext i
  obtain ⟨r, o, rfl⟩ : ∃ (r : Fin 50000) (o : Fin 40), i = ix2 r o := ⟨i 0, i 1, eq_ix2 i⟩
  rw [val_main_v111_apply]
  unfold Cert.Gin.proj
  generalize val_main_v109 (F := Ideal) x0 x1 x2 x3 x4 x5 x6 x7 x8 = h
  refine Finset.sum_congr rfl fun k _ => ?_
  rw [show lidx_main_v111 (ix2 r o) k = ix2 r k from funext fun a => Fin.ext (by match a with | ⟨0, _⟩ => rfl | ⟨1, _⟩ => rfl),
    show ridx_main_v111 (ix2 r o) k = ix2 k o from funext fun a => Fin.ext (by match a with | ⟨0, _⟩ => rfl | ⟨1, _⟩ => rfl), wc]

end Cert.ReferenceIdeal.RefSpec

end
-- ==== Proof.RefEmbed.lean ====
/-
  The reference program's embedding stage is the specification's: each node's two feature words, which under the
  precondition are table row numbers, select one row of each table (a negative word would be wrapped around and an
  over-large one clamped, neither of which happens), the rows are added and clipped below at zero.
-/
import proofs.«406987_j38010460569655_3_alg».proof.Proof.Gen.ReferenceIdeal.Read
import proofs.«406987_j38010460569655_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefEmbed

open Idealize.ShloMosaic Idealize.ShloMosaic.ValueIdx Cert.ReferenceIdeal Cert.ReferenceIdeal.Read Cert.Gin

/-- The dimension numbers of a row lookup: a table [N, C], a column [n, 1] of row numbers, the result [n, C] whose
    row p is the table's row the p-th number names. -/
abbrev rowDims (N n C : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row lookup read at (r, c): the table at column c of the row that the r-th number, read signed and clamped
    into [0, N − 1], names. -/
theorem gather_row {α : Type} {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (r : Fin n) (c : Fin C) :
    Host.gather (rowDims N n C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    -- the row axis is collapsed and start-indexed: the clamped start, no batching or offset part
    show (rowDims N n C wf).start (ix2 r c) idx 0 + (rowDims N n C wf).batchCoord (ix2 r c) 0
      + (rowDims N n C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n C wf).startIndexMap from List.mem_singleton.mpr rfl)]
    have hsi : (rowDims N n C wf).siIdx (ix2 r c) ⟨List.idxOf (0 : Fin 2) (rowDims N n C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the column axis is the one offset axis: start 0, the result's column
    show (rowDims N n C wf).start (ix2 r c) idx 1 + (rowDims N n C wf).batchCoord (ix2 r c) 1
      + (rowDims N n C wf).offCoord (ix2 r c) 1 = c.val
    rw [GatherDims.batchCoord_eq_zero _ _ _ List.not_mem_nil]
    have hs : (rowDims N n C wf).start (ix2 r c) idx 1 = 0 := by
      unfold GatherDims.start
      rw [dif_neg (show (1 : Fin 2) ∉ ([0] : List (Fin 2)) by decide)]
    rw [hs]
    simp only [Nat.add_zero, Nat.zero_add]
    rfl

/-- A non-negative word is not wrapped around: the comparison with zero fails and the word is kept. -/
theorem select_nonneg (w : BitVec 32) (h : 0 ≤ w.toInt) :
    Scalar.select (IntOp.cmpi .slt w 0#32) (IntOp.addi w 1001#32) w = w := by
  have hs : w.slt 0#32 = false := by
    simp only [BitVec.slt, BitVec.toInt_zero, decide_eq_false_iff_not, not_lt]; exact h
  unfold Scalar.select IntOp.cmpi
  simp only [hs]
  rw [if_neg (by decide)]

/-- A non-negative word read signed is its unsigned value, so the clamped start is the specification's row. -/
theorem clamp_eq_row (v w : BitVec 32) (hv : v = w) (h : 0 ≤ w.toInt) (hlt : min v.toInt.toNat (1001 - 1) < 1001) :
    (⟨min v.toInt.toNat (1001 - 1), hlt⟩ : Fin 1001) = row w := by
  subst hv
  refine Fin.ext ?_
  show min v.toInt.toNat (1001 - 1) = min v.toNat 1000
  have h1 := BitVec.toInt_eq_toNat_cond v
  have h2 := v.isLt
  split at h1 <;> omega

variable [Cert.ReferenceIdeal.Facts]

/-- The embedding stage, when every feature word is a table row number. -/
theorem embed_eq (x0 : IVec S50000x2 32) (x3 x4 : FVec Ideal S1001x128 .f32)
    (hf : ∀ i : S50000x2.Idx, 0 ≤ (x0 i).toInt ∧ (x0 i).toInt < 1001) :
    val_main_v19 (F := Ideal) x0 x3 x4 = embed x0 x3 x4 := by
  funext i
  obtain ⟨r, c, rfl⟩ : ∃ (r : Fin 50000) (c : Fin 128), i = ix2 r c := ⟨i 0, i 1, eq_ix2 i⟩
  -- the two columns of row numbers are the feature words themselves
  have h7 : val_main_v7 (F := Ideal) x0 (ix2 r (0 : Fin 1)) = x0 (ix2 r (0 : Fin 2)) := by
    rw [val_main_v7_apply, val_main_v6_apply, val_main_v3_apply, val_main_v5_apply, val_main_v1_apply, val_main_v0_apply,
      val_main_v2_apply, val_main_c_apply, val_main_v4_apply, val_main_c_0_apply]
    have hi : idx_main_v0 (idx_main_v1 (idx_main_v7 (ix2 r (0 : Fin 1)))) = ix2 r (0 : Fin 2) :=
      funext fun a => Fin.ext (by match a with | ⟨0, _⟩ => exact Nat.div_one _ | ⟨1, _⟩ => rfl)
    rw [hi]
    exact select_nonneg _ (hf _).1
  have h16 : val_main_v16 (F := Ideal) x0 (ix2 r (0 : Fin 1)) = x0 (ix2 r (1 : Fin 2)) := by
    rw [val_main_v16_apply, val_main_v15_apply, val_main_v12_apply, val_main_v14_apply, val_main_v10_apply, val_main_v9_apply,
      val_main_v11_apply, val_main_c_1_apply, val_main_v13_apply, val_main_c_2_apply]
    have hi : idx_main_v9 (idx_main_v10 (idx_main_v16 (ix2 r (0 : Fin 1)))) = ix2 r (1 : Fin 2) :=
      funext fun a => Fin.ext (by match a with | ⟨0, _⟩ => exact Nat.div_one _ | ⟨1, _⟩ => rfl)
    rw [hi]
    exact select_nonneg _ (hf _).1
  rw [val_main_v19_apply, val_main_v18_apply, val_main_call0_v0_apply, val_main_call0_cst_apply]
  have g8 : val_main_v8 (F := Ideal) x0 x3 (ix2 r c) = x3 (ix2 (row (x0 (ix2 r (0 : Fin 2)))) c) := by
    unfold val_main_v8
    refine (gather_row (by decide) Facts₀.gather_S1001x128_S50000x1_S50000x128_1_0_n_n_0_1_1128_wf x3
      (val_main_v7 (F := Ideal) x0) r c).trans ?_
    exact congrArg (fun k => x3 (ix2 k c)) (clamp_eq_row _ _ h7 (hf _).1 _)
  have g17 : val_main_v17 (F := Ideal) x0 x4 (ix2 r c) = x4 (ix2 (row (x0 (ix2 r (1 : Fin 2)))) c) := by
    unfold val_main_v17
    refine (gather_row (by decide) Facts₀.gather_S1001x128_S50000x1_S50000x128_1_0_n_n_0_1_1128_wf x4
      (val_main_v16 (F := Ideal) x0) r c).trans ?_
    exact congrArg (fun k => x4 (ix2 k c)) (clamp_eq_row _ _ h16 (hf _).1 _)
  rw [g8, g17, Ideal.maximumf_def, Ideal.addf_def, Ideal.ofBits_def, Ideal.ofBits_zero_f32]
  rfl

end Cert.ReferenceIdeal.RefEmbed

end
-- ==== Proof.SpecK.lean ====
/-
  The kernel's forms of the specification's functions, and that they are the same functions.
  The kernel reads its tables padded with zero rows to 1024 rows, its weights of one layer as a 128×128 block
  already transposed ([in, out]), its biases as one row, and the classifier's weights transposed and padded with
  zero columns to 128. Each form below is the specification's function once the block read is identified with the
  argument array's entry it was laid out from.
-/
import proofs.«406987_j38010460569655_3_alg».proof.Proof.Spec

noncomputable section

namespace Cert.Gin

open Idealize.ShloMosaic Idealize.ShloMosaic.ValueIdx

/-- a table padded to 1024 rows -/
abbrev SPad : Shape := ⟨2, ![1024, 128]⟩
/-- one layer's weights as a block -/
abbrev SBlk : Shape := ⟨2, ![128, 128]⟩
/-- one layer's bias as a row -/
abbrev SRow : Shape := ⟨2, ![1, 128]⟩

/-- The padded table's row a feature word names (its value when below 1024; never otherwise under the precondition). -/
def rowK (b : BitVec 32) : Fin 1024 := ⟨min b.toNat 1023, by omega⟩

/-- The embedding over padded tables. -/
def embedK (feats : SFeat.Idx → BitVec 32) (kp vp : SPad.Idx → EReal) : SNode.Idx → EReal :=
  fun i => max (kp (ix2 (rowK (feats (ix2 ⟨(i 0).val, (i 0).isLt⟩ (0 : Fin 2)))) ⟨(i 1).val, (i 1).isLt⟩)
      + vp (ix2 (rowK (feats (ix2 ⟨(i 0).val, (i 0).isLt⟩ (1 : Fin 2)))) ⟨(i 1).val, (i 1).isLt⟩)) 0

/-- A dense block's hidden activation over a transposed weight block and a bias row. -/
def hiddenK (z : SNode.Idx → EReal) (w1 : SBlk.Idx → EReal) (b1 : SRow.Idx → EReal) (r : Fin 50000) (k : Fin 128) : EReal :=
  max ((∑ j : Fin 128, z (ix2 r j) * w1 (ix2 j k)) + b1 (ix2 (0 : Fin 1) k)) 0

/-- A dense block over transposed weight blocks and bias rows. -/
def mlpK (z : SNode.Idx → EReal) (w1 : SBlk.Idx → EReal) (b1 : SRow.Idx → EReal) (w2 : SBlk.Idx → EReal) (b2 : SRow.Idx → EReal) :
    SNode.Idx → EReal :=
  fun i => (∑ k : Fin 128, hiddenK z w1 b1 ⟨(i 0).val, (i 0).isLt⟩ k * w2 (ix2 k ⟨(i 1).val, (i 1).isLt⟩))
    + b2 (ix2 (0 : Fin 1) ⟨(i 1).val, (i 1).isLt⟩)

/-- The last kernel's array: the dense block followed by the padded, transposed classifier block. -/
def lastK (z : SNode.Idx → EReal) (w1 : SBlk.Idx → EReal) (b1 : SRow.Idx → EReal) (w2 : SBlk.Idx → EReal) (b2 : SRow.Idx → EReal)
    (wc : SBlk.Idx → EReal) : SNode.Idx → EReal :=
  fun i => ∑ k : Fin 128, mlpK z w1 b1 w2 b2 (ix2 ⟨(i 0).val, (i 0).isLt⟩ k) * wc (ix2 k ⟨(i 1).val, (i 1).isLt⟩)

/-- The embedding over padded tables is the embedding, when the padded tables agree with the tables on the first
    1001 rows and every feature word is a table row number. -/
theorem embedK_eq (feats : SFeat.Idx → BitVec 32) (key val : STab.Idx → EReal) (kp vp : SPad.Idx → EReal)
    (hk : ∀ (k : Fin 1001) (c : Fin 128), kp (ix2 ⟨k.val, by omega⟩ c) = key (ix2 k c))
    (hv : ∀ (k : Fin 1001) (c : Fin 128), vp (ix2 ⟨k.val, by omega⟩ c) = val (ix2 k c))
    (hf : ∀ i : SFeat.Idx, (feats i).toNat < 1001) :
    embedK feats kp vp = embed feats key val := by
  funext i
  unfold embedK embed
  -- a word below 1001 names the same row number in the padded table as in the table
  have e : ∀ w : BitVec 32, w.toNat < 1001 → rowK w = ⟨(row w).val, by omega⟩ := by
    intro w hw
    apply Fin.ext
    show min w.toNat 1023 = (row w).val
    rw [row_of_lt hw]; omega
  rw [e _ (hf _), e _ (hf _), hk, hv]

/-- A dense block over layer l's weights laid out as the kernel reads them is the specification's block. -/
theorem mlpK_eq (z : SNode.Idx → EReal) (W1 : SW.Idx → EReal) (b1 : SB.Idx → EReal) (W2 : SW.Idx → EReal) (b2 : SB.Idx → EReal) (l : Fin 3)
    (w1 : SBlk.Idx → EReal) (b1r : SRow.Idx → EReal) (w2 : SBlk.Idx → EReal) (b2r : SRow.Idx → EReal)
    (h1 : ∀ j k : Fin 128, w1 (ix2 j k) = W1 (ix3 l k j)) (hb1 : ∀ k : Fin 128, b1r (ix2 (0 : Fin 1) k) = b1 (ix2 l k))
    (h2 : ∀ k c : Fin 128, w2 (ix2 k c) = W2 (ix3 l c k)) (hb2 : ∀ c : Fin 128, b2r (ix2 (0 : Fin 1) c) = b2 (ix2 l c)) :
    mlpK z w1 b1r w2 b2r = mlp z W1 b1 W2 b2 l := by
  funext i
  unfold mlpK mlp hiddenK hidden
  simp only [h1, hb1, h2, hb2]

/-- The first 40 columns of the last kernel's array are the projection of its dense block. -/
theorem lastK_proj (z : SNode.Idx → EReal) (w1 : SBlk.Idx → EReal) (b1 : SRow.Idx → EReal) (w2 : SBlk.Idx → EReal) (b2 : SRow.Idx → EReal)
    (wc : SBlk.Idx → EReal) (Wc : SCls.Idx → EReal)
    (hwc : ∀ (k : Fin 128) (o : Fin 40), wc (ix2 k ⟨o.val, by omega⟩) = Wc (ix2 o k)) :
    (fun i : SOut.Idx => lastK z w1 b1 w2 b2 wc (ix2 ⟨(i 0).val, (i 0).isLt⟩ ⟨(i 1).val, Nat.lt_of_lt_of_le (i 1).isLt (by decide)⟩))
      = proj (mlpK z w1 b1 w2 b2) Wc := by
  funext i
  unfold lastK proj
  refine Finset.sum_congr rfl fun k _ => ?_
  show mlpK z w1 b1 w2 b2 (ix2 ⟨(i 0).val, (i 0).isLt⟩ k) * wc (ix2 k ⟨(i 1).val, _⟩)
    = mlpK z w1 b1 w2 b2 (ix2 ⟨(i 0).val, (i 0).isLt⟩ k) * Wc (ix2 ⟨(i 1).val, (i 1).isLt⟩ k)
  rw [← hwc k ⟨(i 1).val, (i 1).isLt⟩]

end Cert.Gin

end
-- ==== Proof.EmbedPay.lean ====
/-
  What the embedding kernel's body stores, read at one element. The body compares each of a node's two feature
  words with the column numbers 0 … 1023, turns the two comparisons into rows of zeros with a single one, and
  multiplies each by a padded table: a sum over 1024 terms of which one survives, the table's row the word names.
  The two rows are added and clipped below at zero.
-/
import proofs.«406987_j38010460569655_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.EmbedPay

open Idealize.ShloMosaic Idealize.ShloMosaic.ValueIdx Cert.KernelIdeal Cert.KernelIdeal.Facts₀ Cert.KernelIdeal.Facts Cert.KernelIdeal.Gen

variable [Cert.KernelIdeal.Facts]

/-! ## The two column loads -/

/-- Zero offsets, however spelt. -/
private theorem hz : (![0, 0] : Fin 2 → Nat) = fun _ => 0 := funext fun a => by fin_cases a <;> rfl

/-- Column 0 of the block of words, read at row p: the block at (p, 0). -/
private theorem ld_col0 (x0 : Vec Ideal S2000x2 .i32) (p : Fin 2000) (c : Fin 1) :
    View.ld x0 r0_0 (ix2 p c) = x0 (ix2 p (0 : Fin 2)) := by
  show x0 (r0_0.idx (ix2 p c)) = x0 (ix2 p (0 : Fin 2))
  refine congrArg x0 (Shape.idx_ext₂ ?_ ?_)
  · show 0 + 1 * p.val = p.val
    omega
  · show 0 + 1 * c.val = 0
    have := c.isLt; omega

/-- Column 1 of the block of words, read at row p: the block at (p, 1). -/
private theorem ld_col1 (x0 : Vec Ideal S2000x2 .i32) (p : Fin 2000) (c : Fin 1) :
    View.ld x0 r0_1 (ix2 p c) = x0 (ix2 p (1 : Fin 2)) := by
  show x0 (r0_1.idx (ix2 p c)) = x0 (ix2 p (1 : Fin 2))
  refine congrArg x0 (Shape.idx_ext₂ ?_ ?_)
  · show 0 + 1 * p.val = p.val
    omega
  · show 1 + 1 * c.val = 1
    have := c.isLt; omega

/-! ## A row of zeros with a single one -/

/-- The column broadcast along the row reads the column at its row. -/
private theorem bcast_col (v : Vec Ideal S2000x1 .i32) (hb : S2000x1.Broadcasts S2000x1024) (p : Fin 2000) (k : Fin 1024) :
    broadcastTo S2000x1024 v hb (ix2 p k) = v (ix2 p (0 : Fin 1)) := by
  refine broadcastTo_apply v hb (ix2 p k) (ix2 p (0 : Fin 1)) fun ax => ?_
  match ax with
  | ⟨0, _⟩ => exact (if_neg (show ¬ (2000 : ℕ) = 1 by omega)).symm
  | ⟨1, _⟩ => rfl

/-- The column numbers: at (p, k) the word k. -/
private theorem iota_col (hi : S2000x1024.Iotas .tc 32 [1]) (p : Fin 2000) (k : Fin 1024) :
    iota .tc S2000x1024 32 [1] hi (ix2 p k) = BitVec.ofNat 32 k.val :=
  iota_single_apply .tc S2000x1024 32 1 hi (ix2 p k)

/-- Small numbers are different words. -/
private theorem ofNat_inj_1024 (a b : Fin 1024) (h : BitVec.ofNat 32 a.val = BitVec.ofNat 32 b.val) : a = b := by
  have := congrArg BitVec.toNat h
  simp only [BitVec.toNat_ofNat] at this
  have ha := a.isLt; have hb := b.isLt
  apply Fin.ext; omega

/-- The one-hot entry: the comparison of a column of words with the column numbers, widened and converted to a number,
    is 1 at the column the word names and 0 elsewhere. -/
theorem onehot_apply (v : Vec Ideal S2000x1 .i32) (hb : S2000x1.Broadcasts S2000x1024) (hi : S2000x1024.Iotas .tc 32 [1])
    (h32 : 1 < 32) (hbits : FTy.bits .bf16 < FTy.bits .f32) (p : Fin 2000) (k0 k : Fin 1024)
    (h : v (ix2 p (0 : Fin 1)) = BitVec.ofNat 32 k0.val) :
    (truncf .bf16 (sitofp .f32 (extui 32 (cmpi .eq (broadcastTo S2000x1024 v hb) (iota .tc S2000x1024 32 [1] hi)) h32) : FVec Ideal S2000x1024 .f32) hbits
      : FVec Ideal S2000x1024 .bf16) (ix2 p k) = if k = k0 then (1 : EReal) else 0 := by
  show (((((IntOp.cmpi .eq (broadcastTo S2000x1024 v hb (ix2 p k))
    (iota .tc S2000x1024 32 [1] hi (ix2 p k))).setWidth 32).toInt : ℝ) : EReal)) = _
  rw [bcast_col, iota_col, h]
  by_cases hk : k = k0
  · subst hk
    rw [if_pos rfl, StableHlo.Predicate.cmpi_eq_iff.mpr rfl]
    have e : ((1#1 : BitVec 1).setWidth 32).toInt = 1 := by decide
    rw [e, Int.cast_one, EReal.coe_one]
  · rw [if_neg hk]
    have : IntOp.cmpi .eq (BitVec.ofNat 32 k0.val) (BitVec.ofNat 32 k.val) = 0#1 :=
      eq_zero_of_ne_one fun e => hk (ofNat_inj_1024 _ _ (StableHlo.Predicate.cmpi_eq_iff.mp e)).symm
    rw [this]
    have e : ((0#1 : BitVec 1).setWidth 32).toInt = 0 := by decide
    rw [e, Int.cast_zero, EReal.coe_zero]

/-! ## One product: a one-hot row times a table picks a row of the table -/

theorem lhs_mm_0 (i : S2000x128.Idx) (c : dot_S2000x1024_S1024x128_S2000x128_1_0_0_1_n_n.contr.Idx) :
    (dot_S2000x1024_S1024x128_S2000x128_1_0_0_1_n_n.lhsIdx i c 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_mm_1 (i : S2000x128.Idx) (c : dot_S2000x1024_S1024x128_S2000x128_1_0_0_1_n_n.contr.Idx) :
    (dot_S2000x1024_S1024x128_S2000x128_1_0_0_1_n_n.lhsIdx i c 1).val = (c ⟨0, by decide⟩).val :=
  dot_S2000x1024_S1024x128_S2000x128_1_0_0_1_n_n.lhsIdx_val_of_single rfl i c
theorem rhs_mm_0 (i : S2000x128.Idx) (c : dot_S2000x1024_S1024x128_S2000x128_1_0_0_1_n_n.contr.Idx) :
    (dot_S2000x1024_S1024x128_S2000x128_1_0_0_1_n_n.rhsIdx i c 0).val = (c ⟨0, by decide⟩).val :=
  dot_S2000x1024_S1024x128_S2000x128_1_0_0_1_n_n.rhsIdx_val_of_single rfl i c
theorem rhs_mm_1 (i : S2000x128.Idx) (c : dot_S2000x1024_S1024x128_S2000x128_1_0_0_1_n_n.contr.Idx) :
    (dot_S2000x1024_S1024x128_S2000x128_1_0_0_1_n_n.rhsIdx i c 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The product into a zero accumulator, at row p and column q: the sum over the 1024 columns of the left operand's
    row p times the right operand's column q. -/
theorem mm_apply (a : FVec Ideal S2000x1024 .bf16) (b : FVec Ideal S1024x128 .bf16) (p : Fin 2000) (q : Fin 128) :
    matmul dot_S2000x1024_S1024x128_S2000x128_1_0_0_1_n_n none a b (constant (F := Ideal) S2000x128 .f32 0x00000000#32) (ix2 p q)
      = ∑ k : Fin 1024, a (ix2 p k) * b (ix2 k q) := by
  simp only [matmul]
  rw [Ideal.matmul_constant_zero_apply, ← Equiv.sum_comp (ValueIdx.contrEquiv1 dot_S2000x1024_S1024x128_S2000x128_1_0_0_1_n_n 1024 rfl rfl).symm]
  refine Finset.sum_congr rfl fun k _ => ?_
  have hk := ValueIdx.contrEquiv1_symm_val dot_S2000x1024_S1024x128_S2000x128_1_0_0_1_n_n 1024 rfl rfl k
  have el : dot_S2000x1024_S1024x128_S2000x128_1_0_0_1_n_n.lhsIdx (ix2 p q) ((ValueIdx.contrEquiv1 dot_S2000x1024_S1024x128_S2000x128_1_0_0_1_n_n 1024 rfl rfl).symm k) = ix2 p k := funext fun ax => Fin.ext (by
    match ax with
    | ⟨0, _⟩ => exact lhs_mm_0 _ _
    | ⟨1, _⟩ => exact (lhs_mm_1 _ _).trans hk)
  have er : dot_S2000x1024_S1024x128_S2000x128_1_0_0_1_n_n.rhsIdx (ix2 p q) ((ValueIdx.contrEquiv1 dot_S2000x1024_S1024x128_S2000x128_1_0_0_1_n_n 1024 rfl rfl).symm k) = ix2 k q := funext fun ax => Fin.ext (by
    match ax with
    | ⟨0, _⟩ => exact (rhs_mm_0 _ _).trans hk
    | ⟨1, _⟩ => exact rhs_mm_1 _ _)
  rw [el, er]

/-- A row of zeros with a single one, times a table, is the table's row at the one. -/
theorem sum_onehot (oh : FVec Ideal S2000x1024 .bf16) (t : FVec Ideal S1024x128 .bf16) (p : Fin 2000) (q : Fin 128) (k0 : Fin 1024)
    (hoh : ∀ k : Fin 1024, oh (ix2 p k) = if k = k0 then (1 : EReal) else 0) :
    ∑ k : Fin 1024, oh (ix2 p k) * t (ix2 k q) = t (ix2 k0 q) := by
  rw [Finset.sum_eq_single k0]
  · rw [hoh, if_pos rfl, one_mul]
  · intro k _ hk
    rw [hoh, if_neg hk, zero_mul]
  · intro h
    exact absurd (Finset.mem_univ _) h

/-- One product of the body: the one-hot rows of a column of words, times a table, at row p and column q is the
    table's row the word at p names. -/
theorem pick_row (v : Vec Ideal S2000x1 .i32) (t : FVec Ideal S1024x128 .bf16) (hb : S2000x1.Broadcasts S2000x1024)
    (hi : S2000x1024.Iotas .tc 32 [1]) (h32 : 1 < 32) (hbits : FTy.bits .bf16 < FTy.bits .f32) (hsc : S1024x128.ShapeCasts S1024x128)
    (p : Fin 2000) (q : Fin 128) (k0 : Fin 1024) (h : v (ix2 p (0 : Fin 1)) = BitVec.ofNat 32 k0.val) :
    matmul dot_S2000x1024_S1024x128_S2000x128_1_0_0_1_n_n none
      (truncf .bf16 (sitofp .f32 (extui 32 (cmpi .eq (broadcastTo S2000x1024 v hb) (iota .tc S2000x1024 32 [1] hi)) h32) : FVec Ideal S2000x1024 .f32) hbits)
      (shapeCast S1024x128 t hsc) (constant (F := Ideal) S2000x128 .f32 0x00000000#32) (ix2 p q) = t (ix2 k0 q) := by
  rw [shapeCast_self]
  exact (mm_apply _ _ p q).trans (sum_onehot _ t p q k0 fun k => onehot_apply v hb hi h32 hbits p k0 k h)

/-- At row p, column q of the stored block: the first table's row `k0` plus the second table's row `k1`, clipped at
    zero, when the row's two feature words are the numbers `k0` and `k1` (both below 1024). -/
theorem out0_3_apply (x0 : Vec Ideal S2000x2 .i32) (x1 x2 : Vec Ideal S1024x128 .bf16) (p : Fin 2000) (q : Fin 128)
    (k0 k1 : Fin 1024) (h0 : x0 (ix2 p (0 : Fin 2)) = BitVec.ofNat 32 k0.val) (h1 : x0 (ix2 p (1 : Fin 2)) = BitVec.ofNat 32 k1.val) :
    out0_3 (F := Ideal) x0 x1 x2 (ix2 p q) = max (x1 (ix2 k0 q) + x2 (ix2 k1 q)) (0 : EReal) := by
  unfold out0_3
  rw [View.canon_unit_zero hz]
  simp only [View.ld_unit_zero (S := S1024x128) hz]
  unfold k0_pay1
  simp only [maximumf_apply, addf_apply, broadcast_apply]
  have ea := pick_row (View.ld x0 r0_0) x1 Gen.broadcasts_S2000x1_S2000x1024 Gen.iota_S2000x1024_d1_w32 Gen.natLt_1_32
    Gen.bitsLt_bf16_f32 Gen.shapeCasts_S1024x128_S1024x128 p q k0 ((ld_col0 x0 p 0).trans h0)
  have eb := pick_row (View.ld x0 r0_1) x2 Gen.broadcasts_S2000x1_S2000x1024 Gen.iota_S2000x1024_d1_w32 Gen.natLt_1_32
    Gen.bitsLt_bf16_f32 Gen.shapeCasts_S1024x128_S1024x128 p q k1 ((ld_col1 x0 p 0).trans h1)
  rw [ea, eb]
  exact congrArg (max _) Ideal.ofBits_zero_f32

end Cert.KernelIdeal.EmbedPay

end
-- ==== Proof.MlpPay.lean ====
/-
  What the three dense kernels' bodies store, read at one element. Each body multiplies a block of node rows by a
  128×128 weight block (a sum over the 128 input units), adds a bias row, clips at zero, multiplies by a second
  weight block and adds a second bias row; the last kernel multiplies once more by a third block. Changes of float
  format are the identity over the extended reals, and a product into a zero accumulator is the plain sum.
-/
import proofs.«406987_j38010460569655_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MlpPay

open Idealize.ShloMosaic Idealize.ShloMosaic.ValueIdx Cert.KernelIdeal Cert.KernelIdeal.Facts₀ Cert.KernelIdeal.Facts Cert.KernelIdeal.Gen

variable [Cert.KernelIdeal.Facts]

/-- The hidden unit k of row p of a block: the row times column k of the first weight block, plus the bias, clipped. -/
def hid (x0 : Vec Ideal S2000x128 .f32) (x1 : Vec Ideal S128x128 .bf16) (x2 : Vec Ideal S1x128 .f32) (p : Fin 2000) (k : Fin 128) : EReal :=
  max ((∑ j : Fin 128, x0 (ix2 p j) * x1 (ix2 j k)) + x2 (ix2 (0 : Fin 1) k)) (0 : EReal)

/-- One dense block's output at row p, column q. -/
def dense (x0 : Vec Ideal S2000x128 .f32) (x1 : Vec Ideal S128x128 .bf16) (x2 : Vec Ideal S1x128 .f32)
    (x3 : Vec Ideal S128x128 .bf16) (x4 : Vec Ideal S1x128 .f32) (p : Fin 2000) (q : Fin 128) : EReal :=
  (∑ k : Fin 128, hid x0 x1 x2 p k * x3 (ix2 k q)) + x4 (ix2 (0 : Fin 1) q)

/-- The left operand's row coordinate is the output's row. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the summation index. -/
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the summation index. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

set_option maxHeartbeats 400000 in
/-- One product into a zero accumulator, read at row p and column q: the sum over the 128 input units. -/
theorem matmul_zero_apply {φ ψ : FTy} (a : FVec Ideal S2000x128 φ) (b : FVec Ideal S128x128 ψ) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun c => Fin.ext (by
    match c with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun c => Fin.ext (by
    match c with
    | ⟨0, _⟩ => exact (rhs_0 _ _).trans hk
    | ⟨1, _⟩ => exact rhs_1 _ _)
  rw [el, er]

/-- The clip's zero is the real zero. -/
theorem relu_zero : (Scalar.ofBits (F := Ideal) .f32 0x00000000#32 : EReal) = 0 :=
  Ideal.ofBits_zero_f32

set_option maxHeartbeats 400000 in
/-- A bias row spread over the 2000 rows, read at row p and column q: the row's entry q. -/
theorem bias_apply {α : Type} (v : S1x128.Idx → α) (h : S1x128.Broadcasts S2000x128) (p : Fin 2000) (q : Fin 128) :
    broadcastTo S2000x128 v h (ix2 p q) = v (ix2 (0 : Fin 1) q) :=
  broadcastTo_apply v h (ix2 p q) (ix2 (0 : Fin 1) q) (fun a => by
    match a with
    | ⟨0, _⟩ => rfl
    | ⟨1, _⟩ => rfl)

set_option maxHeartbeats 400000 in
/-- The first dense kernel's stored block, read at row p and column q. -/
theorem k1_pay1_apply (x0 : Vec Ideal S2000x128 .f32) (x1 : Vec Ideal S128x128 .bf16) (x2 : Vec Ideal S1x128 .f32)
    (x3 : Vec Ideal S128x128 .bf16) (x4 : Vec Ideal S1x128 .f32) (p : Fin 2000) (q : Fin 128) :
    k1_pay1 (F := Ideal) x0 x1 x2 x3 x4 (ix2 p q) = dense x0 x1 x2 x3 x4 p q := by
  unfold k1_pay1 dense hid
  simp only [addf_apply, bias_apply, matmul_zero_apply, truncf_apply, maximumf_apply, broadcast_apply, shapeCast_self, relu_zero]

set_option maxHeartbeats 400000 in
/-- The second dense kernel's stored block is the same expression. -/
theorem k2_pay1_apply (x0 : Vec Ideal S2000x128 .f32) (x1 : Vec Ideal S128x128 .bf16) (x2 : Vec Ideal S1x128 .f32)
    (x3 : Vec Ideal S128x128 .bf16) (x4 : Vec Ideal S1x128 .f32) (p : Fin 2000) (q : Fin 128) :
    k2_pay1 (F := Ideal) x0 x1 x2 x3 x4 (ix2 p q) = dense x0 x1 x2 x3 x4 p q := by
  unfold k2_pay1 dense hid
  simp only [addf_apply, bias_apply, matmul_zero_apply, truncf_apply, maximumf_apply, broadcast_apply, shapeCast_self, relu_zero]

set_option maxHeartbeats 400000 in
/-- The last kernel's stored block: the dense block's row p times column q of the third weight block. -/
theorem k3_pay1_apply (x0 : Vec Ideal S2000x128 .f32) (x1 : Vec Ideal S128x128 .bf16) (x2 : Vec Ideal S1x128 .f32)
    (x3 : Vec Ideal S128x128 .bf16) (x4 : Vec Ideal S1x128 .f32) (x5 : Vec Ideal S128x128 .bf16) (p : Fin 2000) (q : Fin 128) :
    k3_pay1 (F := Ideal) x0 x1 x2 x3 x4 x5 (ix2 p q) = ∑ c : Fin 128, dense x0 x1 x2 x3 x4 p c * x5 (ix2 c q) := by
  unfold k3_pay1 dense hid
  simp only [addf_apply, bias_apply, matmul_zero_apply, truncf_apply, maximumf_apply, broadcast_apply, shapeCast_self, relu_zero]

/-- The whole-block rectangles start at the zero offsets. -/
theorem offs_zero : (![0, 0] : Fin 2 → Nat) = fun _ => 0 :=
  funext fun a => by
    match a with
    | ⟨0, _⟩ => rfl
    | ⟨1, _⟩ => rfl

theorem out1_5_apply (x0 : Vec Ideal S2000x128 .f32) (x1 : Vec Ideal S128x128 .bf16) (x2 : Vec Ideal S1x128 .f32)
    (x3 : Vec Ideal S128x128 .bf16) (x4 : Vec Ideal S1x128 .f32) (p : Fin 2000) (q : Fin 128) :
    out1_5 (F := Ideal) x0 x1 x2 x3 x4 (ix2 p q) = dense x0 x1 x2 x3 x4 p q := by
  unfold out1_5
  rw [View.canon_unit_zero offs_zero]
  simp only [View.ld_unit_zero (S := S2000x128) offs_zero, View.ld_unit_zero (S := S128x128) offs_zero, View.ld_unit_zero (S := S1x128) offs_zero]
  exact k1_pay1_apply x0 x1 x2 x3 x4 p q

theorem out2_5_apply (x0 : Vec Ideal S2000x128 .f32) (x1 : Vec Ideal S128x128 .bf16) (x2 : Vec Ideal S1x128 .f32)
    (x3 : Vec Ideal S128x128 .bf16) (x4 : Vec Ideal S1x128 .f32) (p : Fin 2000) (q : Fin 128) :
    out2_5 (F := Ideal) x0 x1 x2 x3 x4 (ix2 p q) = dense x0 x1 x2 x3 x4 p q := by
  unfold out2_5
  rw [View.canon_unit_zero offs_zero]
  simp only [View.ld_unit_zero (S := S2000x128) offs_zero, View.ld_unit_zero (S := S128x128) offs_zero, View.ld_unit_zero (S := S1x128) offs_zero]
  exact k2_pay1_apply x0 x1 x2 x3 x4 p q

theorem out3_6_apply (x0 : Vec Ideal S2000x128 .f32) (x1 : Vec Ideal S128x128 .bf16) (x2 : Vec Ideal S1x128 .f32)
    (x3 : Vec Ideal S128x128 .bf16) (x4 : Vec Ideal S1x128 .f32) (x5 : Vec Ideal S128x128 .bf16) (p : Fin 2000) (q : Fin 128) :
    out3_6 (F := Ideal) x0 x1 x2 x3 x4 x5 (ix2 p q) = ∑ c : Fin 128, dense x0 x1 x2 x3 x4 p c * x5 (ix2 c q) := by
  unfold out3_6
  rw [View.canon_unit_zero offs_zero]
  simp only [View.ld_unit_zero (S := S2000x128) offs_zero, View.ld_unit_zero (S := S128x128) offs_zero, View.ld_unit_zero (S := S1x128) offs_zero]
  exact k3_pay1_apply x0 x1 x2 x3 x4 x5 p q

end Cert.KernelIdeal.MlpPay

end
-- ==== Proof.KArr0.lean ====
/-
  The embedding kernel's result array. Grid point t stages rows 2000·t … 2000·t+1999 of the feature words and the
  two padded tables whole, and writes back rows 2000·t … of the result; what it writes is the block of ONE function of
  the arrays as the kernel finds them (each row's two table rows added and clipped), and the 25 blocks tile the
  array, so the array ends holding that function.
-/
import proofs.«406987_j38010460569655_3_alg».proof.Proof.Gen.KernelIdeal.Frame
import proofs.«406987_j38010460569655_3_alg».proof.Proof.SpecK
import proofs.«406987_j38010460569655_3_alg».proof.Proof.EmbedPay
import proofs.«406987_j38010460569655_3_alg».proof.Proof.MlpPay
import Idealize.ShloMosaic.Lib.ValueIdx
import Idealize.ShloMosaic.Lib.Pipeline.Value

set_option maxRecDepth 16384

noncomputable section

namespace Cert.KernelIdeal.KArr0

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

/-! ## The blocks the grid points stage, as entries of the arrays -/

section Blocks

variable (V : (c : Dev nD) → (b : Ref sig .tc) → Buf (Elt Ideal) ((c : Thread nD τ).loc b))

/-- The printed index maps over the grid: the feature words' window and the result's window move one block of rows per
    point, the two tables' windows stay on the whole table. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_eq : cfg0.N = 25 := by decide

set_option maxHeartbeats 400000 in
/-- The block of feature words at point t, row p: row 2000·t + p of the array. -/
theorem blk_feats (c : Dev nD) (t : Fin cfg0.N) (p : Fin 2000) (j : Fin 2) (r : Fin 50000) (hr : r.val = 2000 * t.val + p.val) :
    (iblk0 V c 0 t : Vec Ideal S2000x2 .i32) (ix2 p j) = (V c main_arg0 : IVec S50000x2 32) (ix2 r j) := by
  obtain ⟨e0, e1, -⟩ := idx_facts t
  show V c main_arg0 (((cfg0.win 0).blk t).view.emb (ix2 p j)) = V c main_arg0 (ix2 r j)
  congr 1
  funext a; apply Fin.ext
  match a with
  | ⟨0, _⟩ => show win0_0.index t (0 : Fin 2) * 2000 + 1 * p.val = r.val; omega
  | ⟨1, _⟩ => show win0_0.index t (1 : Fin 2) * 2 + 1 * j.val = j.val; omega

set_option maxHeartbeats 400000 in
/-- The first padded table's block is the whole table at every point. -/
theorem blk_key (c : Dev nD) (t : Fin cfg0.N) (k : Fin 1024) (q : Fin 128) :
    (iblk0 V c 1 t : Vec Ideal S1024x128 .bf16) (ix2 k q) = (V c main_call0_v1 : FVec Ideal S1024x128 .bf16) (ix2 k q) := by
  obtain ⟨-, -, e0, e1, -⟩ := idx_facts t
  show V c main_call0_v1 (((cfg0.win 1).blk t).view.emb (ix2 k q)) = V c main_call0_v1 (ix2 k q)
  congr 1
  funext a; apply Fin.ext
  match a with
  | ⟨0, _⟩ => show win0_1.index t (0 : Fin 2) * 1024 + 1 * k.val = k.val; omega
  | ⟨1, _⟩ => show win0_1.index t (1 : Fin 2) * 128 + 1 * q.val = q.val; omega

set_option maxHeartbeats 400000 in
/-- The second padded table's block is the whole table at every point. -/
theorem blk_val (c : Dev nD) (t : Fin cfg0.N) (k : Fin 1024) (q : Fin 128) :
    (iblk0 V c 2 t : Vec Ideal S1024x128 .bf16) (ix2 k q) = (V c main_call0_v3 : FVec Ideal S1024x128 .bf16) (ix2 k q) := by
  obtain ⟨-, -, -, -, e0, e1, -⟩ := idx_facts t
  show V c main_call0_v3 (((cfg0.win 2).blk t).view.emb (ix2 k q)) = V c main_call0_v3 (ix2 k q)
  congr 1
  funext a; apply Fin.ext
  match a with
  | ⟨0, _⟩ => show win0_2.index t (0 : Fin 2) * 1024 + 1 * k.val = k.val; omega
  | ⟨1, _⟩ => show win0_2.index t (1 : Fin 2) * 128 + 1 * q.val = q.val; omega

end Blocks

section Array

variable (V : (c : Dev nD) → (b : Ref sig .tc) → Buf (Elt Ideal) ((c : Thread nD τ).loc b))

/-- A word below 1024 is the word of the padded-table row number it names. -/
theorem word_eq_rowK (w : BitVec 32) (h : w.toNat < 1024) : w = BitVec.ofNat 32 (Cert.Gin.rowK w).val := by
  apply BitVec.eq_of_toNat_eq
  rw [BitVec.toNat_ofNat]
  show w.toNat = (min w.toNat 1023) % 2 ^ 32
  omega

set_option maxHeartbeats 400000 in
/-- What point t writes back is block t of the embedding over the padded tables, of the arrays as the region finds them. -/
theorem flushed_eq (c : Dev nD) (hf : ∀ i : S50000x2.Idx, ((V c main_arg0 : IVec S50000x2 32) i).toNat < 1024) (t : Fin cfg0.N) :
    (dat0 (F := Ideal) V c).flushed 3 t = ((cfg0.win 3).blk t).view.read (Elt Ideal)
      (Cert.Gin.embedK (V c main_arg0) (V c main_call0_v1) (V c main_call0_v3)) := by
  show (cfg0.win 3).cut (grid0.coords t) ((dat0 V c).after 3 t) = _
  rw [after0_3]
  funext y
  obtain ⟨p, q, rfl⟩ : ∃ (p : Fin 2000) (q : Fin 128), y = ix2 p q := ⟨y 0, y 1, eq_ix2 y⟩
  obtain ⟨-, -, -, -, -, -, e0, e1⟩ := idx_facts t
  have ht : t.val < 25 := lt_of_lt_of_eq t.isLt N_eq
  have hp : p.val < 2000 := p.isLt
  have hr : 2000 * t.val + p.val < 50000 := by omega
  have hi : ((cfg0.win 3).blk t).view.emb (ix2 p q) = (ix2 (⟨2000 * t.val + p.val, hr⟩ : Fin 50000) q : S50000x128.Idx) := by
    funext a; apply Fin.ext
    match a with
    | ⟨0, _⟩ => show win0_3.index t (0 : Fin 2) * 2000 + 1 * p.val = 2000 * t.val + p.val; omega
    | ⟨1, _⟩ => show win0_3.index t (1 : Fin 2) * 128 + 1 * q.val = q.val; omega
  show out0_3 (iblk0 V c 0 t) (iblk0 V c 1 t) (iblk0 V c 2 t) (ix2 p q)
    = Cert.Gin.embedK (V c main_arg0) (V c main_call0_v1) (V c main_call0_v3) (((cfg0.win 3).blk t).view.emb (ix2 p q))
  rw [hi]
  refine (EmbedPay.out0_3_apply (iblk0 V c 0 t) (iblk0 V c 1 t) (iblk0 V c 2 t) p q
    (Cert.Gin.rowK ((V c main_arg0 : IVec S50000x2 32) (ix2 (⟨2000 * t.val + p.val, hr⟩ : Fin 50000) (0 : Fin 2))))
    (Cert.Gin.rowK ((V c main_arg0 : IVec S50000x2 32) (ix2 (⟨2000 * t.val + p.val, hr⟩ : Fin 50000) (1 : Fin 2)))) ?_ ?_).trans ?_
  · rw [blk_feats V c t p 0 ⟨2000 * t.val + p.val, hr⟩ rfl]; exact word_eq_rowK _ (hf _)
  · rw [blk_feats V c t p 1 ⟨2000 * t.val + p.val, hr⟩ rfl]; exact word_eq_rowK _ (hf _)
  · rw [blk_key, blk_val]; rfl

/-- An index of the result array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v15).slice (win0_3.rect t)).set ↔ _
  rw [View.set_slice_whole, Rect.mem_set_unit]
  exact Iff.rfl

/-- The 25 blocks of 2000 rows tile the array: row r is in the block of point r / 2000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := by rw [N_eq]; omega
  obtain ⟨-, -, -, -, -, -, e0, e1⟩ := idx_facts ⟨(i 0).val / 2000, hN⟩
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hN⟩ (1 : Fin 2) * 128 ≤ (i 1).val ∧ (i 1).val < win0_3.index ⟨(i 0).val / 2000, hN⟩ (1 : Fin 2) * 128 + 128
    rw [e1]; omega

/-- So the result array ends holding the embedding over the padded tables. -/
theorem arr0_of_cover (c : Dev nD) (hf : ∀ i : S50000x2.Idx, ((V c main_arg0 : IVec S50000x2 32) i).toNat < 1024) :
    (dat0 (F := Ideal) V c).arrAt 3 cfg0.N
      = Cert.Gin.embedK (V c main_arg0) (V c main_call0_v1) (V c main_call0_v3) :=
  (dat0 (F := Ideal) V c).arrAt_eq_of_cover 3 (Cert.Gin.embedK (V c main_arg0) (V c main_call0_v1) (V c main_call0_v3))
    (fun t _ => flushed_eq V c hf t) cover

end Array

variable [Cert.KernelIdeal.Facts]
variable (V : (c : Dev nD) → (b : Ref sig .tc) → Buf (Elt Ideal) ((c : Thread nD τ).loc b))

/-- The embedding kernel leaves in its result array the embedding over the padded tables, of the arrays it was
    entered with, when every feature word is below 1024. -/
theorem arr0 (c : Dev nD) (hf : ∀ i : S50000x2.Idx, ((V c main_arg0 : IVec S50000x2 32) i).toNat < 1024) :
    (dat0 (F := Ideal) V c).arrAt 3 cfg0.N
      = Cert.Gin.embedK (V c main_arg0) (V c main_call0_v1) (V c main_call0_v3) :=
  arr0_of_cover V c hf

end Cert.KernelIdeal.KArr0

end
-- ==== Proof.KArr123.lean ====
/-
  The three dense kernels' result arrays. Grid point t stages rows 2000·t … of the node rows and the weight blocks
  and bias rows whole, and writes back the same rows of the result; what it writes is the block of ONE function of
  the arrays as the kernel finds them (the dense block row by row; for the last kernel followed by the classifier
  block), and the 25 blocks tile the array.
-/
import proofs.«406987_j38010460569655_3_alg».proof.Proof.Gen.KernelIdeal.Frame
import proofs.«406987_j38010460569655_3_alg».proof.Proof.SpecK
import proofs.«406987_j38010460569655_3_alg».proof.Proof.EmbedPay
import proofs.«406987_j38010460569655_3_alg».proof.Proof.MlpPay
import Idealize.ShloMosaic.Lib.ValueIdx
import Idealize.ShloMosaic.Lib.Pipeline.Value

set_option maxRecDepth 16384

noncomputable section

namespace Cert.KernelIdeal.KArr123

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

variable [Cert.KernelIdeal.Facts]
variable (V : (c : Dev nD) → (b : Ref sig .tc) → Buf (Elt Ideal) ((c : Thread nD τ).loc b))

/-- The array function's value at row r and column q, the row and column read off the index. -/
theorem mlpK_ix2 (z : Cert.Gin.SNode.Idx → EReal) (w1 : Cert.Gin.SBlk.Idx → EReal) (b1 : Cert.Gin.SRow.Idx → EReal)
    (w2 : Cert.Gin.SBlk.Idx → EReal) (b2 : Cert.Gin.SRow.Idx → EReal) (r : Fin 50000) (q : Fin 128) :
    Cert.Gin.mlpK z w1 b1 w2 b2 (ix2 r q)
      = (∑ k : Fin 128, Cert.Gin.hiddenK z w1 b1 r k * w2 (ix2 k q)) + b2 (ix2 (0 : Fin 1) q) := rfl

set_option maxHeartbeats 400000 in
/-- The dense block of staged blocks at row p is the array function at row r, when the staged node rows' row p is
    the array's row r and the weight blocks and bias rows are staged whole. -/
theorem dense_eq_mlpK (x0 : Vec Ideal S2000x128 .f32) (x1 : Vec Ideal S128x128 .bf16) (x2 : Vec Ideal S1x128 .f32)
    (x3 : Vec Ideal S128x128 .bf16) (x4 : Vec Ideal S1x128 .f32) (z : FVec Ideal S50000x128 .f32) (p : Fin 2000) (r : Fin 50000)
    (hz : ∀ j : Fin 128, x0 (ix2 p j) = z (ix2 r j)) (q : Fin 128) :
    MlpPay.dense x0 x1 x2 x3 x4 p q = Cert.Gin.mlpK z x1 x2 x3 x4 (ix2 r q) := by
  rw [mlpK_ix2]
  unfold MlpPay.dense MlpPay.hid Cert.Gin.hiddenK
  simp only [hz]

/-! ## The first dense kernel -/

/-- The printed index maps, decided over the 25 grid points: the node rows and the result move with the point, -/
theorem idx1_rows : ∀ t : Fin cfg1.N, win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, (@win1_0 facts₀).index t (0 : Fin 2) = t.val ∧ (@win1_0 facts₀).index t (1 : Fin 2) = 0
    ∧ (@win1_5 facts₀).index t (0 : Fin 2) = t.val ∧ (@win1_5 facts₀).index t (1 : Fin 2) = 0)

/-- and the weight blocks and bias rows stay at the origin. -/
theorem idx1_whole : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, (@win1_1 facts₀).index t (0 : Fin 2) = 0 ∧ (@win1_1 facts₀).index t (1 : Fin 2) = 0
    ∧ (@win1_2 facts₀).index t (0 : Fin 2) = 0 ∧ (@win1_2 facts₀).index t (1 : Fin 2) = 0
    ∧ (@win1_3 facts₀).index t (0 : Fin 2) = 0 ∧ (@win1_3 facts₀).index t (1 : Fin 2) = 0
    ∧ (@win1_4 facts₀).index t (0 : Fin 2) = 0 ∧ (@win1_4 facts₀).index t (1 : Fin 2) = 0)

/-- The array's row that point t's block row p is. -/
def row1 (t : Fin cfg1.N) (p : Fin 2000) : Fin 50000 :=
  ⟨2000 * t.val + p.val, by have ht : t.val < 25 := t.isLt; have hp := p.isLt; omega⟩

set_option maxHeartbeats 400000 in
/-- Row p of the staged node rows at point t is row 2000·t + p of the array. -/
theorem blk1_0 (c : Dev nD) (t : Fin cfg1.N) (p : Fin 2000) (j : Fin 128) :
    (iblk1 (F := Ideal) V c 0 t : Vec Ideal S2000x128 .f32) (ix2 p j) = (V c main_call0_v44 : FVec Ideal S50000x128 .f32) (ix2 (row1 t p) j) := by
  obtain ⟨e0, e1, -, -⟩ := idx1_rows t
  show V c main_call0_v44 (((cfg1.win 0).blk t).view.emb (ix2 p j)) = V c main_call0_v44 _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * j.val = j.val; omega

set_option maxHeartbeats 400000 in
/-- The first weight block is staged whole. -/
theorem blk1_1 (c : Dev nD) (t : Fin cfg1.N) :
    (iblk1 (F := Ideal) V c 1 t : Vec Ideal S128x128 .bf16) = (V c main_call0_v46 : FVec Ideal S128x128 .bf16) := by
  obtain ⟨e0, e1, -⟩ := idx1_whole t
  funext y
  show V c main_call0_v46 (((cfg1.win 1).blk t).view.emb y) = V c main_call0_v46 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

set_option maxHeartbeats 400000 in
/-- The first bias row is staged whole. -/
theorem blk1_2 (c : Dev nD) (t : Fin cfg1.N) :
    (iblk1 (F := Ideal) V c 2 t : Vec Ideal S1x128 .f32) = (V c main_call0_v48 : FVec Ideal S1x128 .f32) := by
  obtain ⟨-, -, e0, e1, -⟩ := idx1_whole t
  funext y
  show V c main_call0_v48 (((cfg1.win 2).blk t).view.emb y) = V c main_call0_v48 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

set_option maxHeartbeats 400000 in
/-- The second weight block is staged whole. -/
theorem blk1_3 (c : Dev nD) (t : Fin cfg1.N) :
    (iblk1 (F := Ideal) V c 3 t : Vec Ideal S128x128 .bf16) = (V c main_call0_v50 : FVec Ideal S128x128 .bf16) := by
  obtain ⟨-, -, -, -, e0, e1, -⟩ := idx1_whole t
  funext y
  show V c main_call0_v50 (((cfg1.win 3).blk t).view.emb y) = V c main_call0_v50 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

set_option maxHeartbeats 400000 in
/-- The second bias row is staged whole. -/
theorem blk1_4 (c : Dev nD) (t : Fin cfg1.N) :
    (iblk1 (F := Ideal) V c 4 t : Vec Ideal S1x128 .f32) = (V c main_call0_v52 : FVec Ideal S1x128 .f32) := by
  obtain ⟨-, -, -, -, -, -, e0, e1⟩ := idx1_whole t
  funext y
  show V c main_call0_v52 (((cfg1.win 4).blk t).view.emb y) = V c main_call0_v52 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

set_option maxHeartbeats 400000 in
/-- Row p, column q of the result's block at point t is row 2000·t + p, column q of the array. -/
theorem emb1_5 (t : Fin cfg1.N) (p : Fin 2000) (q : Fin 128) :
    (((cfg1.win 5).blk t).view.emb (ix2 p q) : S50000x128.Idx) = ix2 (row1 t p) q := by
  obtain ⟨-, -, e0, e1⟩ := idx1_rows t
  refine funext fun a => Fin.ext ?_
  match a with
  | ⟨0, _⟩ => show win1_5.index t (0 : Fin 2) * 2000 + 1 * p.val = 2000 * t.val + p.val; omega
  | ⟨1, _⟩ => show win1_5.index t (1 : Fin 2) * 128 + 1 * q.val = q.val; omega

set_option maxHeartbeats 400000 in
/-- What point t writes back is block t of the dense block of the arrays as the kernel finds them. -/
theorem flushed1_eq (c : Dev nD) (t : Fin cfg1.N) :
    (dat1 (F := Ideal) V c).flushed 5 t = ((cfg1.win 5).blk t).view.read (Elt Ideal)
      (Cert.Gin.mlpK (V c main_call0_v44) (V c main_call0_v46) (V c main_call0_v48) (V c main_call0_v50) (V c main_call0_v52)) := by
  show (cfg1.win 5).cut (grid1.coords t) ((dat1 (F := Ideal) V c).after 5 t) = _
  rw [after1_5]
  refine funext fun (y : S2000x128.Idx) => ?_
  obtain ⟨p, q, rfl⟩ : ∃ (p : Fin 2000) (q : Fin 128), y = ix2 p q := ⟨y 0, y 1, eq_ix2 y⟩
  show out1_5 (F := Ideal) (iblk1 V c 0 t) (iblk1 V c 1 t) (iblk1 V c 2 t) (iblk1 V c 3 t) (iblk1 V c 4 t) (ix2 p q)
    = Cert.Gin.mlpK (V c main_call0_v44) (V c main_call0_v46) (V c main_call0_v48) (V c main_call0_v50) (V c main_call0_v52)
        (((cfg1.win 5).blk t).view.emb (ix2 p q))
  rw [emb1_5 t p q]
  refine (MlpPay.out1_5_apply (iblk1 V c 0 t) (iblk1 V c 1 t) (iblk1 V c 2 t) (iblk1 V c 3 t) (iblk1 V c 4 t) p q).trans ?_
  rw [blk1_1 V c t, blk1_2 V c t, blk1_3 V c t, blk1_4 V c t]
  exact dense_eq_mlpK (iblk1 V c 0 t) (V c main_call0_v46) (V c main_call0_v48) (V c main_call0_v50) (V c main_call0_v52)
    (V c main_call0_v44) p (row1 t p) (fun j => blk1_0 V c t p j) q

set_option maxHeartbeats 400000 in
/-- An index of the array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_call0_v53).slice (win1_5.rect t)).set ↔ _
  rw [View.set_slice_whole, Rect.mem_set_unit]
  exact Iff.rfl

set_option maxHeartbeats 400000 in
/-- The 25 blocks tile the array: row r is in point r / 2000's block. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := (by omega : (i 0).val / 2000 < 25)
  obtain ⟨-, -, e0, e1⟩ := idx1_rows ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]
    omega

theorem arr1 (c : Dev nD) :
    (dat1 (F := Ideal) V c).arrAt 5 cfg1.N
      = Cert.Gin.mlpK (V c main_call0_v44) (V c main_call0_v46) (V c main_call0_v48) (V c main_call0_v50) (V c main_call0_v52) := by
  exact (dat1 (F := Ideal) V c).arrAt_eq_of_cover 5
    (Cert.Gin.mlpK (V c main_call0_v44) (V c main_call0_v46) (V c main_call0_v48) (V c main_call0_v50) (V c main_call0_v52))
    (fun t _ => flushed1_eq V c t) cover1

/-! ## The second dense kernel -/

/-- The printed index maps, decided over the 25 grid points: the node rows and the result move with the point, -/
theorem idx2_rows : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, (@win2_0 facts₀).index t (0 : Fin 2) = t.val ∧ (@win2_0 facts₀).index t (1 : Fin 2) = 0
    ∧ (@win2_5 facts₀).index t (0 : Fin 2) = t.val ∧ (@win2_5 facts₀).index t (1 : Fin 2) = 0)

/-- and the weight blocks and bias rows stay at the origin. -/
theorem idx2_whole : ∀ t : Fin cfg2.N, win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, (@win2_1 facts₀).index t (0 : Fin 2) = 0 ∧ (@win2_1 facts₀).index t (1 : Fin 2) = 0
    ∧ (@win2_2 facts₀).index t (0 : Fin 2) = 0 ∧ (@win2_2 facts₀).index t (1 : Fin 2) = 0
    ∧ (@win2_3 facts₀).index t (0 : Fin 2) = 0 ∧ (@win2_3 facts₀).index t (1 : Fin 2) = 0
    ∧ (@win2_4 facts₀).index t (0 : Fin 2) = 0 ∧ (@win2_4 facts₀).index t (1 : Fin 2) = 0)

/-- The array's row that point t's block row p is. -/
def row2 (t : Fin cfg2.N) (p : Fin 2000) : Fin 50000 :=
  ⟨2000 * t.val + p.val, by have ht : t.val < 25 := t.isLt; have hp := p.isLt; omega⟩

set_option maxHeartbeats 400000 in
/-- Row p of the staged node rows at point t is row 2000·t + p of the array. -/
theorem blk2_0 (c : Dev nD) (t : Fin cfg2.N) (p : Fin 2000) (j : Fin 128) :
    (iblk2 (F := Ideal) V c 0 t : Vec Ideal S2000x128 .f32) (ix2 p j) = (V c main_call0_v67 : FVec Ideal S50000x128 .f32) (ix2 (row2 t p) j) := by
  obtain ⟨e0, e1, -, -⟩ := idx2_rows t
  show V c main_call0_v67 (((cfg2.win 0).blk t).view.emb (ix2 p j)) = V c main_call0_v67 _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * j.val = j.val; omega

set_option maxHeartbeats 400000 in
/-- The first weight block is staged whole. -/
theorem blk2_1 (c : Dev nD) (t : Fin cfg2.N) :
    (iblk2 (F := Ideal) V c 1 t : Vec Ideal S128x128 .bf16) = (V c main_call0_v69 : FVec Ideal S128x128 .bf16) := by
  obtain ⟨e0, e1, -⟩ := idx2_whole t
  funext y
  show V c main_call0_v69 (((cfg2.win 1).blk t).view.emb y) = V c main_call0_v69 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

set_option maxHeartbeats 400000 in
/-- The first bias row is staged whole. -/
theorem blk2_2 (c : Dev nD) (t : Fin cfg2.N) :
    (iblk2 (F := Ideal) V c 2 t : Vec Ideal S1x128 .f32) = (V c main_call0_v71 : FVec Ideal S1x128 .f32) := by
  obtain ⟨-, -, e0, e1, -⟩ := idx2_whole t
  funext y
  show V c main_call0_v71 (((cfg2.win 2).blk t).view.emb y) = V c main_call0_v71 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

set_option maxHeartbeats 400000 in
/-- The second weight block is staged whole. -/
theorem blk2_3 (c : Dev nD) (t : Fin cfg2.N) :
    (iblk2 (F := Ideal) V c 3 t : Vec Ideal S128x128 .bf16) = (V c main_call0_v73 : FVec Ideal S128x128 .bf16) := by
  obtain ⟨-, -, -, -, e0, e1, -⟩ := idx2_whole t
  funext y
  show V c main_call0_v73 (((cfg2.win 3).blk t).view.emb y) = V c main_call0_v73 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

set_option maxHeartbeats 400000 in
/-- The second bias row is staged whole. -/
theorem blk2_4 (c : Dev nD) (t : Fin cfg2.N) :
    (iblk2 (F := Ideal) V c 4 t : Vec Ideal S1x128 .f32) = (V c main_call0_v75 : FVec Ideal S1x128 .f32) := by
  obtain ⟨-, -, -, -, -, -, e0, e1⟩ := idx2_whole t
  funext y
  show V c main_call0_v75 (((cfg2.win 4).blk t).view.emb y) = V c main_call0_v75 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

set_option maxHeartbeats 400000 in
/-- Row p, column q of the result's block at point t is row 2000·t + p, column q of the array. -/
theorem emb2_5 (t : Fin cfg2.N) (p : Fin 2000) (q : Fin 128) :
    (((cfg2.win 5).blk t).view.emb (ix2 p q) : S50000x128.Idx) = ix2 (row2 t p) q := by
  obtain ⟨-, -, e0, e1⟩ := idx2_rows t
  refine funext fun a => Fin.ext ?_
  match a with
  | ⟨0, _⟩ => show win2_5.index t (0 : Fin 2) * 2000 + 1 * p.val = 2000 * t.val + p.val; omega
  | ⟨1, _⟩ => show win2_5.index t (1 : Fin 2) * 128 + 1 * q.val = q.val; omega

set_option maxHeartbeats 400000 in
/-- What point t writes back is block t of the dense block of the arrays as the kernel finds them. -/
theorem flushed2_eq (c : Dev nD) (t : Fin cfg2.N) :
    (dat2 (F := Ideal) V c).flushed 5 t = ((cfg2.win 5).blk t).view.read (Elt Ideal)
      (Cert.Gin.mlpK (V c main_call0_v67) (V c main_call0_v69) (V c main_call0_v71) (V c main_call0_v73) (V c main_call0_v75)) := by
  show (cfg2.win 5).cut (grid2.coords t) ((dat2 (F := Ideal) V c).after 5 t) = _
  rw [after2_5]
  refine funext fun (y : S2000x128.Idx) => ?_
  obtain ⟨p, q, rfl⟩ : ∃ (p : Fin 2000) (q : Fin 128), y = ix2 p q := ⟨y 0, y 1, eq_ix2 y⟩
  show out2_5 (F := Ideal) (iblk2 V c 0 t) (iblk2 V c 1 t) (iblk2 V c 2 t) (iblk2 V c 3 t) (iblk2 V c 4 t) (ix2 p q)
    = Cert.Gin.mlpK (V c main_call0_v67) (V c main_call0_v69) (V c main_call0_v71) (V c main_call0_v73) (V c main_call0_v75)
        (((cfg2.win 5).blk t).view.emb (ix2 p q))
  rw [emb2_5 t p q]
  refine (MlpPay.out2_5_apply (iblk2 V c 0 t) (iblk2 V c 1 t) (iblk2 V c 2 t) (iblk2 V c 3 t) (iblk2 V c 4 t) p q).trans ?_
  rw [blk2_1 V c t, blk2_2 V c t, blk2_3 V c t, blk2_4 V c t]
  exact dense_eq_mlpK (iblk2 V c 0 t) (V c main_call0_v69) (V c main_call0_v71) (V c main_call0_v73) (V c main_call0_v75)
    (V c main_call0_v67) p (row2 t p) (fun j => blk2_0 V c t p j) q

set_option maxHeartbeats 400000 in
/-- An index of the array is in point t's block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_call0_v76).slice (win2_5.rect t)).set ↔ _
  rw [View.set_slice_whole, Rect.mem_set_unit]
  exact Iff.rfl

set_option maxHeartbeats 400000 in
/-- The 25 blocks tile the array: row r is in point r / 2000's block. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 2000 < cfg2.N := (by omega : (i 0).val / 2000 < 25)
  obtain ⟨-, -, e0, e1⟩ := idx2_rows ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e1]
    omega

theorem arr2 (c : Dev nD) :
    (dat2 (F := Ideal) V c).arrAt 5 cfg2.N
      = Cert.Gin.mlpK (V c main_call0_v67) (V c main_call0_v69) (V c main_call0_v71) (V c main_call0_v73) (V c main_call0_v75) := by
  exact (dat2 (F := Ideal) V c).arrAt_eq_of_cover 5
    (Cert.Gin.mlpK (V c main_call0_v67) (V c main_call0_v69) (V c main_call0_v71) (V c main_call0_v73) (V c main_call0_v75))
    (fun t _ => flushed2_eq V c t) cover2

/-! ## The last kernel -/

/-- The last kernel's array function at row r and column q: the dense block's row r times the classifier block's column q. -/
theorem lastK_ix2 (z : Cert.Gin.SNode.Idx → EReal) (w1 : Cert.Gin.SBlk.Idx → EReal) (b1 : Cert.Gin.SRow.Idx → EReal)
    (w2 : Cert.Gin.SBlk.Idx → EReal) (b2 : Cert.Gin.SRow.Idx → EReal) (wc : Cert.Gin.SBlk.Idx → EReal) (r : Fin 50000) (q : Fin 128) :
    Cert.Gin.lastK z w1 b1 w2 b2 wc (ix2 r q) = ∑ k : Fin 128, Cert.Gin.mlpK z w1 b1 w2 b2 (ix2 r k) * wc (ix2 k q) := rfl

/-- The printed index maps, decided over the 25 grid points: the node rows and the result move with the point, -/
theorem idx3_rows : ∀ t : Fin cfg3.N, win3_0.index t (0 : Fin 2) = t.val ∧ win3_0.index t (1 : Fin 2) = 0
    ∧ win3_6.index t (0 : Fin 2) = t.val ∧ win3_6.index t (1 : Fin 2) = 0 :=
  (by decide +kernel : ∀ t : Fin grid3.N, (@win3_0 facts₀).index t (0 : Fin 2) = t.val ∧ (@win3_0 facts₀).index t (1 : Fin 2) = 0
    ∧ (@win3_6 facts₀).index t (0 : Fin 2) = t.val ∧ (@win3_6 facts₀).index t (1 : Fin 2) = 0)

/-- and the weight blocks, the bias rows and the classifier block stay at the origin. -/
theorem idx3_whole : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, (@win3_1 facts₀).index t (0 : Fin 2) = 0 ∧ (@win3_1 facts₀).index t (1 : Fin 2) = 0
    ∧ (@win3_2 facts₀).index t (0 : Fin 2) = 0 ∧ (@win3_2 facts₀).index t (1 : Fin 2) = 0
    ∧ (@win3_3 facts₀).index t (0 : Fin 2) = 0 ∧ (@win3_3 facts₀).index t (1 : Fin 2) = 0
    ∧ (@win3_4 facts₀).index t (0 : Fin 2) = 0 ∧ (@win3_4 facts₀).index t (1 : Fin 2) = 0
    ∧ (@win3_5 facts₀).index t (0 : Fin 2) = 0 ∧ (@win3_5 facts₀).index t (1 : Fin 2) = 0)

/-- The array's row that point t's block row p is. -/
def row3 (t : Fin cfg3.N) (p : Fin 2000) : Fin 50000 :=
  ⟨2000 * t.val + p.val, by have ht : t.val < 25 := t.isLt; have hp := p.isLt; omega⟩

set_option maxHeartbeats 400000 in
/-- Row p of the staged node rows at point t is row 2000·t + p of the array. -/
theorem blk3_0 (c : Dev nD) (t : Fin cfg3.N) (p : Fin 2000) (j : Fin 128) :
    (iblk3 (F := Ideal) V c 0 t : Vec Ideal S2000x128 .f32) (ix2 p j) = (V c main_call0_v90 : FVec Ideal S50000x128 .f32) (ix2 (row3 t p) j) := by
  obtain ⟨e0, e1, -, -⟩ := idx3_rows t
  show V c main_call0_v90 (((cfg3.win 0).blk t).view.emb (ix2 p j)) = V c main_call0_v90 _
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * j.val = j.val; omega

set_option maxHeartbeats 400000 in
/-- The first weight block is staged whole. -/
theorem blk3_1 (c : Dev nD) (t : Fin cfg3.N) :
    (iblk3 (F := Ideal) V c 1 t : Vec Ideal S128x128 .bf16) = (V c main_call0_v92 : FVec Ideal S128x128 .bf16) := by
  obtain ⟨e0, e1, -⟩ := idx3_whole t
  funext y
  show V c main_call0_v92 (((cfg3.win 1).blk t).view.emb y) = V c main_call0_v92 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

set_option maxHeartbeats 400000 in
/-- The first bias row is staged whole. -/
theorem blk3_2 (c : Dev nD) (t : Fin cfg3.N) :
    (iblk3 (F := Ideal) V c 2 t : Vec Ideal S1x128 .f32) = (V c main_call0_v94 : FVec Ideal S1x128 .f32) := by
  obtain ⟨-, -, e0, e1, -⟩ := idx3_whole t
  funext y
  show V c main_call0_v94 (((cfg3.win 2).blk t).view.emb y) = V c main_call0_v94 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

set_option maxHeartbeats 400000 in
/-- The second weight block is staged whole. -/
theorem blk3_3 (c : Dev nD) (t : Fin cfg3.N) :
    (iblk3 (F := Ideal) V c 3 t : Vec Ideal S128x128 .bf16) = (V c main_call0_v96 : FVec Ideal S128x128 .bf16) := by
  obtain ⟨-, -, -, -, e0, e1, -⟩ := idx3_whole t
  funext y
  show V c main_call0_v96 (((cfg3.win 3).blk t).view.emb y) = V c main_call0_v96 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

set_option maxHeartbeats 400000 in
/-- The second bias row is staged whole. -/
theorem blk3_4 (c : Dev nD) (t : Fin cfg3.N) :
    (iblk3 (F := Ideal) V c 4 t : Vec Ideal S1x128 .f32) = (V c main_call0_v98 : FVec Ideal S1x128 .f32) := by
  obtain ⟨-, -, -, -, -, -, e0, e1, -⟩ := idx3_whole t
  funext y
  show V c main_call0_v98 (((cfg3.win 4).blk t).view.emb y) = V c main_call0_v98 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

set_option maxHeartbeats 400000 in
/-- The classifier block is staged whole. -/
theorem blk3_5 (c : Dev nD) (t : Fin cfg3.N) :
    (iblk3 (F := Ideal) V c 5 t : Vec Ideal S128x128 .bf16) = (V c main_call0_v14 : FVec Ideal S128x128 .bf16) := by
  obtain ⟨-, -, -, -, -, -, -, -, e0, e1⟩ := idx3_whole t
  funext y
  show V c main_call0_v14 (((cfg3.win 5).blk t).view.emb y) = V c main_call0_v14 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

set_option maxHeartbeats 400000 in
/-- Row p, column q of the result's block at point t is row 2000·t + p, column q of the array. -/
theorem emb3_6 (t : Fin cfg3.N) (p : Fin 2000) (q : Fin 128) :
    (((cfg3.win 6).blk t).view.emb (ix2 p q) : S50000x128.Idx) = ix2 (row3 t p) q := by
  obtain ⟨-, -, e0, e1⟩ := idx3_rows t
  refine funext fun a => Fin.ext ?_
  match a with
  | ⟨0, _⟩ => show win3_6.index t (0 : Fin 2) * 2000 + 1 * p.val = 2000 * t.val + p.val; omega
  | ⟨1, _⟩ => show win3_6.index t (1 : Fin 2) * 128 + 1 * q.val = q.val; omega

set_option maxHeartbeats 400000 in
/-- What point t writes back is block t of the dense block followed by the classifier block, of the arrays as the
    kernel finds them. -/
theorem flushed3_eq (c : Dev nD) (t : Fin cfg3.N) :
    (dat3 (F := Ideal) V c).flushed 6 t = ((cfg3.win 6).blk t).view.read (Elt Ideal)
      (Cert.Gin.lastK (V c main_call0_v90) (V c main_call0_v92) (V c main_call0_v94) (V c main_call0_v96) (V c main_call0_v98) (V c main_call0_v14)) := by
  show (cfg3.win 6).cut (grid3.coords t) ((dat3 (F := Ideal) V c).after 6 t) = _
  rw [after3_6]
  refine funext fun (y : S2000x128.Idx) => ?_
  obtain ⟨p, q, rfl⟩ : ∃ (p : Fin 2000) (q : Fin 128), y = ix2 p q := ⟨y 0, y 1, eq_ix2 y⟩
  show out3_6 (F := Ideal) (iblk3 V c 0 t) (iblk3 V c 1 t) (iblk3 V c 2 t) (iblk3 V c 3 t) (iblk3 V c 4 t) (iblk3 V c 5 t) (ix2 p q)
    = Cert.Gin.lastK (V c main_call0_v90) (V c main_call0_v92) (V c main_call0_v94) (V c main_call0_v96) (V c main_call0_v98) (V c main_call0_v14)
        (((cfg3.win 6).blk t).view.emb (ix2 p q))
  rw [emb3_6 t p q]
  refine (MlpPay.out3_6_apply (iblk3 V c 0 t) (iblk3 V c 1 t) (iblk3 V c 2 t) (iblk3 V c 3 t) (iblk3 V c 4 t) (iblk3 V c 5 t) p q).trans ?_
  rw [blk3_1 V c t, blk3_2 V c t, blk3_3 V c t, blk3_4 V c t, blk3_5 V c t, lastK_ix2]
  refine Finset.sum_congr rfl fun k _ => ?_
  exact congrArg (· * (V c main_call0_v14 : FVec Ideal S128x128 .bf16) (ix2 k q))
    (dense_eq_mlpK (iblk3 V c 0 t) (V c main_call0_v92) (V c main_call0_v94) (V c main_call0_v96) (V c main_call0_v98)
      (V c main_call0_v90) p (row3 t p) (fun j => blk3_0 V c t p j) k)

set_option maxHeartbeats 400000 in
/-- An index of the array is in point t's block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_call0_v99).slice (win3_6.rect t)).set ↔ _
  rw [View.set_slice_whole, Rect.mem_set_unit]
  exact Iff.rfl

set_option maxHeartbeats 400000 in
/-- The 25 blocks tile the array: row r is in point r / 2000's block. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have ht : (i 0).val / 2000 < cfg3.N := (by omega : (i 0).val / 2000 < 25)
  obtain ⟨-, -, e0, e1⟩ := idx3_rows ⟨(i 0).val / 2000, ht⟩
  refine ⟨⟨(i 0).val / 2000, ht⟩, flush3_6 _, ?_⟩
  rw [mem_blk3]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    rw [e1]
    omega

theorem arr3 (c : Dev nD) :
    (dat3 (F := Ideal) V c).arrAt 6 cfg3.N
      = Cert.Gin.lastK (V c main_call0_v90) (V c main_call0_v92) (V c main_call0_v94) (V c main_call0_v96) (V c main_call0_v98) (V c main_call0_v14) := by
  exact (dat3 (F := Ideal) V c).arrAt_eq_of_cover 6
    (Cert.Gin.lastK (V c main_call0_v90) (V c main_call0_v92) (V c main_call0_v94) (V c main_call0_v96) (V c main_call0_v98) (V c main_call0_v14))
    (fun t _ => flushed3_eq V c t) cover3

end Cert.KernelIdeal.KArr123

end
-- ==== Proof.KHostW.lean ====
/-
  The layers' weights and biases as each dense kernel finds them, read at an index. Before the first kernel the host
  transposes the last two axes of both weight arrays and reshapes the biases to one row per layer (changes of float
  format are the identity over the extended reals). Before each dense kernel it slices out that layer's blocks. No
  later operation and no kernel writes these buffers, so at every kernel's entry they still hold those values.
-/
import proofs.«406987_j38010460569655_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KHostW

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

variable [Cert.KernelIdeal.Facts]
variable (m : (ℓ : Loc nD τ sig) → Buf (Elt Ideal) ℓ) (ρ : Dev nD → PrngReg)

/-- After the first host stretch the first weight array is the argument with its last two axes exchanged. -/
private theorem v5_W1 (c : Dev nD) (l : Fin 3) (j k : Fin 128) :
    (W1 m ρ c (Proc.devRef .tc main_call0_v5) : FVec Ideal S3x128x128 .bf16) (ix3 l j k)
      = m ((c : Thread nD τ).loc main_arg5) (ix3 l k j) := by
  have e : (W1 m ρ c (Proc.devRef .tc main_call0_v5) : FVec Ideal S3x128x128 .bf16)
      = truncf (F := Ideal) .bf16 (transpose S3x128x128 [0, 2, 1] (m ((c : Thread nD τ).loc main_arg5) : FVec Ideal S3x128x128 .f32)
          Facts₀.transposes_S3x128x128_S3x128x128_0_2_1) Facts₀.bitsLt_bf16_f32 := by
    show StableHlo.after hostOps0 _ (Proc.devRef .tc main_call0_v5) = _
    after_results
    rfl
  refine (congrFun e _).trans ?_
  rw [truncf_apply]
  exact transpose_ix3_021_apply _ _ l j k

/-- After the first host stretch the second weight array is the argument with its last two axes exchanged. -/
private theorem v7_W1 (c : Dev nD) (l : Fin 3) (j k : Fin 128) :
    (W1 m ρ c (Proc.devRef .tc main_call0_v7) : FVec Ideal S3x128x128 .bf16) (ix3 l j k)
      = m ((c : Thread nD τ).loc main_arg7) (ix3 l k j) := by
  have e : (W1 m ρ c (Proc.devRef .tc main_call0_v7) : FVec Ideal S3x128x128 .bf16)
      = truncf (F := Ideal) .bf16 (transpose S3x128x128 [0, 2, 1] (m ((c : Thread nD τ).loc main_arg7) : FVec Ideal S3x128x128 .f32)
          Facts₀.transposes_S3x128x128_S3x128x128_0_2_1) Facts₀.bitsLt_bf16_f32 := by
    show StableHlo.after hostOps0 _ (Proc.devRef .tc main_call0_v7) = _
    after_results
    rfl
  refine (congrFun e _).trans ?_
  rw [truncf_apply]
  exact transpose_ix3_021_apply _ _ l j k

/-- After the first host stretch the first bias array is the argument, one row per layer. -/
private theorem v8_W1 (c : Dev nD) (l : Fin 3) (u : Fin 1) (k : Fin 128) :
    (W1 m ρ c (Proc.devRef .tc main_call0_v8) : FVec Ideal S3x1x128 .f32) (ix3 l u k)
      = m ((c : Thread nD τ).loc main_arg6) (ix2 l k) := by
  have e : (W1 m ρ c (Proc.devRef .tc main_call0_v8) : FVec Ideal S3x1x128 .f32)
      = shapeCast S3x1x128 (m ((c : Thread nD τ).loc main_arg6) : FVec Ideal S3x128 .f32) Facts₀.shapeCasts_S3x128_S3x1x128 := by
    show StableHlo.after hostOps0 _ (Proc.devRef .tc main_call0_v8) = _
    after_results
    rfl
  refine (congrFun e _).trans ?_
  refine shapeCast_apply _ _ _ _ ?_
  show (S3x128.rowMajor (ix2 l k)).val = (S3x1x128.rowMajor (ix3 l u k)).val
  rw [Shape.rowMajor_val_two, Shape.rowMajor_val_three]
  have hu : u.val = 0 := by omega
  show l.val * 128 + k.val = (l.val * 1 + u.val) * 128 + k.val
  rw [hu]; omega

/-- After the first host stretch the second bias array is the argument, one row per layer. -/
private theorem v9_W1 (c : Dev nD) (l : Fin 3) (u : Fin 1) (k : Fin 128) :
    (W1 m ρ c (Proc.devRef .tc main_call0_v9) : FVec Ideal S3x1x128 .f32) (ix3 l u k)
      = m ((c : Thread nD τ).loc main_arg8) (ix2 l k) := by
  have e : (W1 m ρ c (Proc.devRef .tc main_call0_v9) : FVec Ideal S3x1x128 .f32)
      = shapeCast S3x1x128 (m ((c : Thread nD τ).loc main_arg8) : FVec Ideal S3x128 .f32) Facts₀.shapeCasts_S3x128_S3x1x128 := by
    show StableHlo.after hostOps0 _ (Proc.devRef .tc main_call0_v9) = _
    after_results
    rfl
  refine (congrFun e _).trans ?_
  refine shapeCast_apply _ _ _ _ ?_
  show (S3x128.rowMajor (ix2 l k)).val = (S3x1x128.rowMajor (ix3 l u k)).val
  rw [Shape.rowMajor_val_two, Shape.rowMajor_val_three]
  have hu : u.val = 0 := by omega
  show l.val * 128 + k.val = (l.val * 1 + u.val) * 128 + k.val
  rw [hu]; omega

/-- The first kernel does not own the first weights, transposed: at its exit they are as at its entry. -/
private theorem v5_W2 (c : Dev nD) : W2 m ρ c (Proc.devRef .tc main_call0_v5) = W1 m ρ c (Proc.devRef .tc main_call0_v5) :=
  W2_of_ne m ρ c main_call0_v5 (by decide)
/-- Nor does the second host stretch write them, nor the second kernel own them. -/
private theorem v5_W4 (c : Dev nD) : W4 m ρ c (Proc.devRef .tc main_call0_v5) = W1 m ρ c (Proc.devRef .tc main_call0_v5) :=
  calc W4 m ρ c (Proc.devRef .tc main_call0_v5)
    _ = W3 m ρ c (Proc.devRef .tc main_call0_v5) := W4_of_ne m ρ c main_call0_v5 (by decide)
    _ = W2 m ρ c (Proc.devRef .tc main_call0_v5) := StableHlo.after_of_forall_not_mem (b := Proc.devRef .tc main_call0_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v5) := v5_W2 m ρ c
/-- Nor the third host stretch, nor the third kernel. -/
private theorem v5_W6 (c : Dev nD) : W6 m ρ c (Proc.devRef .tc main_call0_v5) = W1 m ρ c (Proc.devRef .tc main_call0_v5) :=
  calc W6 m ρ c (Proc.devRef .tc main_call0_v5)
    _ = W5 m ρ c (Proc.devRef .tc main_call0_v5) := W6_of_ne m ρ c main_call0_v5 (by decide)
    _ = W4 m ρ c (Proc.devRef .tc main_call0_v5) := StableHlo.after_of_forall_not_mem (b := Proc.devRef .tc main_call0_v5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v5) := v5_W4 m ρ c

/-- The first kernel does not own the second weights, transposed: at its exit they are as at its entry. -/
private theorem v7_W2 (c : Dev nD) : W2 m ρ c (Proc.devRef .tc main_call0_v7) = W1 m ρ c (Proc.devRef .tc main_call0_v7) :=
  W2_of_ne m ρ c main_call0_v7 (by decide)
/-- Nor does the second host stretch write them, nor the second kernel own them. -/
private theorem v7_W4 (c : Dev nD) : W4 m ρ c (Proc.devRef .tc main_call0_v7) = W1 m ρ c (Proc.devRef .tc main_call0_v7) :=
  calc W4 m ρ c (Proc.devRef .tc main_call0_v7)
    _ = W3 m ρ c (Proc.devRef .tc main_call0_v7) := W4_of_ne m ρ c main_call0_v7 (by decide)
    _ = W2 m ρ c (Proc.devRef .tc main_call0_v7) := StableHlo.after_of_forall_not_mem (b := Proc.devRef .tc main_call0_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v7) := v7_W2 m ρ c
/-- Nor the third host stretch, nor the third kernel. -/
private theorem v7_W6 (c : Dev nD) : W6 m ρ c (Proc.devRef .tc main_call0_v7) = W1 m ρ c (Proc.devRef .tc main_call0_v7) :=
  calc W6 m ρ c (Proc.devRef .tc main_call0_v7)
    _ = W5 m ρ c (Proc.devRef .tc main_call0_v7) := W6_of_ne m ρ c main_call0_v7 (by decide)
    _ = W4 m ρ c (Proc.devRef .tc main_call0_v7) := StableHlo.after_of_forall_not_mem (b := Proc.devRef .tc main_call0_v7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v7) := v7_W4 m ρ c

/-- The first kernel does not own the first biases, one row per layer: at its exit they are as at its entry. -/
private theorem v8_W2 (c : Dev nD) : W2 m ρ c (Proc.devRef .tc main_call0_v8) = W1 m ρ c (Proc.devRef .tc main_call0_v8) :=
  W2_of_ne m ρ c main_call0_v8 (by decide)
/-- Nor does the second host stretch write them, nor the second kernel own them. -/
private theorem v8_W4 (c : Dev nD) : W4 m ρ c (Proc.devRef .tc main_call0_v8) = W1 m ρ c (Proc.devRef .tc main_call0_v8) :=
  calc W4 m ρ c (Proc.devRef .tc main_call0_v8)
    _ = W3 m ρ c (Proc.devRef .tc main_call0_v8) := W4_of_ne m ρ c main_call0_v8 (by decide)
    _ = W2 m ρ c (Proc.devRef .tc main_call0_v8) := StableHlo.after_of_forall_not_mem (b := Proc.devRef .tc main_call0_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v8) := v8_W2 m ρ c
/-- Nor the third host stretch, nor the third kernel. -/
private theorem v8_W6 (c : Dev nD) : W6 m ρ c (Proc.devRef .tc main_call0_v8) = W1 m ρ c (Proc.devRef .tc main_call0_v8) :=
  calc W6 m ρ c (Proc.devRef .tc main_call0_v8)
    _ = W5 m ρ c (Proc.devRef .tc main_call0_v8) := W6_of_ne m ρ c main_call0_v8 (by decide)
    _ = W4 m ρ c (Proc.devRef .tc main_call0_v8) := StableHlo.after_of_forall_not_mem (b := Proc.devRef .tc main_call0_v8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v8) := v8_W4 m ρ c

/-- The first kernel does not own the second biases, one row per layer: at its exit they are as at its entry. -/
private theorem v9_W2 (c : Dev nD) : W2 m ρ c (Proc.devRef .tc main_call0_v9) = W1 m ρ c (Proc.devRef .tc main_call0_v9) :=
  W2_of_ne m ρ c main_call0_v9 (by decide)
/-- Nor does the second host stretch write them, nor the second kernel own them. -/
private theorem v9_W4 (c : Dev nD) : W4 m ρ c (Proc.devRef .tc main_call0_v9) = W1 m ρ c (Proc.devRef .tc main_call0_v9) :=
  calc W4 m ρ c (Proc.devRef .tc main_call0_v9)
    _ = W3 m ρ c (Proc.devRef .tc main_call0_v9) := W4_of_ne m ρ c main_call0_v9 (by decide)
    _ = W2 m ρ c (Proc.devRef .tc main_call0_v9) := StableHlo.after_of_forall_not_mem (b := Proc.devRef .tc main_call0_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v9) := v9_W2 m ρ c
/-- Nor the third host stretch, nor the third kernel. -/
private theorem v9_W6 (c : Dev nD) : W6 m ρ c (Proc.devRef .tc main_call0_v9) = W1 m ρ c (Proc.devRef .tc main_call0_v9) :=
  calc W6 m ρ c (Proc.devRef .tc main_call0_v9)
    _ = W5 m ρ c (Proc.devRef .tc main_call0_v9) := W6_of_ne m ρ c main_call0_v9 (by decide)
    _ = W4 m ρ c (Proc.devRef .tc main_call0_v9) := StableHlo.after_of_forall_not_mem (b := Proc.devRef .tc main_call0_v9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_call0_v9) := v9_W4 m ρ c

/-- layer 0: the first weight block as the region finds it is the argument's layer-0 slice transposed -/
theorem w1t_0 (c : Dev nD) (j k : Fin 128) :
    V3 m ρ c main_call0_v46 (ix2 j k) = m ((c : Thread nD τ).loc main_arg5) (ix3 (0 : Fin 3) k j) := by
  have e : (W3 m ρ c (Proc.devRef .tc main_call0_v46) : FVec Ideal S128x128 .bf16)
      = shapeCast S128x128 (extractStridedSlice S1x128x128 ![0, 0, 0]
          (W2 m ρ c (Proc.devRef .tc main_call0_v5) : FVec Ideal S3x128x128 .bf16) Facts₀.slices_S3x128x128_S1x128x128_0_0_0)
          Facts₀.shapeCasts_S1x128x128_S128x128 := by
    show StableHlo.after hostOps1 _ (Proc.devRef .tc main_call0_v46) = _
    after_results
    rfl
  refine (congrFun e _).trans ?_
  refine (shapeCast_1ab_ab_apply _ _ j k).trans ?_
  refine (extractStridedSlice_apply _ _ _ _ (ix3 (0 : Fin 3) j k) (fun a => ?_)).trans ?_
  · match a with
    | ⟨0, _⟩ => rfl
    | ⟨1, _⟩ => exact (Nat.zero_add _).symm
    | ⟨2, _⟩ => exact (Nat.zero_add _).symm
  refine (congrFun (v5_W2 m ρ c) _).trans ?_
  exact v5_W1 m ρ c 0 j k
/-- layer 0: the first bias row is the argument's layer-0 row -/
theorem b1r_0 (c : Dev nD) (k : Fin 128) :
    V3 m ρ c main_call0_v48 (ix2 (0 : Fin 1) k) = m ((c : Thread nD τ).loc main_arg6) (ix2 (0 : Fin 3) k) := by
  have e : (W3 m ρ c (Proc.devRef .tc main_call0_v48) : FVec Ideal S1x128 .f32)
      = shapeCast S1x128 (extractStridedSlice S1x1x128 ![0, 0, 0]
          (W2 m ρ c (Proc.devRef .tc main_call0_v8) : FVec Ideal S3x1x128 .f32) Facts₀.slices_S3x1x128_S1x1x128_0_0_0)
          Facts₀.shapeCasts_S1x1x128_S1x128 := by
    show StableHlo.after hostOps1 _ (Proc.devRef .tc main_call0_v48) = _
    after_results
    rfl
  refine (congrFun e _).trans ?_
  refine (shapeCast_1ab_ab_apply _ _ (0 : Fin 1) k).trans ?_
  refine (extractStridedSlice_apply _ _ _ _ (ix3 (0 : Fin 3) (0 : Fin 1) k) (fun a => ?_)).trans ?_
  · match a with
    | ⟨0, _⟩ => rfl
    | ⟨1, _⟩ => rfl
    | ⟨2, _⟩ => exact (Nat.zero_add _).symm
  refine (congrFun (v8_W2 m ρ c) _).trans ?_
  exact v8_W1 m ρ c 0 0 k
/-- layer 0: the second weight block -/
theorem w2t_0 (c : Dev nD) (k q : Fin 128) :
    V3 m ρ c main_call0_v50 (ix2 k q) = m ((c : Thread nD τ).loc main_arg7) (ix3 (0 : Fin 3) q k) := by
  have e : (W3 m ρ c (Proc.devRef .tc main_call0_v50) : FVec Ideal S128x128 .bf16)
      = shapeCast S128x128 (extractStridedSlice S1x128x128 ![0, 0, 0]
          (W2 m ρ c (Proc.devRef .tc main_call0_v7) : FVec Ideal S3x128x128 .bf16) Facts₀.slices_S3x128x128_S1x128x128_0_0_0)
          Facts₀.shapeCasts_S1x128x128_S128x128 := by
    show StableHlo.after hostOps1 _ (Proc.devRef .tc main_call0_v50) = _
    after_results
    rfl
  refine (congrFun e _).trans ?_
  refine (shapeCast_1ab_ab_apply _ _ k q).trans ?_
  refine (extractStridedSlice_apply _ _ _ _ (ix3 (0 : Fin 3) k q) (fun a => ?_)).trans ?_
  · match a with
    | ⟨0, _⟩ => rfl
    | ⟨1, _⟩ => exact (Nat.zero_add _).symm
    | ⟨2, _⟩ => exact (Nat.zero_add _).symm
  refine (congrFun (v7_W2 m ρ c) _).trans ?_
  exact v7_W1 m ρ c 0 k q
/-- layer 0: the second bias row -/
theorem b2r_0 (c : Dev nD) (q : Fin 128) :
    V3 m ρ c main_call0_v52 (ix2 (0 : Fin 1) q) = m ((c : Thread nD τ).loc main_arg8) (ix2 (0 : Fin 3) q) := by
  have e : (W3 m ρ c (Proc.devRef .tc main_call0_v52) : FVec Ideal S1x128 .f32)
      = shapeCast S1x128 (extractStridedSlice S1x1x128 ![0, 0, 0]
          (W2 m ρ c (Proc.devRef .tc main_call0_v9) : FVec Ideal S3x1x128 .f32) Facts₀.slices_S3x1x128_S1x1x128_0_0_0)
          Facts₀.shapeCasts_S1x1x128_S1x128 := by
    show StableHlo.after hostOps1 _ (Proc.devRef .tc main_call0_v52) = _
    after_results
    rfl
  refine (congrFun e _).trans ?_
  refine (shapeCast_1ab_ab_apply _ _ (0 : Fin 1) q).trans ?_
  refine (extractStridedSlice_apply _ _ _ _ (ix3 (0 : Fin 3) (0 : Fin 1) q) (fun a => ?_)).trans ?_
  · match a with
    | ⟨0, _⟩ => rfl
    | ⟨1, _⟩ => rfl
    | ⟨2, _⟩ => exact (Nat.zero_add _).symm
  refine (congrFun (v9_W2 m ρ c) _).trans ?_
  exact v9_W1 m ρ c 0 0 q

/-- layer 1: the first weight block as the region finds it is the argument's layer-1 slice transposed -/
theorem w1t_1 (c : Dev nD) (j k : Fin 128) :
    V5 m ρ c main_call0_v69 (ix2 j k) = m ((c : Thread nD τ).loc main_arg5) (ix3 (1 : Fin 3) k j) := by
  have e : (W5 m ρ c (Proc.devRef .tc main_call0_v69) : FVec Ideal S128x128 .bf16)
      = shapeCast S128x128 (extractStridedSlice S1x128x128 ![1, 0, 0]
          (W4 m ρ c (Proc.devRef .tc main_call0_v5) : FVec Ideal S3x128x128 .bf16) Facts₀.slices_S3x128x128_S1x128x128_1_0_0)
          Facts₀.shapeCasts_S1x128x128_S128x128 := by
    show StableHlo.after hostOps2 _ (Proc.devRef .tc main_call0_v69) = _
    after_results
    rfl
  refine (congrFun e _).trans ?_
  refine (shapeCast_1ab_ab_apply _ _ j k).trans ?_
  refine (extractStridedSlice_apply _ _ _ _ (ix3 (1 : Fin 3) j k) (fun a => ?_)).trans ?_
  · match a with
    | ⟨0, _⟩ => rfl
    | ⟨1, _⟩ => exact (Nat.zero_add _).symm
    | ⟨2, _⟩ => exact (Nat.zero_add _).symm
  refine (congrFun (v5_W4 m ρ c) _).trans ?_
  exact v5_W1 m ρ c 1 j k
/-- layer 1: the first bias row is the argument's layer-1 row -/
theorem b1r_1 (c : Dev nD) (k : Fin 128) :
    V5 m ρ c main_call0_v71 (ix2 (0 : Fin 1) k) = m ((c : Thread nD τ).loc main_arg6) (ix2 (1 : Fin 3) k) := by
  have e : (W5 m ρ c (Proc.devRef .tc main_call0_v71) : FVec Ideal S1x128 .f32)
      = shapeCast S1x128 (extractStridedSlice S1x1x128 ![1, 0, 0]
          (W4 m ρ c (Proc.devRef .tc main_call0_v8) : FVec Ideal S3x1x128 .f32) Facts₀.slices_S3x1x128_S1x1x128_1_0_0)
          Facts₀.shapeCasts_S1x1x128_S1x128 := by
    show StableHlo.after hostOps2 _ (Proc.devRef .tc main_call0_v71) = _
    after_results
    rfl
  refine (congrFun e _).trans ?_
  refine (shapeCast_1ab_ab_apply _ _ (0 : Fin 1) k).trans ?_
  refine (extractStridedSlice_apply _ _ _ _ (ix3 (1 : Fin 3) (0 : Fin 1) k) (fun a => ?_)).trans ?_
  · match a with
    | ⟨0, _⟩ => rfl
    | ⟨1, _⟩ => rfl
    | ⟨2, _⟩ => exact (Nat.zero_add _).symm
  refine (congrFun (v8_W4 m ρ c) _).trans ?_
  exact v8_W1 m ρ c 1 0 k
/-- layer 1: the second weight block -/
theorem w2t_1 (c : Dev nD) (k q : Fin 128) :
    V5 m ρ c main_call0_v73 (ix2 k q) = m ((c : Thread nD τ).loc main_arg7) (ix3 (1 : Fin 3) q k) := by
  have e : (W5 m ρ c (Proc.devRef .tc main_call0_v73) : FVec Ideal S128x128 .bf16)
      = shapeCast S128x128 (extractStridedSlice S1x128x128 ![1, 0, 0]
          (W4 m ρ c (Proc.devRef .tc main_call0_v7) : FVec Ideal S3x128x128 .bf16) Facts₀.slices_S3x128x128_S1x128x128_1_0_0)
          Facts₀.shapeCasts_S1x128x128_S128x128 := by
    show StableHlo.after hostOps2 _ (Proc.devRef .tc main_call0_v73) = _
    after_results
    rfl
  refine (congrFun e _).trans ?_
  refine (shapeCast_1ab_ab_apply _ _ k q).trans ?_
  refine (extractStridedSlice_apply _ _ _ _ (ix3 (1 : Fin 3) k q) (fun a => ?_)).trans ?_
  · match a with
    | ⟨0, _⟩ => rfl
    | ⟨1, _⟩ => exact (Nat.zero_add _).symm
    | ⟨2, _⟩ => exact (Nat.zero_add _).symm
  refine (congrFun (v7_W4 m ρ c) _).trans ?_
  exact v7_W1 m ρ c 1 k q
/-- layer 1: the second bias row -/
theorem b2r_1 (c : Dev nD) (q : Fin 128) :
    V5 m ρ c main_call0_v75 (ix2 (0 : Fin 1) q) = m ((c : Thread nD τ).loc main_arg8) (ix2 (1 : Fin 3) q) := by
  have e : (W5 m ρ c (Proc.devRef .tc main_call0_v75) : FVec Ideal S1x128 .f32)
      = shapeCast S1x128 (extractStridedSlice S1x1x128 ![1, 0, 0]
          (W4 m ρ c (Proc.devRef .tc main_call0_v9) : FVec Ideal S3x1x128 .f32) Facts₀.slices_S3x1x128_S1x1x128_1_0_0)
          Facts₀.shapeCasts_S1x1x128_S1x128 := by
    show StableHlo.after hostOps2 _ (Proc.devRef .tc main_call0_v75) = _
    after_results
    rfl
  refine (congrFun e _).trans ?_
  refine (shapeCast_1ab_ab_apply _ _ (0 : Fin 1) q).trans ?_
  refine (extractStridedSlice_apply _ _ _ _ (ix3 (1 : Fin 3) (0 : Fin 1) q) (fun a => ?_)).trans ?_
  · match a with
    | ⟨0, _⟩ => rfl
    | ⟨1, _⟩ => rfl
    | ⟨2, _⟩ => exact (Nat.zero_add _).symm
  refine (congrFun (v9_W4 m ρ c) _).trans ?_
  exact v9_W1 m ρ c 1 0 q

/-- layer 2: the first weight block as the region finds it is the argument's layer-2 slice transposed -/
theorem w1t_2 (c : Dev nD) (j k : Fin 128) :
    V7 m ρ c main_call0_v92 (ix2 j k) = m ((c : Thread nD τ).loc main_arg5) (ix3 (2 : Fin 3) k j) := by
  have e : (W7 m ρ c (Proc.devRef .tc main_call0_v92) : FVec Ideal S128x128 .bf16)
      = shapeCast S128x128 (extractStridedSlice S1x128x128 ![2, 0, 0]
          (W6 m ρ c (Proc.devRef .tc main_call0_v5) : FVec Ideal S3x128x128 .bf16) Facts₀.slices_S3x128x128_S1x128x128_2_0_0)
          Facts₀.shapeCasts_S1x128x128_S128x128 := by
    show StableHlo.after hostOps3 _ (Proc.devRef .tc main_call0_v92) = _
    after_results
    rfl
  refine (congrFun e _).trans ?_
  refine (shapeCast_1ab_ab_apply _ _ j k).trans ?_
  refine (extractStridedSlice_apply _ _ _ _ (ix3 (2 : Fin 3) j k) (fun a => ?_)).trans ?_
  · match a with
    | ⟨0, _⟩ => rfl
    | ⟨1, _⟩ => exact (Nat.zero_add _).symm
    | ⟨2, _⟩ => exact (Nat.zero_add _).symm
  refine (congrFun (v5_W6 m ρ c) _).trans ?_
  exact v5_W1 m ρ c 2 j k
/-- layer 2: the first bias row is the argument's layer-2 row -/
theorem b1r_2 (c : Dev nD) (k : Fin 128) :
    V7 m ρ c main_call0_v94 (ix2 (0 : Fin 1) k) = m ((c : Thread nD τ).loc main_arg6) (ix2 (2 : Fin 3) k) := by
  have e : (W7 m ρ c (Proc.devRef .tc main_call0_v94) : FVec Ideal S1x128 .f32)
      = shapeCast S1x128 (extractStridedSlice S1x1x128 ![2, 0, 0]
          (W6 m ρ c (Proc.devRef .tc main_call0_v8) : FVec Ideal S3x1x128 .f32) Facts₀.slices_S3x1x128_S1x1x128_2_0_0)
          Facts₀.shapeCasts_S1x1x128_S1x128 := by
    show StableHlo.after hostOps3 _ (Proc.devRef .tc main_call0_v94) = _
    after_results
    rfl
  refine (congrFun e _).trans ?_
  refine (shapeCast_1ab_ab_apply _ _ (0 : Fin 1) k).trans ?_
  refine (extractStridedSlice_apply _ _ _ _ (ix3 (2 : Fin 3) (0 : Fin 1) k) (fun a => ?_)).trans ?_
  · match a with
    | ⟨0, _⟩ => rfl
    | ⟨1, _⟩ => rfl
    | ⟨2, _⟩ => exact (Nat.zero_add _).symm
  refine (congrFun (v8_W6 m ρ c) _).trans ?_
  exact v8_W1 m ρ c 2 0 k
/-- layer 2: the second weight block -/
theorem w2t_2 (c : Dev nD) (k q : Fin 128) :
    V7 m ρ c main_call0_v96 (ix2 k q) = m ((c : Thread nD τ).loc main_arg7) (ix3 (2 : Fin 3) q k) := by
  have e : (W7 m ρ c (Proc.devRef .tc main_call0_v96) : FVec Ideal S128x128 .bf16)
      = shapeCast S128x128 (extractStridedSlice S1x128x128 ![2, 0, 0]
          (W6 m ρ c (Proc.devRef .tc main_call0_v7) : FVec Ideal S3x128x128 .bf16) Facts₀.slices_S3x128x128_S1x128x128_2_0_0)
          Facts₀.shapeCasts_S1x128x128_S128x128 := by
    show StableHlo.after hostOps3 _ (Proc.devRef .tc main_call0_v96) = _
    after_results
    rfl
  refine (congrFun e _).trans ?_
  refine (shapeCast_1ab_ab_apply _ _ k q).trans ?_
  refine (extractStridedSlice_apply _ _ _ _ (ix3 (2 : Fin 3) k q) (fun a => ?_)).trans ?_
  · match a with
    | ⟨0, _⟩ => rfl
    | ⟨1, _⟩ => exact (Nat.zero_add _).symm
    | ⟨2, _⟩ => exact (Nat.zero_add _).symm
  refine (congrFun (v7_W6 m ρ c) _).trans ?_
  exact v7_W1 m ρ c 2 k q
/-- layer 2: the second bias row -/
theorem b2r_2 (c : Dev nD) (q : Fin 128) :
    V7 m ρ c main_call0_v98 (ix2 (0 : Fin 1) q) = m ((c : Thread nD τ).loc main_arg8) (ix2 (2 : Fin 3) q) := by
  have e : (W7 m ρ c (Proc.devRef .tc main_call0_v98) : FVec Ideal S1x128 .f32)
      = shapeCast S1x128 (extractStridedSlice S1x1x128 ![2, 0, 0]
          (W6 m ρ c (Proc.devRef .tc main_call0_v9) : FVec Ideal S3x1x128 .f32) Facts₀.slices_S3x1x128_S1x1x128_2_0_0)
          Facts₀.shapeCasts_S1x1x128_S1x128 := by
    show StableHlo.after hostOps3 _ (Proc.devRef .tc main_call0_v98) = _
    after_results
    rfl
  refine (congrFun e _).trans ?_
  refine (shapeCast_1ab_ab_apply _ _ (0 : Fin 1) q).trans ?_
  refine (extractStridedSlice_apply _ _ _ _ (ix3 (2 : Fin 3) (0 : Fin 1) q) (fun a => ?_)).trans ?_
  · match a with
    | ⟨0, _⟩ => rfl
    | ⟨1, _⟩ => rfl
    | ⟨2, _⟩ => exact (Nat.zero_add _).symm
  refine (congrFun (v9_W6 m ρ c) _).trans ?_
  exact v9_W1 m ρ c 2 0 q

end Cert.KernelIdeal.KHostW

end
-- ==== Proof.ScatterWc.lean ====
/-
  The classifier block's layout, read at an index. The host writes the 40×128 classifier weights as ONE window at
  row 0 into a 128×128 block of zeros: every element of the window lands on its own element of the block, inside
  it, so the block's first 40 rows are the classifier weights.
-/
import proofs.«406987_j38010460569655_3_alg».proof.KernelIdeal
import Idealize.ShloMosaic.PureOps.Ideal
import Idealize.ShloMosaic.Lib.ValueIdx
import Idealize.ShloMosaic.Lib.StableHlo.Predicate

noncomputable section

namespace Cert.KernelIdeal.ScatterWc

open Idealize.ShloMosaic Idealize.ShloMosaic.ValueIdx Cert.KernelIdeal Cert.KernelIdeal.Facts₀ Cert.KernelIdeal.Facts

variable [Cert.KernelIdeal.Facts]
variable {F : FTy → Type} [FloatOps F]

section Lemmas

/-! ### A left fold of overwrites at pairwise distinct places -/

/-- A place none of the listed elements is written to keeps what it held. -/
theorem foldl_set_untouched {ι κ α : Type} [DecidableEq κ] (t : ι → κ) (v : ι → α) (l : List ι) (r : κ → α) (i : κ)
    (h : ∀ n ∈ l, t n ≠ i) :
    l.foldl (fun r n => fun i' => if i' = t n then v n else r i') r i = r i := by
  induction l generalizing r with
  | nil => rfl
  | cons a l ih =>
    rw [List.foldl_cons, ih _ (fun n hn => h n (List.mem_cons_of_mem a hn))]
    exact if_neg (fun hi => h a List.mem_cons_self hi.symm)

/-- Writing each listed element to its own place (the places pairwise distinct, no element listed twice) leaves,
    at the place of a listed element, that element's value. -/
theorem foldl_set_hit {ι κ α : Type} [DecidableEq κ] (t : ι → κ) (ht : Function.Injective t) (v : ι → α) (l : List ι)
    (hl : l.Nodup) (r : κ → α) (n0 : ι) (hn0 : n0 ∈ l) :
    l.foldl (fun r n => fun i' => if i' = t n then v n else r i') r (t n0) = v n0 := by
  induction l generalizing r with
  | nil => exact absurd hn0 List.not_mem_nil
  | cons a l ih =>
    rw [List.foldl_cons]
    rcases List.mem_cons.1 hn0 with rfl | hmem
    · rw [foldl_set_untouched t v l _ (t n0) (fun n hn hEq => (List.nodup_cons.1 hl).1 (ht hEq ▸ hn))]
      exact if_pos rfl
    · exact ih (List.nodup_cons.1 hl).2 _ hmem

/-- An overwriting scatter whose every update lands inside the operand, on a place of its own, reads at an update's
    place that update. -/
theorem scatter_set_apply {s si u : Shape} {α : Type} {w : Nat} (d : ScatterDims s si u) (x : s.Idx → α) (idx : IVec si w)
    (upd : u.Idx → α) (emb : u.Idx → s.Idx) (hemb : ∀ j, d.resultIdx? j idx = some (emb j))
    (hinj : Function.Injective emb) (j0 : u.Idx) :
    Host.scatter d (fun _ b => b) x idx upd (emb j0) = upd j0 := by
  have h := foldl_set_hit (fun n : Fin u.numel => emb (u.rowMajor.symm n))
    (hinj.comp u.rowMajor.symm.injective) (fun n => upd (u.rowMajor.symm n)) (List.finRange u.numel)
    (List.nodup_finRange _) x (u.rowMajor j0) (List.mem_finRange _)
  simp only [Equiv.symm_apply_apply] at h
  unfold Host.scatter
  simp only [hemb]
  exact h

/-! ### Where the one window's elements land, for these dimension numbers -/

/-- The index vector: one word, zero. -/
abbrev idx0 : IVec S1 32 := broadcastInDim S1 ![] bcast_S_S1 (constantI S_ 32 0#32)

theorem wc_start0 (j : S40x128.Idx) : scatter_S128x128_S1_S40x128_01_n_0_0.start j idx0 0 = 0 := by
  unfold ScatterDims.start
  have hm : (0 : Fin S128x128.rank) ∈ scatter_S128x128_S1_S40x128_01_n_0_0.scatterDimsToOperandDims := List.mem_singleton.mpr rfl
  rw [dif_pos hm]
  rfl

theorem wc_start1 (j : S40x128.Idx) : scatter_S128x128_S1_S40x128_01_n_0_0.start j idx0 1 = 0 := by
  unfold ScatterDims.start
  have hm : ¬ (1 : Fin S128x128.rank) ∈ scatter_S128x128_S1_S40x128_01_n_0_0.scatterDimsToOperandDims :=
    (by decide : ¬ (1 : Fin 2) ∈ ([0] : List (Fin 2)))
  rw [dif_neg hm]

theorem wc_window0 (j : S40x128.Idx) : scatter_S128x128_S1_S40x128_01_n_0_0.window j 0 = (j 0).val := by
  unfold ScatterDims.window
  have hm : (0 : Fin S128x128.rank) ∈ scatter_S128x128_S1_S40x128_01_n_0_0.sKept :=
    (by decide : (0 : Fin 2) ∈ Shape.kept S128x128 ([] : List (Fin 2)))
  rw [dif_pos hm]
  rfl

theorem wc_window1 (j : S40x128.Idx) : scatter_S128x128_S1_S40x128_01_n_0_0.window j 1 = (j 1).val := by
  unfold ScatterDims.window
  have hm : (1 : Fin S128x128.rank) ∈ scatter_S128x128_S1_S40x128_01_n_0_0.sKept :=
    (by decide : (1 : Fin 2) ∈ Shape.kept S128x128 ([] : List (Fin 2)))
  rw [dif_pos hm]
  rfl

/-- The window's element (o, k) as an element of the block: the same row and column. -/
def emb (j : S40x128.Idx) : S128x128.Idx :=
  ix2 (⟨(j 0).val, by have := idx2_lt0 j; omega⟩ : Fin 128) (⟨(j 1).val, idx2_lt1 j⟩ : Fin 128)

theorem emb_injective : Function.Injective emb := by
  intro j j' h
  have h0 : (j 0).val = (j' 0).val := by
    have e := congrArg Fin.val (congrFun h 0)
    exact e
  have h1 : (j 1).val = (j' 1).val := by
    have e := congrArg Fin.val (congrFun h 1)
    exact e
  rw [eq_ix2 j, eq_ix2 j', Fin.ext h0, Fin.ext h1]

/-- Every element of the window lands inside the block, at its own row and column. -/
theorem wc_resultIdx (j : S40x128.Idx) : scatter_S128x128_S1_S40x128_01_n_0_0.resultIdx? j idx0 = some (emb j) := by
  have k0 : 0 ≤ scatter_S128x128_S1_S40x128_01_n_0_0.start j idx0 0 + scatter_S128x128_S1_S40x128_01_n_0_0.window j 0
      ∧ scatter_S128x128_S1_S40x128_01_n_0_0.start j idx0 0 + scatter_S128x128_S1_S40x128_01_n_0_0.window j 0 < S128x128.size 0 := by
    rw [wc_start0, wc_window0]
    show 0 ≤ (0 : Int) + ((j 0).val : Int) ∧ (0 : Int) + ((j 0).val : Int) < ((128 : Nat) : Int)
    have := idx2_lt0 j
    omega
  have k1 : 0 ≤ scatter_S128x128_S1_S40x128_01_n_0_0.start j idx0 1 + scatter_S128x128_S1_S40x128_01_n_0_0.window j 1
      ∧ scatter_S128x128_S1_S40x128_01_n_0_0.start j idx0 1 + scatter_S128x128_S1_S40x128_01_n_0_0.window j 1 < S128x128.size 1 := by
    rw [wc_start1, wc_window1]
    show 0 ≤ (0 : Int) + ((j 1).val : Int) ∧ (0 : Int) + ((j 1).val : Int) < ((128 : Nat) : Int)
    have := idx2_lt1 j
    omega
  have hall : ∀ a, 0 ≤ scatter_S128x128_S1_S40x128_01_n_0_0.start j idx0 a + scatter_S128x128_S1_S40x128_01_n_0_0.window j a
      ∧ scatter_S128x128_S1_S40x128_01_n_0_0.start j idx0 a + scatter_S128x128_S1_S40x128_01_n_0_0.window j a < S128x128.size a := by
    intro a
    match a with
    | ⟨0, _⟩ => exact k0
    | ⟨1, _⟩ => exact k1
  unfold ScatterDims.resultIdx?
  rw [dif_pos hall]
  refine congrArg some (funext fun a => Fin.ext ?_)
  match a with
  | ⟨0, _⟩ =>
    show (scatter_S128x128_S1_S40x128_01_n_0_0.start j idx0 0 + scatter_S128x128_S1_S40x128_01_n_0_0.window j 0).toNat = (j 0).val
    rw [wc_start0, wc_window0]
    omega
  | ⟨1, _⟩ =>
    show (scatter_S128x128_S1_S40x128_01_n_0_0.start j idx0 1 + scatter_S128x128_S1_S40x128_01_n_0_0.window j 1).toNat = (j 1).val
    rw [wc_start1, wc_window1]
    omega

end Lemmas

/-- Row o < 40, column k of the block after the write is the update's element (o, k), whatever the block held. -/
theorem scatter_wc_apply (x : FVec F S128x128 .f32) (u : FVec F S40x128 .f32) (o : Fin 40) (k : Fin 128) :
    Host.scatter scatter_S128x128_S1_S40x128_01_n_0_0 (fun _ b => b) x
        (broadcastInDim S1 ![] bcast_S_S1 (constantI S_ 32 0#32)) u (ix2 (⟨o.val, by omega⟩ : Fin 128) k)
      = u (ix2 o k) := by
  exact scatter_set_apply scatter_S128x128_S1_S40x128_01_n_0_0 x idx0 u emb wc_resultIdx emb_injective (ix2 o k)

end Cert.KernelIdeal.ScatterWc

end
-- ==== Proof.KHostP.lean ====
/-
  The padded tables and the classifier block as the kernels find them, read at an index. Before the first kernel
  the host pads each embedding table with 23 zero rows, and writes the classifier weights into the first 40 rows of
  a zero 128×128 block and transposes it (changes of float format are the identity over the extended reals). No
  later operation and no kernel writes these buffers, so at every kernel's entry they still hold those values.
-/
import proofs.«406987_j38010460569655_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import proofs.«406987_j38010460569655_3_alg».proof.Proof.ScatterWc

set_option maxRecDepth 16384

noncomputable section

namespace Cert.KernelIdeal.KHostP

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

variable [Cert.KernelIdeal.Facts]
variable (m : (ℓ : Loc nD τ sig) → Buf (Elt Ideal) ℓ) (ρ : Dev nD → PrngReg)

/-- the padded first table agrees with the table on its 1001 rows -/
theorem key_pad (c : Dev nD) (k : Fin 1001) (q : Fin 128) :
    V1 m ρ c main_call0_v1 (ix2 (⟨k.val, by omega⟩ : Fin 1024) q) = m ((c : Thread nD τ).loc main_arg3) (ix2 k q) := by
  show StableHlo.after hostOps0 (W0 m ρ c) (Proc.devRef .tc main_call0_v1) (ix2 (⟨k.val, by omega⟩ : Fin 1024) q) = _
  after_results
  show pad S1024x128 ![0, 0] ![23, 0] ![0, 0] (m ((c : Thread nD τ).loc main_arg3) : S1001x128.Idx → EReal)
    (sitofp (F := Ideal) .f32 (constantI S_ 32 0#32)) Gen.pads_S1001x128_S1024x128_0230_000 Gen.h_S_ (ix2 (⟨k.val, by omega⟩ : Fin 1024) q) = _
  refine pad_apply_of_inside _ _ _ _ _ _ _ _ (ix2 k q) fun a => ?_
  match a with
  | ⟨0, _⟩ => show k.val = 0 + k.val * (0 + 1); omega
  | ⟨1, _⟩ => show q.val = 0 + q.val * (0 + 1); omega
/-- the padded second table agrees with the table on its 1001 rows -/
theorem val_pad (c : Dev nD) (k : Fin 1001) (q : Fin 128) :
    V1 m ρ c main_call0_v3 (ix2 (⟨k.val, by omega⟩ : Fin 1024) q) = m ((c : Thread nD τ).loc main_arg4) (ix2 k q) := by
  show StableHlo.after hostOps0 (W0 m ρ c) (Proc.devRef .tc main_call0_v3) (ix2 (⟨k.val, by omega⟩ : Fin 1024) q) = _
  after_results
  show pad S1024x128 ![0, 0] ![23, 0] ![0, 0] (m ((c : Thread nD τ).loc main_arg4) : S1001x128.Idx → EReal)
    (sitofp (F := Ideal) .f32 (constantI S_ 32 0#32)) Gen.pads_S1001x128_S1024x128_0230_000 Gen.h_S_ (ix2 (⟨k.val, by omega⟩ : Fin 1024) q) = _
  refine pad_apply_of_inside _ _ _ _ _ _ _ _ (ix2 k q) fun a => ?_
  match a with
  | ⟨0, _⟩ => show k.val = 0 + k.val * (0 + 1); omega
  | ⟨1, _⟩ => show q.val = 0 + q.val * (0 + 1); omega

/-- No host operation after the first stretch and none of the first three kernels writes the classifier block:
    at the last kernel's entry it is what the first stretch left. -/
private theorem walk_v14 (c : Dev nD) :
    W7 m ρ c (Proc.devRef .tc main_call0_v14) = W1 m ρ c (Proc.devRef .tc main_call0_v14) :=
  calc W7 m ρ c (Proc.devRef .tc main_call0_v14)
    _ = W6 m ρ c (Proc.devRef .tc main_call0_v14) := StableHlo.after_of_forall_not_mem (b := Proc.devRef .tc main_call0_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_call0_v14) := W6_of_ne m ρ c main_call0_v14 (by decide)
    _ = W4 m ρ c (Proc.devRef .tc main_call0_v14) := StableHlo.after_of_forall_not_mem (b := Proc.devRef .tc main_call0_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_call0_v14) := W4_of_ne m ρ c main_call0_v14 (by decide)
    _ = W2 m ρ c (Proc.devRef .tc main_call0_v14) := StableHlo.after_of_forall_not_mem (b := Proc.devRef .tc main_call0_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v14) := W2_of_ne m ρ c main_call0_v14 (by decide)

/-- the classifier block as the last kernel finds it: column o < 40 is the classifier's row o -/
theorem wc_pad (c : Dev nD) (k : Fin 128) (o : Fin 40) :
    V7 m ρ c main_call0_v14 (ix2 k (⟨o.val, by omega⟩ : Fin 128)) = m ((c : Thread nD τ).loc main_arg9) (ix2 o k) := by
  show W7 m ρ c (Proc.devRef .tc main_call0_v14) (ix2 k (⟨o.val, by omega⟩ : Fin 128)) = _
  rw [walk_v14]
  show StableHlo.after hostOps0 (W0 m ρ c) (Proc.devRef .tc main_call0_v14) (ix2 k (⟨o.val, by omega⟩ : Fin 128)) = _
  after_results
  simp only [StableHlo.TRef.ofBuf, StableHlo.TRef.toBuf, cast_eq]
  rw [truncf_apply]
  refine (transpose_apply [1, 0] _ Gen.transposes_S128x128_S128x128_1_0 (ix2 k (⟨o.val, by omega⟩ : Fin 128))
    (ix2 (⟨o.val, by omega⟩ : Fin 128) k) (fun b => match b with
      | ⟨0, _⟩ => rfl
      | ⟨1, _⟩ => rfl)).trans ?_
  exact ScatterWc.scatter_wc_apply (F := Ideal) _ _ o k

end Cert.KernelIdeal.KHostP

end
-- ==== Proof.KHostA.lean ====
/-
  The host stretches between the kernels, read as values. Before each dense kernel the host sorts the edges by
  destination (once), reads source and destination words through the sorted positions, gathers the source rows of
  the previous kernel's result and adds them onto it: the aggregation in the kernel's form, of the previous
  kernel's result array and the two edge arguments. The feature words reach the first kernel as launched, and the
  program's result is the first 40 columns of the last kernel's result array.
-/
import proofs.«406987_j38010460569655_3_alg».proof.Proof.Gen.KernelIdeal.Frame
import proofs.«406987_j38010460569655_3_alg».proof.Proof.AggPerm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KHostA

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

variable [Cert.KernelIdeal.Facts]
variable (m : (ℓ : Loc nD τ sig) → Buf (Elt Ideal) ℓ) (ρ : Dev nD → PrngReg)

/-- No operation of a host stretch writes the buffer: each operation's one result buffer is another reference. -/
local macro "host_keeps " h:ident : tactic => `(tactic|
  exact List.forall_iff_forall_mem.mp (by
    simp only [$h:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- the source words reach the first aggregation as launched: neither the first host stretch nor the embedding
    kernel writes them -/
theorem arg1_W2 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (by host_keeps hostOps0)
    _ = m ((c : Thread nD τ).loc main_arg1) := rfl

/-- the destination words likewise -/
theorem arg2_W2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) :=
        StableHlo.after_of_forall_not_mem (b := Proc.devRef .tc main_arg2) _ _ (by host_keeps hostOps0)
    _ = m ((c : Thread nD τ).loc main_arg2) := rfl

/-- Contents written to a typed buffer and read back are themselves: the two transports go along the same equation. -/
theorem ofBuf_toBuf {Val : EltTy → Type} {T : BufTy} (x : StableHlo.TRef sig T) (v : T.Contents Val) :
    x.ofBuf (x.toBuf v) = v := by
  unfold StableHlo.TRef.ofBuf StableHlo.TRef.toBuf
  rw [cast_cast]
  exact cast_eq _ _

/-- At a buffer whose type is the value's by computation the transport is the identity. -/
theorem ofBuf_of {Val : EltTy → Type} (r : Ref sig .tc) (h2 h3) (X : r.ty.Contents Val) :
    (StableHlo.TRef.of r rfl h2 h3 : StableHlo.TRef sig r.ty).ofBuf X = X := rfl
theorem toBuf_of {Val : EltTy → Type} (r : Ref sig .tc) (h2 h3) (X : r.ty.Contents Val) :
    (StableHlo.TRef.of r rfl h2 h3 : StableHlo.TRef sig r.ty).toBuf X = X := rfl

/-- At the literal buffers this stretch reads and writes, whose types are the values' by computation, the transport is
    the identity. -/
theorem ofBuf_arg1 {Val : EltTy → Type} (h1 h2 h3) (X : main_arg1.ty.Contents Val) :
    (StableHlo.TRef.of main_arg1 h1 h2 h3 : StableHlo.TRef sig ⟨S800000, .i32⟩).ofBuf X = X := rfl
theorem ofBuf_arg2 {Val : EltTy → Type} (h1 h2 h3) (X : main_arg2.ty.Contents Val) :
    (StableHlo.TRef.of main_arg2 h1 h2 h3 : StableHlo.TRef sig ⟨S800000, .i32⟩).ofBuf X = X := rfl
theorem ofBuf_v15 {Val : EltTy → Type} (h1 h2 h3) (X : main_call0_v15.ty.Contents Val) :
    (StableHlo.TRef.of main_call0_v15 h1 h2 h3 : StableHlo.TRef sig ⟨S50000x128, .f32⟩).ofBuf X = X := rfl
theorem toBuf_v44 {Val : EltTy → Type} (h1 h2 h3) (X : (⟨S50000x128, .f32⟩ : BufTy).Contents Val) :
    (StableHlo.TRef.of main_call0_v44 h1 h2 h3 : StableHlo.TRef sig ⟨S50000x128, .f32⟩).toBuf X = X := rfl

theorem toBuf_v23 {Val : EltTy → Type} (h1 h2 h3) (X : (⟨S800000, .i32⟩ : BufTy).Contents Val) :
    (StableHlo.TRef.of main_call0_v23 h1 h2 h3 : StableHlo.TRef sig ⟨S800000, .i32⟩).toBuf X = X := rfl
theorem toBuf_v30 {Val : EltTy → Type} (h1 h2 h3) (X : (⟨S800000, .i32⟩ : BufTy).Contents Val) :
    (StableHlo.TRef.of main_call0_v30 h1 h2 h3 : StableHlo.TRef sig ⟨S800000, .i32⟩).toBuf X = X := rfl
theorem ofBuf_v23 {Val : EltTy → Type} (h1 h2 h3) (X : main_call0_v23.ty.Contents Val) :
    (StableHlo.TRef.of main_call0_v23 h1 h2 h3 : StableHlo.TRef sig ⟨S800000, .i32⟩).ofBuf X = X := rfl
theorem ofBuf_v30 {Val : EltTy → Type} (h1 h2 h3) (X : main_call0_v30.ty.Contents Val) :
    (StableHlo.TRef.of main_call0_v30 h1 h2 h3 : StableHlo.TRef sig ⟨S800000, .i32⟩).ofBuf X = X := rfl
theorem ofBuf_v53 {Val : EltTy → Type} (h1 h2 h3) (X : main_call0_v53.ty.Contents Val) :
    (StableHlo.TRef.of main_call0_v53 h1 h2 h3 : StableHlo.TRef sig ⟨S50000x128, .f32⟩).ofBuf X = X := rfl
theorem ofBuf_v76 {Val : EltTy → Type} (h1 h2 h3) (X : main_call0_v76.ty.Contents Val) :
    (StableHlo.TRef.of main_call0_v76 h1 h2 h3 : StableHlo.TRef sig ⟨S50000x128, .f32⟩).ofBuf X = X := rfl
theorem toBuf_v67 {Val : EltTy → Type} (h1 h2 h3) (X : (⟨S50000x128, .f32⟩ : BufTy).Contents Val) :
    (StableHlo.TRef.of main_call0_v67 h1 h2 h3 : StableHlo.TRef sig ⟨S50000x128, .f32⟩).toBuf X = X := rfl
theorem toBuf_v90 {Val : EltTy → Type} (h1 h2 h3) (X : (⟨S50000x128, .f32⟩ : BufTy).Contents Val) :
    (StableHlo.TRef.of main_call0_v90 h1 h2 h3 : StableHlo.TRef sig ⟨S50000x128, .f32⟩).toBuf X = X := rfl

/-- the first dense kernel's node rows: the aggregation of the embedding kernel's result -/
theorem z1 (c : Dev nD) :
    V3 m ρ c main_call0_v44 = Agg.aggK (F := Ideal) (V2 m ρ c main_call0_v15)
      (m ((c : Thread nD τ).loc main_arg1)) (m ((c : Thread nD τ).loc main_arg2)) := by
  show StableHlo.after hostOps1 (W2 m ρ c) (Proc.devRef .tc main_call0_v44)
    = Agg.aggK (F := Ideal) (W2 m ρ c (Proc.devRef .tc main_call0_v15))
        (m ((c : Thread nD τ).loc main_arg1)) (m ((c : Thread nD τ).loc main_arg2))
  after_results_simp
  simp only [ofBuf_toBuf]
  simp only [ofBuf_arg1, ofBuf_arg2, ofBuf_v15, toBuf_v44]
  rw [arg1_W2, arg2_W2]
  unfold Agg.aggK Agg.wrapIdx Agg.sortedBy Agg.sortedPos
  generalize W2 m ρ c (Proc.devRef .tc main_call0_v15) = h
  generalize m ((c : Thread nD τ).loc main_arg1) = src
  generalize m ((c : Thread nD τ).loc main_arg2) = dst
  rfl

/-! ### The edge words read through the sorted positions are made once, in the first aggregation's stretch, and no
    later stretch or kernel writes them -/

/-- the source words through the sorted positions, as the first dense kernel's stretch leaves them -/
theorem v23_W3 (c : Dev nD) :
    (W3 m ρ c (Proc.devRef .tc main_call0_v23) : IVec S800000 32)
      = Agg.sortedBy (m ((c : Thread nD τ).loc main_arg2)) (m ((c : Thread nD τ).loc main_arg1)) := by
  show StableHlo.after hostOps1 (W2 m ρ c) (Proc.devRef .tc main_call0_v23) = _
  after_results_simp
  simp only [ofBuf_toBuf]
  simp only [ofBuf_arg1, ofBuf_arg2, toBuf_v23]
  rw [arg1_W2, arg2_W2]
  unfold Agg.sortedBy Agg.wrapIdx Agg.sortedPos
  generalize m ((c : Thread nD τ).loc main_arg1) = src
  generalize m ((c : Thread nD τ).loc main_arg2) = dst
  rfl

/-- the destination words through the sorted positions -/
theorem v30_W3 (c : Dev nD) :
    (W3 m ρ c (Proc.devRef .tc main_call0_v30) : IVec S800000 32)
      = Agg.sortedBy (m ((c : Thread nD τ).loc main_arg2)) (m ((c : Thread nD τ).loc main_arg2)) := by
  show StableHlo.after hostOps1 (W2 m ρ c) (Proc.devRef .tc main_call0_v30) = _
  after_results_simp
  simp only [ofBuf_toBuf]
  simp only [ofBuf_arg2, toBuf_v30]
  rw [arg2_W2]
  unfold Agg.sortedBy Agg.wrapIdx Agg.sortedPos
  generalize m ((c : Thread nD τ).loc main_arg2) = dst
  rfl

theorem v23_W4 (c : Dev nD) :
    (W4 m ρ c (Proc.devRef .tc main_call0_v23) : IVec S800000 32)
      = Agg.sortedBy (m ((c : Thread nD τ).loc main_arg2)) (m ((c : Thread nD τ).loc main_arg1)) :=
  (W4_of_ne m ρ c main_call0_v23 (by decide)).trans (v23_W3 m ρ c)
theorem v30_W4 (c : Dev nD) :
    (W4 m ρ c (Proc.devRef .tc main_call0_v30) : IVec S800000 32)
      = Agg.sortedBy (m ((c : Thread nD τ).loc main_arg2)) (m ((c : Thread nD τ).loc main_arg2)) :=
  (W4_of_ne m ρ c main_call0_v30 (by decide)).trans (v30_W3 m ρ c)

theorem v23_W6 (c : Dev nD) :
    (W6 m ρ c (Proc.devRef .tc main_call0_v23) : IVec S800000 32)
      = Agg.sortedBy (m ((c : Thread nD τ).loc main_arg2)) (m ((c : Thread nD τ).loc main_arg1)) :=
  calc W6 m ρ c (Proc.devRef .tc main_call0_v23)
    _ = W5 m ρ c (Proc.devRef .tc main_call0_v23) := W6_of_ne m ρ c main_call0_v23 (by decide)
    _ = W4 m ρ c (Proc.devRef .tc main_call0_v23) :=
        StableHlo.after_of_forall_not_mem (b := Proc.devRef .tc main_call0_v23) _ _ (by host_keeps hostOps2)
    _ = _ := v23_W4 m ρ c
theorem v30_W6 (c : Dev nD) :
    (W6 m ρ c (Proc.devRef .tc main_call0_v30) : IVec S800000 32)
      = Agg.sortedBy (m ((c : Thread nD τ).loc main_arg2)) (m ((c : Thread nD τ).loc main_arg2)) :=
  calc W6 m ρ c (Proc.devRef .tc main_call0_v30)
    _ = W5 m ρ c (Proc.devRef .tc main_call0_v30) := W6_of_ne m ρ c main_call0_v30 (by decide)
    _ = W4 m ρ c (Proc.devRef .tc main_call0_v30) :=
        StableHlo.after_of_forall_not_mem (b := Proc.devRef .tc main_call0_v30) _ _ (by host_keeps hostOps2)
    _ = _ := v30_W4 m ρ c

/-- the second dense kernel's node rows: the aggregation of the first dense kernel's result -/
theorem z2 (c : Dev nD) :
    V5 m ρ c main_call0_v67 = Agg.aggK (F := Ideal) (V4 m ρ c main_call0_v53)
      (m ((c : Thread nD τ).loc main_arg1)) (m ((c : Thread nD τ).loc main_arg2)) := by
  show StableHlo.after hostOps2 (W4 m ρ c) (Proc.devRef .tc main_call0_v67)
    = Agg.aggK (F := Ideal) (W4 m ρ c (Proc.devRef .tc main_call0_v53))
        (m ((c : Thread nD τ).loc main_arg1)) (m ((c : Thread nD τ).loc main_arg2))
  after_results_simp
  simp only [ofBuf_toBuf]
  simp only [ofBuf_v53, ofBuf_v23, ofBuf_v30, toBuf_v67]
  rw [v23_W4, v30_W4]
  unfold Agg.aggK Agg.wrapIdx
  generalize W4 m ρ c (Proc.devRef .tc main_call0_v53) = h
  generalize m ((c : Thread nD τ).loc main_arg1) = src
  generalize m ((c : Thread nD τ).loc main_arg2) = dst
  rfl

/-- the last kernel's node rows: the aggregation of the second dense kernel's result -/
theorem z3 (c : Dev nD) :
    V7 m ρ c main_call0_v90 = Agg.aggK (F := Ideal) (V6 m ρ c main_call0_v76)
      (m ((c : Thread nD τ).loc main_arg1)) (m ((c : Thread nD τ).loc main_arg2)) := by
  show StableHlo.after hostOps3 (W6 m ρ c) (Proc.devRef .tc main_call0_v90)
    = Agg.aggK (F := Ideal) (W6 m ρ c (Proc.devRef .tc main_call0_v76))
        (m ((c : Thread nD τ).loc main_arg1)) (m ((c : Thread nD τ).loc main_arg2))
  after_results_simp
  simp only [ofBuf_toBuf]
  simp only [ofBuf_v76, ofBuf_v23, ofBuf_v30, toBuf_v90]
  rw [v23_W6, v30_W6]
  unfold Agg.aggK Agg.wrapIdx
  generalize W6 m ρ c (Proc.devRef .tc main_call0_v76) = h
  generalize m ((c : Thread nD τ).loc main_arg1) = src
  generalize m ((c : Thread nD τ).loc main_arg2) = dst
  rfl

end Cert.KernelIdeal.KHostA

end
-- ==== Proof.KHostO.lean ====
/-
  The ends of the kernel program's run, read as values. The feature words reach the first kernel as launched (no
  host operation before it writes them), and the program's result is the first 40 columns of the last kernel's
  result array (one slice after the last kernel).
-/
import proofs.«406987_j38010460569655_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KHostO

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen

variable [Cert.KernelIdeal.Facts]
variable (m : (ℓ : Loc nD τ sig) → Buf (Elt Ideal) ℓ) (ρ : Dev nD → PrngReg)

/-- the feature words as the first kernel finds them are the argument -/
theorem feats0 (c : Dev nD) : V1 m ρ c main_arg0 = m ((c : Thread nD τ).loc main_arg0) := by
  show W1 m ρ c (Proc.devRef .tc main_arg0) = _
  refine (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl

/-- the program's result, element (r, o), is the last kernel's result array at (r, o) -/
theorem out_apply (c : Dev nD) (i : S50000x40.Idx) :
    W9 m ρ c (Proc.devRef .tc main_v0) i
      = V8 m ρ c main_call0_v99 (ix2 (⟨(i 0).val, (i 0).isLt⟩ : Fin 50000) (⟨(i 1).val, Nat.lt_of_lt_of_le (i 1).isLt (by decide)⟩ : Fin 128)) := by
  -- the one host operation after the last kernel is a slice of its result array
  have e : (W9 m ρ c (Proc.devRef .tc main_v0) : S50000x40.Idx → EReal)
      = extractStridedSlice S50000x40 ![0, 0] (V8 m ρ c main_call0_v99 : S50000x128.Idx → EReal) Gen.slices_S50000x128_S50000x40_0_0 := by
    show StableHlo.after hostOps4 (W8 m ρ c) (Proc.devRef .tc main_v0) = _
    after_results
    rfl
  refine (congrFun e i).trans ?_
  exact extractStridedSlice_apply (s := S50000x128) (t := S50000x40) ![0, 0] (V8 m ρ c main_call0_v99 : S50000x128.Idx → EReal)
    Gen.slices_S50000x128_S50000x40_0_0 i
    (ix2 (⟨(i 0).val, (i 0).isLt⟩ : Fin 50000) (⟨(i 1).val, Nat.lt_of_lt_of_le (i 1).isLt (by decide)⟩ : Fin 128)) (fun a => match a with
    | ⟨0, _⟩ => by show (i 0).val = 0 + (i 0).val; omega
    | ⟨1, _⟩ => by show (i 1).val = 0 + (i 1).val; omega)

end Cert.KernelIdeal.KHostO

end
-- ==== Proof.KValue.lean ====
/-
  The kernel program's result as one function of the arguments. The embedding kernel's result array is the
  specification's embedding; each dense kernel's result is the specification's dense block, with that layer's
  weights, of the aggregation (in the kernel's form) of the previous kernel's result; the last kernel's array,
  cut to its first 40 columns, is the projection of the third block.
-/
import proofs.«406987_j38010460569655_3_alg».proof.Proof.KArr0
import proofs.«406987_j38010460569655_3_alg».proof.Proof.KArr123
import proofs.«406987_j38010460569655_3_alg».proof.Proof.KHostW
import proofs.«406987_j38010460569655_3_alg».proof.Proof.KHostP
import proofs.«406987_j38010460569655_3_alg».proof.Proof.KHostA
import proofs.«406987_j38010460569655_3_alg».proof.Proof.KHostO
import Idealize.ShloMosaic.Lib.StableHlo.Predicate

set_option maxRecDepth 16384

noncomputable section

namespace Cert.KernelIdeal.KValue

open Idealize.ShloMosaic Idealize.ShloMosaic.TcCoe Idealize.SL.Sem Idealize.ShloMosaic.ValueIdx Idealize.ShloMosaic.Pipeline Cert.KernelIdeal Cert.KernelIdeal.Facts₀ Cert.KernelIdeal.Facts Cert.KernelIdeal.Gen Cert.Gin

variable [Cert.KernelIdeal.Facts]
variable (m : (ℓ : Loc nD τ sig) → Buf (Elt Ideal) ℓ) (ρ : Dev nD → PrngReg)

/-- the argument arrays of core c, by name -/
abbrev feats (c : Dev nD) : IVec S50000x2 32 := m ((c : Thread nD τ).loc main_arg0)
abbrev src (c : Dev nD) : IVec S800000 32 := m ((c : Thread nD τ).loc main_arg1)
abbrev dst (c : Dev nD) : IVec S800000 32 := m ((c : Thread nD τ).loc main_arg2)
abbrev key (c : Dev nD) : FVec Ideal S1001x128 .f32 := m ((c : Thread nD τ).loc main_arg3)
abbrev val (c : Dev nD) : FVec Ideal S1001x128 .f32 := m ((c : Thread nD τ).loc main_arg4)
abbrev W1 (c : Dev nD) : FVec Ideal S3x128x128 .f32 := m ((c : Thread nD τ).loc main_arg5)
abbrev b1 (c : Dev nD) : FVec Ideal S3x128 .f32 := m ((c : Thread nD τ).loc main_arg6)
abbrev W2 (c : Dev nD) : FVec Ideal S3x128x128 .f32 := m ((c : Thread nD τ).loc main_arg7)
abbrev b2 (c : Dev nD) : FVec Ideal S3x128 .f32 := m ((c : Thread nD τ).loc main_arg8)
abbrev Wc (c : Dev nD) : FVec Ideal S40x128 .f32 := m ((c : Thread nD τ).loc main_arg9)

/-- a feature word that is a table row number is below 1001 as a natural number -/
theorem toNat_lt_of_range {w : BitVec 32} (h : 0 ≤ w.toInt ∧ w.toInt < 1001) : w.toNat < 1001 := by
  have h1 := h.1; have h2 := h.2
  rw [BitVec.toInt_eq_toNat_cond] at h1 h2
  split at h1 <;> omega

/-- the embedding kernel's result -/
theorem h0 (c : Dev nD) (hf : ∀ i : S50000x2.Idx, 0 ≤ (feats m c i).toInt ∧ (feats m c i).toInt < 1001) :
    V2 m ρ c main_call0_v15 = embed (feats m c) (key m c) (val m c) := by
  have hlt : ∀ i : S50000x2.Idx, (feats m c i).toNat < 1001 := fun i => toNat_lt_of_range (hf i)
  have e0 : V1 m ρ c main_arg0 = feats m c := KHostO.feats0 m ρ c
  have a := KArr0.arr0 (V1 m ρ) c (by rw [e0]; exact fun i => Nat.lt_trans (hlt i) (by decide))
  rw [e0] at a
  exact ((hF0 m ρ c 3).symm.trans a).trans
    (embedK_eq (feats m c) (key m c) (val m c) _ _ (KHostP.key_pad m ρ c) (KHostP.val_pad m ρ c) hlt)

/-- the first dense kernel's result -/
theorem h1 (c : Dev nD) :
    V4 m ρ c main_call0_v53
      = mlp (Agg.aggK (F := Ideal) (V2 m ρ c main_call0_v15) (src m c) (dst m c)) (W1 m c) (b1 m c) (W2 m c) (b2 m c) 0 := by
  have a := KArr123.arr1 (V3 m ρ) c
  rw [KHostA.z1 m ρ c] at a
  exact ((hF1 m ρ c 5).symm.trans a).trans
    (mlpK_eq _ (W1 m c) (b1 m c) (W2 m c) (b2 m c) 0 _ _ _ _
      (KHostW.w1t_0 m ρ c) (KHostW.b1r_0 m ρ c) (KHostW.w2t_0 m ρ c) (KHostW.b2r_0 m ρ c))

/-- the second dense kernel's result -/
theorem h2 (c : Dev nD) :
    V6 m ρ c main_call0_v76
      = mlp (Agg.aggK (F := Ideal) (V4 m ρ c main_call0_v53) (src m c) (dst m c)) (W1 m c) (b1 m c) (W2 m c) (b2 m c) 1 := by
  have a := KArr123.arr2 (V5 m ρ) c
  rw [KHostA.z2 m ρ c] at a
  exact ((hF2 m ρ c 5).symm.trans a).trans
    (mlpK_eq _ (W1 m c) (b1 m c) (W2 m c) (b2 m c) 1 _ _ _ _
      (KHostW.w1t_1 m ρ c) (KHostW.b1r_1 m ρ c) (KHostW.w2t_1 m ρ c) (KHostW.b2r_1 m ρ c))

/-- the program's result: the projection of the third dense block -/
theorem h3 (c : Dev nD) :
    W9 m ρ c (Proc.devRef .tc main_v0)
      = proj (mlp (Agg.aggK (F := Ideal) (V6 m ρ c main_call0_v76) (src m c) (dst m c)) (W1 m c) (b1 m c) (W2 m c) (b2 m c) 2) (Wc m c) := by
  have a := KArr123.arr3 (V7 m ρ) c
  rw [KHostA.z3 m ρ c] at a
  have e : V8 m ρ c main_call0_v99 = _ := (hF3 m ρ c 6).symm.trans a
  have p := lastK_proj (Agg.aggK (F := Ideal) (V6 m ρ c main_call0_v76) (src m c) (dst m c))
    (V7 m ρ c main_call0_v92) (V7 m ρ c main_call0_v94) (V7 m ρ c main_call0_v96) (V7 m ρ c main_call0_v98)
    (V7 m ρ c main_call0_v14) (Wc m c) (KHostP.wc_pad m ρ c)
  rw [mlpK_eq _ (W1 m c) (b1 m c) (W2 m c) (b2 m c) 2 _ _ _ _
      (KHostW.w1t_2 m ρ c) (KHostW.b1r_2 m ρ c) (KHostW.w2t_2 m ρ c) (KHostW.b2r_2 m ρ c)] at p
  rw [← p]
  funext i
  rw [KHostO.out_apply m ρ c i, e]

/-- The result buffer at the last boundary, as one function of the arguments (the aggregation in the kernel's
    form). -/
theorem result (c : Dev nD) (hf : ∀ i : S50000x2.Idx, 0 ≤ (feats m c i).toInt ∧ (feats m c i).toInt < 1001) :
    W9 m ρ c (Proc.devRef .tc main_v0)
      = proj (mlp (Agg.aggK (F := Ideal)
            (mlp (Agg.aggK (F := Ideal)
              (mlp (Agg.aggK (F := Ideal) (embed (feats m c) (key m c) (val m c)) (src m c) (dst m c))
                (W1 m c) (b1 m c) (W2 m c) (b2 m c) 0) (src m c) (dst m c))
              (W1 m c) (b1 m c) (W2 m c) (b2 m c) 1) (src m c) (dst m c))
          (W1 m c) (b1 m c) (W2 m c) (b2 m c) 2) (Wc m c) := by
  rw [h3 m ρ c, h2 m ρ c, h1 m ρ c, h0 m ρ c hf]

end Cert.KernelIdeal.KValue

end
-- ==== Proof.lean ====
/-
  The certificate of a three-layer message-passing network over a graph of 50000 nodes and 800000 edges:
  an embedding of each node's two categorical features (two table rows added, clipped at zero), three layers that
  each add to every node the sum of its in-neighbours' rows and pass the result through a two-layer dense block,
  and a final projection to 40 classes. The kernel program does the dense parts in four tiled kernels (the
  embedding as a product of one-hot rows with zero-padded tables, the weights transposed and cast beforehand, the
  projection fused into the last kernel over a zero-padded classifier block) and the aggregation on the host over
  the edges sorted by destination; the reference does everything on the host, edges in their given order.

  Over the extended reals the two results are equal whenever every feature word is a table row number and no
  destination word is negative: a change of float format is the identity, a product with a one-hot row selects the
  row, a sum over a rearrangement of the edges is the same sum, and the padded rows and columns are never read.
  Both sides are brought to ONE expression: the specification's embedding, dense blocks and projection, with the
  aggregation in the reference's form between them.
-/
import proofs.«406987_j38010460569655_3_alg».proof.Defs
import proofs.«406987_j38010460569655_3_alg».proof.Proof.Gen.Kernel
import proofs.«406987_j38010460569655_3_alg».proof.Proof.Gen.Kernel.Frame
import proofs.«406987_j38010460569655_3_alg».proof.Proof.Gen.KernelIdeal
import proofs.«406987_j38010460569655_3_alg».proof.Proof.Gen.KernelIdeal.Frame
import proofs.«406987_j38010460569655_3_alg».proof.Proof.Gen.ReferenceIdeal
import proofs.«406987_j38010460569655_3_alg».proof.Proof.Gen.ReferenceIdeal.Run
import proofs.«406987_j38010460569655_3_alg».proof.Proof.Gen.ReferenceIdeal.Read
import proofs.«406987_j38010460569655_3_alg».proof.Proof.Gen.Pre_finite_inputs
import proofs.«406987_j38010460569655_3_alg».proof.Proof.PreDecode
import proofs.«406987_j38010460569655_3_alg».proof.Proof.AggPerm
import proofs.«406987_j38010460569655_3_alg».proof.Proof.AggRef
import proofs.«406987_j38010460569655_3_alg».proof.Proof.RefSpec
import proofs.«406987_j38010460569655_3_alg».proof.Proof.RefEmbed
import proofs.«406987_j38010460569655_3_alg».proof.Proof.KRun
import proofs.«406987_j38010460569655_3_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two idealized programs, from memories agreeing on the arguments, end with equal results. -/
theorem algebraic : Cert.algebraic_KernelIdeal_ReferenceIdeal := by
  intro m ρ m' ρ' hpre hagree
  refine ⟨fun c => Cert.KernelIdeal.Gen.W9 m ρ c (Proc.devRef .tc Cert.KernelIdeal.main_v0),
    Cert.KernelIdeal.RunValue.run_value m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v111 m' c = Cert.KernelIdeal.Gen.W9 m ρ c (Proc.devRef .tc Cert.KernelIdeal.main_v0)
  obtain ⟨hf, hd⟩ := Cert.Pre_finite_inputs.Decode.ranges _ _ _ _ _ _ _ _ _ _ (hpre c)
  obtain ⟨e0, e1, e2, e3, e4, e5, e6, e7, e8, e9⟩ := hagree c
  -- the reference's result, stage by stage, down to the embedding
  rw [Cert.ReferenceIdeal.Read.val_main_v111_eq, e0, e1, e2, e3, e4, e5, e6, e7, e8, e9,
    Cert.ReferenceIdeal.RefSpec.proj_eq, Cert.ReferenceIdeal.RefSpec.mlp2_eq, Cert.AggRef.agg2,
    Cert.ReferenceIdeal.RefSpec.mlp1_eq, Cert.AggRef.agg1, Cert.ReferenceIdeal.RefSpec.mlp0_eq, Cert.AggRef.agg0,
    Cert.ReferenceIdeal.RefEmbed.embed_eq _ _ _ hf]
  -- the kernel program's result, and its three aggregations turned into the reference's form
  rw [Cert.KernelIdeal.KValue.result m ρ c hf,
    Cert.KernelIdeal.Agg.agg_perm Cert.AggRef.hb _ _ _ hd,
    Cert.KernelIdeal.Agg.agg_perm Cert.AggRef.hb _ _ _ hd,
    Cert.KernelIdeal.Agg.agg_perm Cert.AggRef.hb _ _ _ hd]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
